-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x2 : Shape := ⟨3, ![32, 1024, 2]⟩
abbrev S32x1024x1024 : Shape := ⟨3, ![32, 1024, 1024]⟩
abbrev S32x1024 : Shape := ⟨2, ![32, 1024]⟩
abbrev S32x128x2 : Shape := ⟨3, ![32, 128, 2]⟩
abbrev S32x128 : Shape := ⟨2, ![32, 128]⟩
abbrev S_ : Shape := ⟨0, ![]⟩

class Facts : Prop where
  bcast_S_S32x1024x2 : S_.BroadcastsInDim S32x1024x2 (![] : Fin 0 → Fin S32x1024x2.rank)
  reducesTo_S32x1024x2_S_d0_1_2 : S32x1024x2.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S32x128x2 : S_.BroadcastsInDim S32x128x2 (![] : Fin 0 → Fin S32x128x2.rank)
  reducesTo_S32x128x2_S_d0_1_2 : S32x128x2.ReducesTo [0, 1, 2] S_
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_arg6 : IVec S32x128 32) (main_v30 : IVec S_ 1) (main_v32 : IVec S32x128 1) : IVec S_ 1 :=
  let main_c_13 : IVec S_ 1 := constantI S_ 1 1#1
  let main_v33 : IVec S_ 1 := (fun x v => Host.reduce IntOp.andi x v reducesTo_S32x128_S_d0_1 h_S_) main_v32 main_c_13
  let main_v34 : IVec S_ 1 := andi main_v30 main_v33
  let main_c_14 : IVec S_ 32 := constantI S_ 32 0#32
  let main_v35 : IVec S32x128 32 := broadcastInDim S32x128 ![] bcast_S_S32x128 main_c_14
  let main_v36 : IVec S32x128 1 := cmpi .sge main_arg6 main_v35
  let main_c_15 : IVec S_ 1 := constantI S_ 1 1#1
  let main_v37 : IVec S_ 1 := (fun x v => Host.reduce IntOp.andi x v reducesTo_S32x128_S_d0_1 h_S_) main_v36 main_c_15
  let main_v38 : IVec S_ 1 := andi main_v34 main_v37
  let main_c_16 : IVec S_ 32 := constantI S_ 32 128#32
  let main_v39 : IVec S32x128 32 := broadcastInDim S32x128 ![] bcast_S_S32x128 main_c_16
  let main_v40 : IVec S32x128 1 := cmpi .slt main_arg6 main_v39
  let main_c_17 : IVec S_ 1 := constantI S_ 1 1#1
  let main_v41 : IVec S_ 1 := (fun x v => Host.reduce IntOp.andi x v reducesTo_S32x128_S_d0_1 h_S_) main_v40 main_c_17
  let main_v42 : IVec S_ 1 := andi main_v38 main_v41
  main_v42

def fn_part1 {F : FTy → Type} [FloatOps F] (main_arg4 : IVec S32x128 32) (main_arg5 : IVec S32x128 32) (main_arg6 : IVec S32x128 32) (main_v13 : IVec S_ 1) (main_v16 : IVec S32x128x2 1) : IVec S_ 1 :=
  let main_c_5 : IVec S_ 1 := constantI S_ 1 1#1
  let main_v17 : IVec S_ 1 := (fun x v => Host.reduce IntOp.andi x v reducesTo_S32x128x2_S_d0_1_2 h_S_) main_v16 main_c_5
  let main_v18 : IVec S_ 1 := andi main_v13 main_v17
  let main_c_6 : IVec S_ 32 := constantI S_ 32 0#32
  let main_v19 : IVec S32x128 32 := broadcastInDim S32x128 ![] bcast_S_S32x128 main_c_6
  let main_v20 : IVec S32x128 1 := cmpi .sge main_arg4 main_v19
  let main_c_7 : IVec S_ 1 := constantI S_ 1 1#1
  let main_v21 : IVec S_ 1 := (fun x v => Host.reduce IntOp.andi x v reducesTo_S32x128_S_d0_1 h_S_) main_v20 main_c_7
  let main_v22 : IVec S_ 1 := andi main_v18 main_v21
  let main_c_8 : IVec S_ 32 := constantI S_ 32 1024#32
  let main_v23 : IVec S32x128 32 := broadcastInDim S32x128 ![] bcast_S_S32x128 main_c_8
  let main_v24 : IVec S32x128 1 := cmpi .slt main_arg4 main_v23
  let main_c_9 : IVec S_ 1 := constantI S_ 1 1#1
  let main_v25 : IVec S_ 1 := (fun x v => Host.reduce IntOp.andi x v reducesTo_S32x128_S_d0_1 h_S_) main_v24 main_c_9
  let main_v26 : IVec S_ 1 := andi main_v22 main_v25
  let main_c_10 : IVec S_ 32 := constantI S_ 32 0#32
  let main_v27 : IVec S32x128 32 := broadcastInDim S32x128 ![] bcast_S_S32x128 main_c_10
  let main_v28 : IVec S32x128 1 := cmpi .sge main_arg5 main_v27
  let main_c_11 : IVec S_ 1 := constantI S_ 1 1#1
  let main_v29 : IVec S_ 1 := (fun x v => Host.reduce IntOp.andi x v reducesTo_S32x128_S_d0_1 h_S_) main_v28 main_c_11
  let main_v30 : IVec S_ 1 := andi main_v26 main_v29
  let main_c_12 : IVec S_ 32 := constantI S_ 32 1024#32
  let main_v31 : IVec S32x128 32 := broadcastInDim S32x128 ![] bcast_S_S32x128 main_c_12
  let main_v32 : IVec S32x128 1 := cmpi .slt main_arg5 main_v31
  fn_part2 (F := F) main_arg6 main_v30 main_v32

def fn {F : FTy → Type} [FloatOps F] (main_arg0 : FVec F S32x1024x2 .f32) (main_arg1 : FVec F S32x1024x1024 .f32) (main_arg2 : FVec F S32x1024 .f32) (main_arg3 : FVec F S32x128x2 .f32) (main_arg4 : IVec S32x128 32) (main_arg5 : IVec S32x128 32) (main_arg6 : IVec S32x128 32) : IVec S_ 1 :=
  let main_v0 : FVec F S32x1024x2 .f32 := Host.absf main_arg0
  let main_cst : FVec F S_ .f32 := constant S_ .f32 0x7F800000#32
  let main_v1 : FVec F S32x1024x2 .f32 := broadcastInDim S32x1024x2 ![] bcast_S_S32x1024x2 main_cst
  let main_v2 : IVec S32x1024x2 1 := cmpf .olt main_v0 main_v1
  let main_c : IVec S_ 1 := constantI S_ 1 1#1
  let main_v3 : IVec S_ 1 := (fun x v => Host.reduce IntOp.andi x v reducesTo_S32x1024x2_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x128x2 .f32 := Host.absf main_arg3
  let main_cst_4 : FVec F S_ .f32 := constant S_ .f32 0x7F800000#32
  let main_v15 : FVec F S32x128x2 .f32 := broadcastInDim S32x128x2 ![] bcast_S_S32x128x2 main_cst_4
  let main_v16 : IVec S32x128x2 1 := cmpf .olt main_v14 main_v15
  fn_part1 (F := F) main_arg4 main_arg5 main_arg6 main_v13 main_v16
-- ==== Kernel.lean ====
abbrev S32x1024x2 : Shape := ⟨3, ![32, 1024, 2]⟩
abbrev S32x1024x1024 : Shape := ⟨3, ![32, 1024, 1024]⟩
abbrev S32x1024 : Shape := ⟨2, ![32, 1024]⟩
abbrev S32x128x2 : Shape := ⟨3, ![32, 128, 2]⟩
abbrev S32x128 : Shape := ⟨2, ![32, 128]⟩
abbrev S32x128x1 : Shape := ⟨3, ![32, 128, 1]⟩
abbrev S_ : Shape := ⟨0, ![]⟩
abbrev S1 : Shape := ⟨1, ![1]⟩
abbrev S1x1x1 : Shape := ⟨3, ![1, 1, 1]⟩
abbrev S32 : Shape := ⟨1, ![32]⟩
abbrev S32x128x1024 : Shape := ⟨3, ![32, 128, 1024]⟩
abbrev S32x1x1 : Shape := ⟨3, ![32, 1, 1]⟩
abbrev S8x128x1024 : Shape := ⟨3, ![8, 128, 1024]⟩
abbrev S8x128 : Shape := ⟨2, ![8, 128]⟩
abbrev S8x1x1 : Shape := ⟨3, ![8, 1, 1]⟩
abbrev S8x128x1 : Shape := ⟨3, ![8, 128, 1]⟩
abbrev S8x1 : Shape := ⟨2, ![8, 1]⟩
abbrev S32x1 : Shape := ⟨2, ![32, 1]⟩
abbrev S6 : Shape := ⟨1, ![6]⟩

abbrev nBuf : Space → Nat
  | .hbm => 231
  | .vmem => 6
  | .smem => 0
  | _ => 0

abbrev hbmTy0_0 (i : Nat) : BufTy := match i % 128 with
  | 0 => ⟨S32x1024x2, .f32⟩
  | 1 => ⟨S32x1024x1024, .f32⟩
  | 2 => ⟨S32x1024, .f32⟩
  | 3 => ⟨S32x128x2, .f32⟩
  | 4 => ⟨S32x128, .i32⟩
  | 5 => ⟨S32x128, .i32⟩
  | 6 => ⟨S32x128, .i32⟩
  | 7 => ⟨S32x128x1, .i32⟩
  | 8 => ⟨S_, .i32⟩
  | 9 => ⟨S32x128x1, .i32⟩
  | 10 => ⟨S32x128x1, .i1⟩
  | 11 => ⟨S_, .i32⟩
  | 12 => ⟨S32x128x1, .i32⟩
  | 13 => ⟨S32x128x1, .i32⟩
  | 14 => ⟨S32x128x1, .i32⟩
  | 15 => ⟨S1, .i32⟩
  | 16 => ⟨S_, .i32⟩
  | 17 => ⟨S32x128x1, .i32⟩
  | 18 => ⟨S32x128x1, .i1⟩
  | 19 => ⟨S1x1x1, .i32⟩
  | 20 => ⟨S32x128x1, .i32⟩
  | 21 => ⟨S32x128x1, .i1⟩
  | 22 => ⟨S32x128x1, .i1⟩
  | 23 => ⟨S_, .i1⟩
  | 24 => ⟨S32x128, .i1⟩
  | 25 => ⟨S32x128x2, .f32⟩
  | 26 => ⟨S32x128x2, .i1⟩
  | 27 => ⟨S_, .f32⟩
  | 28 => ⟨S32x128x2, .f32⟩
  | 29 => ⟨S32x128x2, .f32⟩
  | 30 => ⟨S32x128x1, .i32⟩
  | 31 => ⟨S_, .i32⟩
  | 32 => ⟨S32x128x1, .i32⟩
  | 33 => ⟨S32x128x1, .i1⟩
  | 34 => ⟨S_, .i32⟩
  | 35 => ⟨S32x128x1, .i32⟩
  | 36 => ⟨S32x128x1, .i32⟩
  | 37 => ⟨S32x128x1, .i32⟩
  | 38 => ⟨S1, .i32⟩
  | 39 => ⟨S_, .i32⟩
  | 40 => ⟨S32x128x1, .i32⟩
  | 41 => ⟨S32x128x1, .i1⟩
  | 42 => ⟨S1x1x1, .i32⟩
  | 43 => ⟨S32x128x1, .i32⟩
  | 44 => ⟨S32x128x1, .i1⟩
  | 45 => ⟨S32x128x1, .i1⟩
  | 46 => ⟨S_, .i1⟩
  | 47 => ⟨S32x128, .i1⟩
  | 48 => ⟨S32x128x2, .f32⟩
  | 49 => ⟨S32x128x2, .i1⟩
  | 50 => ⟨S_, .f32⟩
  | 51 => ⟨S32x128x2, .f32⟩
  | 52 => ⟨S32x128x2, .f32⟩
  | 53 => ⟨S32x128x2, .f32⟩
  | 54 => ⟨S32x128x2, .f32⟩
  | 55 => ⟨S_, .f32⟩
  | 56 => ⟨S32, .f32⟩
  | 57 => ⟨S_, .f32⟩
  | 58 => ⟨S32, .f32⟩
  | 59 => ⟨S32, .f32⟩
  | 60 => ⟨S_, .f32⟩
  | 61 => ⟨S_, .f32⟩
  | 62 => ⟨S32x128x1, .i32⟩
  | 63 => ⟨S_, .i32⟩
  | 64 => ⟨S32x128x1, .i32⟩
  | 65 => ⟨S32x128x1, .i1⟩
  | 66 => ⟨S_, .i32⟩
  | 67 => ⟨S32x128x1, .i32⟩
  | 68 => ⟨S32x128x1, .i32⟩
  | 69 => ⟨S32x128x1, .i32⟩
  | 70 => ⟨S1, .i32⟩
  | 71 => ⟨S_, .i32⟩
  | 72 => ⟨S32x128x1, .i32⟩
  | 73 => ⟨S32x128x1, .i1⟩
  | 74 => ⟨S1x1x1, .i32⟩
  | 75 => ⟨S32x128x1, .i32⟩
  | 76 => ⟨S32x128x1, .i1⟩
  | 77 => ⟨S32x128x1, .i1⟩
  | 78 => ⟨S_, .i1⟩
  | 79 => ⟨S32x128, .i1⟩
  | 80 => ⟨S32x128x1024, .f32⟩
  | 81 => ⟨S32x128x1024, .i1⟩
  | 82 => ⟨S_, .f32⟩
  | 83 => ⟨S32x128x1024, .f32⟩
  | 84 => ⟨S32x128x1024, .f32⟩
  | 85 => ⟨S_, .i32⟩
  | 86 => ⟨S32x128, .i32⟩
  | 87 => ⟨S32x128, .i1⟩
  | 88 => ⟨S_, .i32⟩
  | 89 => ⟨S32x128, .i32⟩
  | 90 => ⟨S32x128, .i32⟩
  | 91 => ⟨S32x128, .i32⟩
  | 92 => ⟨S32x128x1, .i32⟩
  | 93 => ⟨S1, .i32⟩
  | 94 => ⟨S_, .i32⟩
  | 95 => ⟨S32x128x1, .i32⟩
  | 96 => ⟨S32x128x1, .i1⟩
  | 97 => ⟨S1x1x1, .i32⟩
  | 98 => ⟨S32x128x1, .i32⟩
  | 99 => ⟨S32x128x1, .i1⟩
  | 100 => ⟨S32x128x1, .i1⟩
  | 101 => ⟨S_, .i1⟩
  | 102 => ⟨S32x128, .i1⟩
  | 103 => ⟨S32x128, .i32⟩
  | 104 => ⟨S_, .i32⟩
  | 105 => ⟨S32x128, .i32⟩
  | 106 => ⟨S32x128, .i32⟩
  | 107 => ⟨S32x1x1, .f32⟩
  | 108 => ⟨S_, .f32⟩
  | 109 => ⟨S_, .f32⟩
  | 110 => ⟨S_, .i32⟩
  | 111 => ⟨S32x128, .i32⟩
  | 112 => ⟨S32x128, .i1⟩
  | 113 => ⟨S_, .i32⟩
  | 114 => ⟨S32x128, .i32⟩
  | 115 => ⟨S32x128, .i32⟩
  | 116 => ⟨S32x128, .i32⟩
  | 117 => ⟨S32x128x1, .i32⟩
  | 118 => ⟨S1, .i32⟩
  | 119 => ⟨S_, .i32⟩
  | 120 => ⟨S32x128x1, .i32⟩
  | 121 => ⟨S32x128x1, .i1⟩
  | 122 => ⟨S1x1x1, .i32⟩
  | 123 => ⟨S32x128x1, .i32⟩
  | 124 => ⟨S32x128x1, .i1⟩
  | 125 => ⟨S32x128x1, .i1⟩
  | 126 => ⟨S_, .i1⟩
  | 127 => ⟨S32x128, .i1⟩
  | _ => ⟨S32x1024x2, .f32⟩

abbrev hbmTy0_1 (i : Nat) : BufTy := match i % 128 with
  | 0 => ⟨S32x128, .f32⟩
  | 1 => ⟨S_, .f32⟩
  | 2 => ⟨S32x128, .f32⟩
  | 3 => ⟨S32x128, .f32⟩
  | 4 => ⟨S32x128, .f32⟩
  | 5 => ⟨S_, .f32⟩
  | 6 => ⟨S32x128, .f32⟩
  | 7 => ⟨S32x128, .f32⟩
  | 8 => ⟨S32x128, .f32⟩
  | 9 => ⟨S32x128, .f32⟩
  | 10 => ⟨S32x128, .i1⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S_, .f32⟩
  | 20 => ⟨S32, .f32⟩
  | 21 => ⟨S_, .f32⟩
  | 22 => ⟨S32, .f32⟩
  | 23 => ⟨S32, .f32⟩
  | 24 => ⟨S_, .f32⟩
  | 25 => ⟨S_, .f32⟩
  | 26 => ⟨S32, .i32⟩
  | 27 => ⟨S32x1, .i32⟩
  | 28 => ⟨S_, .i1⟩
  | 29 => ⟨S32x1024, .i1⟩
  | 30 => ⟨S_, .i32⟩
  | 31 => ⟨S32x1, .i32⟩
  | 32 => ⟨S32x1, .i1⟩
  | 33 => ⟨S_, .i32⟩
  | 34 => ⟨S32x1, .i32⟩
  | 35 => ⟨S32x1, .i32⟩
  | 36 => ⟨S32x1, .i32⟩
  | 37 => ⟨S_, .i32⟩
  | 38 => ⟨S32x128, .i32⟩
  | 39 => ⟨S32x128, .i1⟩
  | 40 => ⟨S_, .i32⟩
  | 41 => ⟨S32x128, .i32⟩
  | 42 => ⟨S32x128, .i32⟩
  | 43 => ⟨S32x128, .i32⟩
  | 44 => ⟨S32x128, .i32⟩
  | 45 => ⟨S32x128x1, .i32⟩
  | 46 => ⟨S32x128x1, .i32⟩
  | 47 => ⟨S32x128x2, .i32⟩
  | 48 => ⟨S_, .i1⟩
  | 49 => ⟨S32x128, .i1⟩
  | 50 => ⟨S32x1024, .i1⟩
  | 51 => ⟨S_, .f32⟩
  | 52 => ⟨S32x1024, .f32⟩
  | 53 => ⟨S32x1024, .f32⟩
  | 54 => ⟨S32x1024, .f32⟩
  | 55 => ⟨S32x1024, .f32⟩
  | 56 => ⟨S32x1024, .i1⟩
  | 57 => ⟨S32x1024, .f32⟩
  | 58 => ⟨S32x1024, .f32⟩
  | 59 => ⟨S32x1024, .f32⟩
  | 60 => ⟨S32x1024, .f32⟩
  | 61 => ⟨S32x1024, .f32⟩
  | 62 => ⟨S32x1024, .f32⟩
  | 63 => ⟨S32x1024, .f32⟩
  | 64 => ⟨S32x1024, .f32⟩
  | 65 => ⟨S_, .f32⟩
  | 66 => ⟨S_, .f32⟩
  | 67 => ⟨S32x1024, .f32⟩
  | 68 => ⟨S32x1024, .f32⟩
  | 69 => ⟨S_, .f32⟩
  | 70 => ⟨S32, .f32⟩
  | 71 => ⟨S_, .f32⟩
  | 72 => ⟨S32, .f32⟩
  | 73 => ⟨S32, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S1, .f32⟩
  | 97 => ⟨S1, .f32⟩
  | 98 => ⟨S1, .f32⟩
  | 99 => ⟨S1, .f32⟩
  | 100 => ⟨S1, .f32⟩
  | 101 => ⟨S1, .f32⟩
  | 102 => ⟨S6, .f32⟩
  | _ => ⟨S32x1024x2, .f32⟩

abbrev hbmTy (i : Nat) : BufTy := match i / 128 with
  | 0 => hbmTy0_0 i
  | 1 => hbmTy0_1 i
  | _ => ⟨S32x1024x2, .f32⟩

abbrev bufTy : (tb : Table) → Fin (tcTables nBuf tb) → BufTy
  | .hbm, ⟨i, _⟩ => hbmTy i
  | .local _ .vmem, ⟨0, _⟩ => ⟨S8x128x1024, .f32⟩
  | .local _ .vmem, ⟨1, _⟩ => ⟨S8x128x1024, .f32⟩
  | .local _ .vmem, ⟨2, _⟩ => ⟨S8x128, .i32⟩
  | .local _ .vmem, ⟨3, _⟩ => ⟨S8x128, .i32⟩
  | .local _ .vmem, ⟨4, _⟩ => ⟨S8x1x1, .f32⟩
  | .local _ .vmem, ⟨5, _⟩ => ⟨S8x1x1, .f32⟩
  | _, _ => ⟨S32x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_cst_0 : Ref sig .tc := ⟨.hbm, 57, rfl⟩
abbrev main_v7 : Ref sig .tc := ⟨.hbm, 58, rfl⟩
abbrev main_v8 : Ref sig .tc := ⟨.hbm, 59, rfl⟩
abbrev main_cst_1 : Ref sig .tc := ⟨.hbm, 60, rfl⟩
abbrev main_v9 : Ref sig .tc := ⟨.hbm, 61, rfl⟩
abbrev main_v10 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_c_2 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_c_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v11 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_c_4 : Ref sig .tc := ⟨.hbm, 104, rfl⟩
abbrev main_call3_v14 : Ref sig .tc := ⟨.hbm, 105, rfl⟩
abbrev main_v12 : Ref sig .tc := ⟨.hbm, 106, rfl⟩
abbrev main_v13 : Ref sig .tc := ⟨.hbm, 107, rfl⟩
abbrev main_cst_2 : Ref sig .tc := ⟨.hbm, 108, rfl⟩
abbrev main_v14 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v15 : Ref sig .tc := ⟨.hbm, 131, rfl⟩
abbrev main_v16 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_v17 : Ref sig .tc := ⟨.hbm, 146, rfl⟩
abbrev main_cst_3 : Ref sig .tc := ⟨.hbm, 147, rfl⟩
abbrev main_v18 : Ref sig .tc := ⟨.hbm, 148, rfl⟩
abbrev main_cst_4 : Ref sig .tc := ⟨.hbm, 149, rfl⟩
abbrev main_v19 : Ref sig .tc := ⟨.hbm, 150, rfl⟩
abbrev main_v20 : Ref sig .tc := ⟨.hbm, 151, rfl⟩
abbrev main_cst_5 : Ref sig .tc := ⟨.hbm, 152, rfl⟩
abbrev main_v21 : Ref sig .tc := ⟨.hbm, 153, rfl⟩
abbrev main_v22 : Ref sig .tc := ⟨.hbm, 154, rfl⟩
abbrev main_v23 : Ref sig .tc := ⟨.hbm, 155, rfl⟩
abbrev main_c : Ref sig .tc := ⟨.hbm, 156, rfl⟩
abbrev main_v24 : Ref sig .tc := ⟨.hbm, 157, rfl⟩
abbrev main_c_6 : Ref sig .tc := ⟨.hbm, 158, rfl⟩
abbrev main_v25 : Ref sig .tc := ⟨.hbm, 159, rfl⟩
abbrev main_v26 : Ref sig .tc := ⟨.hbm, 160, rfl⟩
abbrev main_c_7 : Ref sig .tc := ⟨.hbm, 161, rfl⟩
abbrev main_v27 : Ref sig .tc := ⟨.hbm, 162, rfl⟩
abbrev main_v28 : Ref sig .tc := ⟨.hbm, 163, rfl⟩
abbrev main_v29 : Ref sig .tc := ⟨.hbm, 164, rfl⟩
abbrev main_c_8 : Ref sig .tc := ⟨.hbm, 165, rfl⟩
abbrev main_v30 : Ref sig .tc := ⟨.hbm, 166, rfl⟩
abbrev main_v31 : Ref sig .tc := ⟨.hbm, 167, rfl⟩
abbrev main_c_9 : Ref sig .tc := ⟨.hbm, 168, rfl⟩
abbrev main_v32 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_v36 : Ref sig .tc := ⟨.hbm, 173, rfl⟩
abbrev main_v37 : Ref sig .tc := ⟨.hbm, 174, rfl⟩
abbrev main_v38 : Ref sig .tc := ⟨.hbm, 175, rfl⟩
abbrev main_c_10 : Ref sig .tc := ⟨.hbm, 176, rfl⟩
abbrev main_v39 : Ref sig .tc := ⟨.hbm, 177, rfl⟩
abbrev main_v40 : Ref sig .tc := ⟨.hbm, 178, rfl⟩
abbrev main_call6_cst : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_v7 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_v41 : Ref sig .tc := ⟨.hbm, 192, rfl⟩
abbrev main_cst_11 : Ref sig .tc := ⟨.hbm, 193, rfl⟩
abbrev main_call7_v0 : Ref sig .tc := ⟨.hbm, 194, rfl⟩
abbrev main_call7_v1 : Ref sig .tc := ⟨.hbm, 195, rfl⟩
abbrev main_v42 : Ref sig .tc := ⟨.hbm, 196, rfl⟩
abbrev main_cst_12 : Ref sig .tc := ⟨.hbm, 197, rfl⟩
abbrev main_v43 : Ref sig .tc := ⟨.hbm, 198, rfl⟩
abbrev main_cst_13 : Ref sig .tc := ⟨.hbm, 199, rfl⟩
abbrev main_v44 : Ref sig .tc := ⟨.hbm, 200, rfl⟩
abbrev main_v45 : Ref sig .tc := ⟨.hbm, 201, rfl⟩
abbrev main_cst_14 : Ref sig .tc := ⟨.hbm, 202, rfl⟩
abbrev main_v46 : Ref sig .tc := ⟨.hbm, 203, rfl⟩
abbrev main_cst_15 : Ref sig .tc := ⟨.hbm, 204, rfl⟩
abbrev main_v47 : Ref sig .tc := ⟨.hbm, 205, rfl⟩
abbrev main_cst_16 : Ref sig .tc := ⟨.hbm, 206, rfl⟩
abbrev main_v48 : Ref sig .tc := ⟨.hbm, 207, rfl⟩
abbrev main_cst_17 : Ref sig .tc := ⟨.hbm, 208, rfl⟩
abbrev main_v49 : Ref sig .tc := ⟨.hbm, 209, rfl⟩
abbrev main_cst_18 : Ref sig .tc := ⟨.hbm, 210, rfl⟩
abbrev main_v50 : Ref sig .tc := ⟨.hbm, 211, rfl⟩
abbrev main_cst_19 : Ref sig .tc := ⟨.hbm, 212, rfl⟩
abbrev main_v51 : Ref sig .tc := ⟨.hbm, 213, rfl⟩
abbrev main_cst_20 : Ref sig .tc := ⟨.hbm, 214, rfl⟩
abbrev main_v52 : Ref sig .tc := ⟨.hbm, 215, rfl⟩
abbrev main_cst_21 : Ref sig .tc := ⟨.hbm, 216, rfl⟩
abbrev main_v53 : Ref sig .tc := ⟨.hbm, 217, rfl⟩
abbrev main_cst_22 : Ref sig .tc := ⟨.hbm, 218, rfl⟩
abbrev main_v54 : Ref sig .tc := ⟨.hbm, 219, rfl⟩
abbrev main_v55 : Ref sig .tc := ⟨.hbm, 220, rfl⟩
abbrev main_v56 : Ref sig .tc := ⟨.hbm, 221, rfl⟩
abbrev main_v57 : Ref sig .tc := ⟨.hbm, 222, rfl⟩
abbrev main_cst_23 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩
abbrev main_v61 : Ref sig .tc := ⟨.hbm, 227, rfl⟩
abbrev main_v62 : Ref sig .tc := ⟨.hbm, 228, rfl⟩
abbrev main_v63 : Ref sig .tc := ⟨.hbm, 229, rfl⟩
abbrev main_v64 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S1_S1x1x1_2 : S1.BroadcastsInDim S1x1x1 (![2] : Fin 1 → Fin S1x1x1.rank)
  bcast_S1x1x1_S32x128x1_0_1_2 : S1x1x1.BroadcastsInDim S32x128x1 (![0, 1, 2] : Fin 3 → Fin S32x128x1.rank)
  reducesTo_S32x128x1_S32x128_d2 : S32x128x1.ReducesTo [2] S32x128
  h_S_ : 0 < S_.numel
  bcast_S32x128_S32x128x2_0_1 : S32x128.BroadcastsInDim S32x128x2 (![0, 1] : Fin 2 → Fin S32x128x2.rank)
  bcast_S_S32x128x2 : S_.BroadcastsInDim S32x128x2 (![] : Fin 0 → Fin S32x128x2.rank)
  reducesTo_S32x128x2_S32_d1_2 : S32x128x2.ReducesTo [1, 2] S32
  bcast_S_S32 : S_.BroadcastsInDim S32 (![] : Fin 0 → Fin S32.rank)
  reducesTo_S32_S_d0 : S32.ReducesTo [0] S_
  bcast_S32x128_S32x128x1024_0_1 : S32x128.BroadcastsInDim S32x128x1024 (![0, 1] : Fin 2 → Fin S32x128x1024.rank)
  bcast_S_S32x128x1024 : S_.BroadcastsInDim S32x128x1024 (![] : Fin 0 → Fin S32x128x1024.rank)
  bcast_S_S32x128 : S_.BroadcastsInDim S32x128 (![] : Fin 0 → Fin S32x128.rank)
  shapeCasts_S32x128_S32x128x1 : S32x128.ShapeCasts S32x128x1
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  reduces_S8x128x1024_S8x128 : S8x128x1024.Reduces [2] S8x128
  broadcasts_S8x128x1_S8x128x1024 : S8x128x1.Broadcasts S8x128x1024
  iota_S8x128x1024_d2_w32 : S8x128x1024.Iotas .tc 32 [2]
  natLt_1_32 : 1 < 32
  reduces_S8x128x1_S8x1 : S8x128x1.Reduces [1] S8x1
  shapeCasts_S8x1_S8x1x1 : S8x1.ShapeCasts S8x1x1
  inb_S8x1x1_S8x1x1_0_0_0 : ∀ a, (![0, 0, 0] : Fin 3 → Nat) a + S8x1x1.size a ≤ S8x1x1.size a
  h_S8x1x1 : 0 < S8x1x1.numel
  reducesTo_S32x1x1_S_d0_1_2 : S32x1x1.ReducesTo [0, 1, 2] S_
  reducesTo_S32x128_S32_d1 : S32x128.ReducesTo [1] S32
  bcast_S32_S32x1_0 : S32.BroadcastsInDim S32x1 (![0] : Fin 1 → Fin S32x1.rank)
  bcast_S_S32x1024 : S_.BroadcastsInDim S32x1024 (![] : Fin 0 → Fin S32x1024.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  concatenates_S32x128x1_S32x128x1_S32x128x2_d2 : Shape.Concatenates [S32x128x1, S32x128x1] S32x128x2 2
  reducesTo_S32x1024_S32_d1 : S32x1024.ReducesTo [1] S32
  bcast_S_S1 : S_.BroadcastsInDim S1 (![] : Fin 0 → Fin S1.rank)
  concatenates_S1_S1_S1_S1_S1_S1_S6_d0 : Shape.Concatenates [S1, S1, S1, S1, S1, S1] S6 0
  gather_S32x1024x2_S32x128x1_S32x128x2_2_1_0_0_1_2_112_wf : GatherDims.WF S32x1024x2 S32x128x1 S32x128x2 [2] [1] [0] [1] [0] 2 ![1, 1, 2]
  gather_S32x128x2_S32x128x1_S32x128x2_2_1_0_0_1_2_112_wf : GatherDims.WF S32x128x2 S32x128x1 S32x128x2 [2] [1] [0] [1] [0] 2 ![1, 1, 2]
  gather_S32x1024x1024_S32x128x1_S32x128x1024_2_1_0_0_1_2_111024_wf : GatherDims.WF S32x1024x1024 S32x128x1 S32x128x1024 [2] [1] [0] [1] [0] 2 ![1, 1, 1024]
  gather_S32x128_S32x128x1_S32x128_n_1_0_0_1_2_11_wf : GatherDims.WF S32x128 S32x128x1 S32x128 [] [1] [0] [1] [0] 2 ![1, 1]
  gather_S32x1024_S32x128x1_S32x128_n_1_0_0_1_2_11_wf : GatherDims.WF S32x1024 S32x128x1 S32x128 [] [1] [0] [1] [0] 2 ![1, 1]
  scatter_S32x1024_S32x128x2_S32x128_n_01_01_2_wf : ScatterDims.WF S32x1024 S32x128x2 S32x128 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x128x1024.size a
  hwx0_0 : ∀ i : grid0.Coords, EltTy.bits .f32 = 32 ∨ (Rect.block (s := S32x128x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .i32 = 32 ∨ (Rect.block (s := S32x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1.size a ≤ S32x1x1.size a
  hwx0_2 : ∀ i : grid0.Coords, EltTy.bits .f32 = 32 ∨ (Rect.block (s := S32x1x1) S8x1x1.size (cc0_transform_2 i) (hinb0_2 i)).WholeWords (EltTy.packing .f32)

variable [Facts₀]

def gather_S32x1024x2_S32x128x1_S32x128x2_2_1_0_0_1_2_112 : GatherDims S32x1024x2 S32x128x1 S32x128x2 where
  offsetDims := [2]
  collapsedSliceDims := [1]
  operandBatchingDims := [0]
  startIndicesBatchingDims := [0]
  startIndexMap := [1]
  indexVectorDim := 2
  sliceSizes := ![1, 1, 2]
  wf := gather_S32x1024x2_S32x128x1_S32x128x2_2_1_0_0_1_2_112_wf
def gather_S32x128x2_S32x128x1_S32x128x2_2_1_0_0_1_2_112 : GatherDims S32x128x2 S32x128x1 S32x128x2 where
  offsetDims := [2]
  collapsedSliceDims := [1]
  operandBatchingDims := [0]
  startIndicesBatchingDims := [0]
  startIndexMap := [1]
  indexVectorDim := 2
  sliceSizes := ![1, 1, 2]
  wf := gather_S32x128x2_S32x128x1_S32x128x2_2_1_0_0_1_2_112_wf
def gather_S32x1024x1024_S32x128x1_S32x128x1024_2_1_0_0_1_2_111024 : GatherDims S32x1024x1024 S32x128x1 S32x128x1024 where
  offsetDims := [2]
  collapsedSliceDims := [1]
  operandBatchingDims := [0]
  startIndicesBatchingDims := [0]
  startIndexMap := [1]
  indexVectorDim := 2
  sliceSizes := ![1, 1, 1024]
  wf := gather_S32x1024x1024_S32x128x1_S32x128x1024_2_1_0_0_1_2_111024_wf
def gather_S32x128_S32x128x1_S32x128_n_1_0_0_1_2_11 : GatherDims S32x128 S32x128x1 S32x128 where
  offsetDims := []
  collapsedSliceDims := [1]
  operandBatchingDims := [0]
  startIndicesBatchingDims := [0]
  startIndexMap := [1]
  indexVectorDim := 2
  sliceSizes := ![1, 1]
  wf := gather_S32x128_S32x128x1_S32x128_n_1_0_0_1_2_11_wf
def gather_S32x1024_S32x128x1_S32x128_n_1_0_0_1_2_11 : GatherDims S32x1024 S32x128x1 S32x128 where
  offsetDims := []
  collapsedSliceDims := [1]
  operandBatchingDims := [0]
  startIndicesBatchingDims := [0]
  startIndexMap := [1]
  indexVectorDim := 2
  sliceSizes := ![1, 1]
  wf := gather_S32x1024_S32x128x1_S32x128_n_1_0_0_1_2_11_wf
def scatter_S32x1024_S32x128x2_S32x128_n_01_01_2 : ScatterDims S32x1024 S32x128x2 S32x128 where
  updateWindowDims := []
  insertedWindowDims := [0, 1]
  scatterDimsToOperandDims := [0, 1]
  indexVectorDim := 2
  wf := scatter_S32x1024_S32x128x2_S32x128_n_01_01_2_wf

abbrev win0_0 : Pipeline.Window sig grid0 :=
  Pipeline.Window.ofSpec (Memref.whole main_v11) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x2 : Shape := ⟨3, ![32, 1024, 2]⟩
abbrev S32x1024x1024 : Shape := ⟨3, ![32, 1024, 1024]⟩
abbrev S32x1024 : Shape := ⟨2, ![32, 1024]⟩
abbrev S32x128x2 : Shape := ⟨3, ![32, 128, 2]⟩
abbrev S32x128 : Shape := ⟨2, ![32, 128]⟩
abbrev S32x128x1 : Shape := ⟨3, ![32, 128, 1]⟩
abbrev S_ : Shape := ⟨0, ![]⟩
abbrev S1 : Shape := ⟨1, ![1]⟩
abbrev S1x1x1 : Shape := ⟨3, ![1, 1, 1]⟩
abbrev S32 : Shape := ⟨1, ![32]⟩
abbrev S32x128x1024 : Shape := ⟨3, ![32, 128, 1024]⟩
abbrev S32x128x1x1 : Shape := ⟨4, ![32, 128, 1, 1]⟩
abbrev S1x1x1x1 : Shape := ⟨4, ![1, 1, 1, 1]⟩
abbrev S32x1 : Shape := ⟨2, ![32, 1]⟩
abbrev S6 : Shape := ⟨1, ![6]⟩

abbrev nBuf : Space → Nat
  | .hbm => 275
  | .vmem => 0
  | .smem => 0
  | _ => 0

abbrev hbmTy0_0 (i : Nat) : BufTy := match i % 128 with
  | 0 => ⟨S32x1024x2, .f32⟩
  | 1 => ⟨S32x1024x1024, .f32⟩
  | 2 => ⟨S32x1024, .f32⟩
  | 3 => ⟨S32x128x2, .f32⟩
  | 4 => ⟨S32x128, .i32⟩
  | 5 => ⟨S32x128, .i32⟩
  | 6 => ⟨S32x128, .i32⟩
  | 7 => ⟨S32x128x1, .i32⟩
  | 8 => ⟨S_, .i32⟩
  | 9 => ⟨S32x128x1, .i32⟩
  | 10 => ⟨S32x128x1, .i1⟩
  | 11 => ⟨S_, .i32⟩
  | 12 => ⟨S32x128x1, .i32⟩
  | 13 => ⟨S32x128x1, .i32⟩
  | 14 => ⟨S32x128x1, .i32⟩
  | 15 => ⟨S1, .i32⟩
  | 16 => ⟨S_, .i32⟩
  | 17 => ⟨S32x128x1, .i32⟩
  | 18 => ⟨S32x128x1, .i1⟩
  | 19 => ⟨S1x1x1, .i32⟩
  | 20 => ⟨S32x128x1, .i32⟩
  | 21 => ⟨S32x128x1, .i1⟩
  | 22 => ⟨S32x128x1, .i1⟩
  | 23 => ⟨S_, .i1⟩
  | 24 => ⟨S32x128, .i1⟩
  | 25 => ⟨S32x128x2, .f32⟩
  | 26 => ⟨S32x128x2, .i1⟩
  | 27 => ⟨S_, .f32⟩
  | 28 => ⟨S32x128x2, .f32⟩
  | 29 => ⟨S32x128x2, .f32⟩
  | 30 => ⟨S32x128x1, .i32⟩
  | 31 => ⟨S_, .i32⟩
  | 32 => ⟨S32x128x1, .i32⟩
  | 33 => ⟨S32x128x1, .i1⟩
  | 34 => ⟨S_, .i32⟩
  | 35 => ⟨S32x128x1, .i32⟩
  | 36 => ⟨S32x128x1, .i32⟩
  | 37 => ⟨S32x128x1, .i32⟩
  | 38 => ⟨S1, .i32⟩
  | 39 => ⟨S_, .i32⟩
  | 40 => ⟨S32x128x1, .i32⟩
  | 41 => ⟨S32x128x1, .i1⟩
  | 42 => ⟨S1x1x1, .i32⟩
  | 43 => ⟨S32x128x1, .i32⟩
  | 44 => ⟨S32x128x1, .i1⟩
  | 45 => ⟨S32x128x1, .i1⟩
  | 46 => ⟨S_, .i1⟩
  | 47 => ⟨S32x128, .i1⟩
  | 48 => ⟨S32x128x2, .f32⟩
  | 49 => ⟨S32x128x2, .i1⟩
  | 50 => ⟨S_, .f32⟩
  | 51 => ⟨S32x128x2, .f32⟩
  | 52 => ⟨S32x128x2, .f32⟩
  | 53 => ⟨S32x128x2, .f32⟩
  | 54 => ⟨S32x128x2, .f32⟩
  | 55 => ⟨S_, .f32⟩
  | 56 => ⟨S32, .f32⟩
  | 57 => ⟨S_, .f32⟩
  | 58 => ⟨S32, .f32⟩
  | 59 => ⟨S32, .f32⟩
  | 60 => ⟨S_, .f32⟩
  | 61 => ⟨S_, .f32⟩
  | 62 => ⟨S32x128x1, .i32⟩
  | 63 => ⟨S_, .i32⟩
  | 64 => ⟨S32x128x1, .i32⟩
  | 65 => ⟨S32x128x1, .i1⟩
  | 66 => ⟨S_, .i32⟩
  | 67 => ⟨S32x128x1, .i32⟩
  | 68 => ⟨S32x128x1, .i32⟩
  | 69 => ⟨S32x128x1, .i32⟩
  | 70 => ⟨S1, .i32⟩
  | 71 => ⟨S_, .i32⟩
  | 72 => ⟨S32x128x1, .i32⟩
  | 73 => ⟨S32x128x1, .i1⟩
  | 74 => ⟨S1x1x1, .i32⟩
  | 75 => ⟨S32x128x1, .i32⟩
  | 76 => ⟨S32x128x1, .i1⟩
  | 77 => ⟨S32x128x1, .i1⟩
  | 78 => ⟨S_, .i1⟩
  | 79 => ⟨S32x128, .i1⟩
  | 80 => ⟨S32x128x1024, .f32⟩
  | 81 => ⟨S32x128x1024, .i1⟩
  | 82 => ⟨S_, .f32⟩
  | 83 => ⟨S32x128x1024, .f32⟩
  | 84 => ⟨S32x128x1024, .f32⟩
  | 85 => ⟨S_, .i32⟩
  | 86 => ⟨S32x128, .i32⟩
  | 87 => ⟨S32x128, .i1⟩
  | 88 => ⟨S_, .i32⟩
  | 89 => ⟨S32x128, .i32⟩
  | 90 => ⟨S32x128, .i32⟩
  | 91 => ⟨S32x128, .i32⟩
  | 92 => ⟨S32x128x1, .i32⟩
  | 93 => ⟨S1, .i32⟩
  | 94 => ⟨S_, .i32⟩
  | 95 => ⟨S32x128x1, .i32⟩
  | 96 => ⟨S32x128x1, .i1⟩
  | 97 => ⟨S1x1x1, .i32⟩
  | 98 => ⟨S32x128x1, .i32⟩
  | 99 => ⟨S32x128x1, .i1⟩
  | 100 => ⟨S32x128x1, .i1⟩
  | 101 => ⟨S_, .i1⟩
  | 102 => ⟨S32x128, .i1⟩
  | 103 => ⟨S32x128, .i32⟩
  | 104 => ⟨S_, .i32⟩
  | 105 => ⟨S32x128, .i32⟩
  | 106 => ⟨S32x128, .i32⟩
  | 107 => ⟨S_, .f32⟩
  | 108 => ⟨S32x128, .f32⟩
  | 109 => ⟨S_, .f32⟩
  | 110 => ⟨S32x128, .f32⟩
  | 111 => ⟨S32x128, .f32⟩
  | 112 => ⟨S32x128x1, .f32⟩
  | 113 => ⟨S32x128x1024, .f32⟩
  | 114 => ⟨S32x128x1024, .f32⟩
  | 115 => ⟨S32x128x1024, .f32⟩
  | 116 => ⟨S_, .f32⟩
  | 117 => ⟨S32x128, .f32⟩
  | 118 => ⟨S32x128x1, .f32⟩
  | 119 => ⟨S32x128x1, .f32⟩
  | 120 => ⟨S32x128x1024, .f32⟩
  | 121 => ⟨S32x128x1024, .f32⟩
  | 122 => ⟨S32x128x1, .i32⟩
  | 123 => ⟨S_, .i32⟩
  | 124 => ⟨S32x128x1, .i32⟩
  | 125 => ⟨S32x128x1, .i1⟩
  | 126 => ⟨S_, .i32⟩
  | 127 => ⟨S32x128x1, .i32⟩
  | _ => ⟨S32x1024x2, .f32⟩

abbrev hbmTy0_1 (i : Nat) : BufTy := match i % 128 with
  | 0 => ⟨S32x128x1, .i32⟩
  | 1 => ⟨S32x128x1, .i32⟩
  | 2 => ⟨S32x128x1x1, .i32⟩
  | 3 => ⟨S1, .i32⟩
  | 4 => ⟨S_, .i32⟩
  | 5 => ⟨S32x128x1x1, .i32⟩
  | 6 => ⟨S32x128x1x1, .i1⟩
  | 7 => ⟨S1x1x1x1, .i32⟩
  | 8 => ⟨S32x128x1x1, .i32⟩
  | 9 => ⟨S32x128x1x1, .i1⟩
  | 10 => ⟨S32x128x1x1, .i1⟩
  | 11 => ⟨S_, .i1⟩
  | 12 => ⟨S32x128x1, .i1⟩
  | 13 => ⟨S32x128x1, .f32⟩
  | 14 => ⟨S_, .f32⟩
  | 15 => ⟨S32x128x1, .f32⟩
  | 16 => ⟨S32x128x1, .f32⟩
  | 17 => ⟨S32x128, .f32⟩
  | 18 => ⟨S32x128, .f32⟩
  | 19 => ⟨S_, .f32⟩
  | 20 => ⟨S32, .f32⟩
  | 21 => ⟨S_, .f32⟩
  | 22 => ⟨S32, .f32⟩
  | 23 => ⟨S32, .f32⟩
  | 24 => ⟨S_, .f32⟩
  | 25 => ⟨S_, .f32⟩
  | 26 => ⟨S_, .i32⟩
  | 27 => ⟨S32x128, .i32⟩
  | 28 => ⟨S32x128, .i1⟩
  | 29 => ⟨S_, .i32⟩
  | 30 => ⟨S32x128, .i32⟩
  | 31 => ⟨S32x128, .i32⟩
  | 32 => ⟨S32x128, .i32⟩
  | 33 => ⟨S32x128x1, .i32⟩
  | 34 => ⟨S1, .i32⟩
  | 35 => ⟨S_, .i32⟩
  | 36 => ⟨S32x128x1, .i32⟩
  | 37 => ⟨S32x128x1, .i1⟩
  | 38 => ⟨S1x1x1, .i32⟩
  | 39 => ⟨S32x128x1, .i32⟩
  | 40 => ⟨S32x128x1, .i1⟩
  | 41 => ⟨S32x128x1, .i1⟩
  | 42 => ⟨S_, .i1⟩
  | 43 => ⟨S32x128, .i1⟩
  | 44 => ⟨S32x128, .f32⟩
  | 45 => ⟨S_, .f32⟩
  | 46 => ⟨S32x128, .f32⟩
  | 47 => ⟨S32x128, .f32⟩
  | 48 => ⟨S32x128, .f32⟩
  | 49 => ⟨S_, .f32⟩
  | 50 => ⟨S32x128, .f32⟩
  | 51 => ⟨S32x128, .f32⟩
  | 52 => ⟨S32x128, .f32⟩
  | 53 => ⟨S32x128, .f32⟩
  | 54 => ⟨S32x128, .i1⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S_, .f32⟩
  | 64 => ⟨S32, .f32⟩
  | 65 => ⟨S_, .f32⟩
  | 66 => ⟨S32, .f32⟩
  | 67 => ⟨S32, .f32⟩
  | 68 => ⟨S_, .f32⟩
  | 69 => ⟨S_, .f32⟩
  | 70 => ⟨S_, .i1⟩
  | 71 => ⟨S32x1024, .i1⟩
  | 72 => ⟨S32, .i32⟩
  | 73 => ⟨S32x1, .i32⟩
  | 74 => ⟨S_, .i32⟩
  | 75 => ⟨S32x1, .i32⟩
  | 76 => ⟨S32x1, .i1⟩
  | 77 => ⟨S_, .i32⟩
  | 78 => ⟨S32x1, .i32⟩
  | 79 => ⟨S32x1, .i32⟩
  | 80 => ⟨S32x1, .i32⟩
  | 81 => ⟨S_, .i32⟩
  | 82 => ⟨S32x128, .i32⟩
  | 83 => ⟨S32x128, .i1⟩
  | 84 => ⟨S_, .i32⟩
  | 85 => ⟨S32x128, .i32⟩
  | 86 => ⟨S32x128, .i32⟩
  | 87 => ⟨S32x128, .i32⟩
  | 88 => ⟨S32x128, .i32⟩
  | 89 => ⟨S32x128x1, .i32⟩
  | 90 => ⟨S32x128x1, .i32⟩
  | 91 => ⟨S32x128x2, .i32⟩
  | 92 => ⟨S_, .i1⟩
  | 93 => ⟨S32x128, .i1⟩
  | 94 => ⟨S32x1024, .i1⟩
  | 95 => ⟨S_, .f32⟩
  | 96 => ⟨S32x1024, .f32⟩
  | 97 => ⟨S32x1024, .f32⟩
  | 98 => ⟨S32x1024, .f32⟩
  | 99 => ⟨S32x1024, .f32⟩
  | 100 => ⟨S32x1024, .i1⟩
  | 101 => ⟨S32x1024, .f32⟩
  | 102 => ⟨S32x1024, .f32⟩
  | 103 => ⟨S32x1024, .f32⟩
  | 104 => ⟨S32x1024, .f32⟩
  | 105 => ⟨S32x1024, .f32⟩
  | 106 => ⟨S32x1024, .f32⟩
  | 107 => ⟨S32x1024, .f32⟩
  | 108 => ⟨S32x1024, .f32⟩
  | 109 => ⟨S_, .f32⟩
  | 110 => ⟨S_, .f32⟩
  | 111 => ⟨S32x1024, .f32⟩
  | 112 => ⟨S32x1024, .f32⟩
  | 113 => ⟨S_, .f32⟩
  | 114 => ⟨S32, .f32⟩
  | 115 => ⟨S_, .f32⟩
  | 116 => ⟨S32, .f32⟩
  | 117 => ⟨S32, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32x1024x2, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S6, .f32⟩
  | _ => ⟨S32x1024x2, .f32⟩

abbrev hbmTy (i : Nat) : BufTy := match i / 128 with
  | 0 => hbmTy0_0 i
  | 1 => hbmTy0_1 i
  | 2 => hbmTy0_2 i
  | _ => ⟨S32x1024x2, .f32⟩

abbrev bufTy : (tb : Table) → Fin (tcTables nBuf tb) → BufTy
  | .hbm, ⟨i, _⟩ => hbmTy i
  | _, _ => ⟨S32x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_cst_0 : Ref sig .tc := ⟨.hbm, 57, rfl⟩
abbrev main_v7 : Ref sig .tc := ⟨.hbm, 58, rfl⟩
abbrev main_v8 : Ref sig .tc := ⟨.hbm, 59, rfl⟩
abbrev main_cst_1 : Ref sig .tc := ⟨.hbm, 60, rfl⟩
abbrev main_v9 : Ref sig .tc := ⟨.hbm, 61, rfl⟩
abbrev main_v10 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_c_2 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_c_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v11 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_c_4 : Ref sig .tc := ⟨.hbm, 104, rfl⟩
abbrev main_call3_v14 : Ref sig .tc := ⟨.hbm, 105, rfl⟩
abbrev main_v12 : Ref sig .tc := ⟨.hbm, 106, rfl⟩
abbrev main_call4_cst : Ref sig .tc := ⟨.hbm, 107, rfl⟩
abbrev main_call4_v0 : Ref sig .tc := ⟨.hbm, 108, rfl⟩
abbrev main_call4_cst_0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_cst_1 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_v13 : Ref sig .tc := ⟨.hbm, 121, rfl⟩
abbrev main_v14 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_cst : Ref sig .tc := ⟨.hbm, 142, rfl⟩
abbrev main_call5_v14 : Ref sig .tc := ⟨.hbm, 143, rfl⟩
abbrev main_v15 : Ref sig .tc := ⟨.hbm, 144, rfl⟩
abbrev main_v16 : Ref sig .tc := ⟨.hbm, 145, rfl⟩
abbrev main_v17 : Ref sig .tc := ⟨.hbm, 146, rfl⟩
abbrev main_cst_2 : Ref sig .tc := ⟨.hbm, 147, rfl⟩
abbrev main_v18 : Ref sig .tc := ⟨.hbm, 148, rfl⟩
abbrev main_cst_3 : Ref sig .tc := ⟨.hbm, 149, rfl⟩
abbrev main_v19 : Ref sig .tc := ⟨.hbm, 150, rfl⟩
abbrev main_v20 : Ref sig .tc := ⟨.hbm, 151, rfl⟩
abbrev main_cst_4 : Ref sig .tc := ⟨.hbm, 152, rfl⟩
abbrev main_v21 : Ref sig .tc := ⟨.hbm, 153, rfl⟩
abbrev main_call6_c : Ref sig .tc := ⟨.hbm, 154, rfl⟩
abbrev main_call6_v0 : Ref sig .tc := ⟨.hbm, 155, rfl⟩
abbrev main_call6_v1 : Ref sig .tc := ⟨.hbm, 156, rfl⟩
abbrev main_call6_c_0 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_c_1 : Ref sig .tc := ⟨.hbm, 162, rfl⟩
abbrev main_call6_c_2 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_c_3 : Ref sig .tc := ⟨.hbm, 170, rfl⟩
abbrev main_call6_v12 : Ref sig .tc := ⟨.hbm, 171, rfl⟩
abbrev main_call6_v13 : Ref sig .tc := ⟨.hbm, 172, rfl⟩
abbrev main_call6_cst : Ref sig .tc := ⟨.hbm, 173, rfl⟩
abbrev main_call6_v14 : Ref sig .tc := ⟨.hbm, 174, rfl⟩
abbrev main_v22 : Ref sig .tc := ⟨.hbm, 175, rfl⟩
abbrev main_v23 : Ref sig .tc := ⟨.hbm, 176, rfl⟩
abbrev main_call7_cst : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_call7_v5 : Ref sig .tc := ⟨.hbm, 183, rfl⟩
abbrev main_call7_v6 : Ref sig .tc := ⟨.hbm, 184, rfl⟩
abbrev main_call7_v7 : Ref sig .tc := ⟨.hbm, 185, rfl⟩
abbrev main_call7_v8 : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_v24 : Ref sig .tc := ⟨.hbm, 190, rfl⟩
abbrev main_cst_5 : Ref sig .tc := ⟨.hbm, 191, rfl⟩
abbrev main_v25 : Ref sig .tc := ⟨.hbm, 192, rfl⟩
abbrev main_cst_6 : Ref sig .tc := ⟨.hbm, 193, rfl⟩
abbrev main_v26 : Ref sig .tc := ⟨.hbm, 194, rfl⟩
abbrev main_v27 : Ref sig .tc := ⟨.hbm, 195, rfl⟩
abbrev main_cst_7 : Ref sig .tc := ⟨.hbm, 196, rfl⟩
abbrev main_v28 : Ref sig .tc := ⟨.hbm, 197, rfl⟩
abbrev main_c : Ref sig .tc := ⟨.hbm, 198, rfl⟩
abbrev main_v29 : Ref sig .tc := ⟨.hbm, 199, rfl⟩
abbrev main_v30 : Ref sig .tc := ⟨.hbm, 200, rfl⟩
abbrev main_v31 : Ref sig .tc := ⟨.hbm, 201, rfl⟩
abbrev main_c_8 : Ref sig .tc := ⟨.hbm, 202, rfl⟩
abbrev main_v32 : Ref sig .tc := ⟨.hbm, 203, rfl⟩
abbrev main_v33 : Ref sig .tc := ⟨.hbm, 204, rfl⟩
abbrev main_c_9 : Ref sig .tc := ⟨.hbm, 205, rfl⟩
abbrev main_v34 : Ref sig .tc := ⟨.hbm, 206, rfl⟩
abbrev main_v35 : Ref sig .tc := ⟨.hbm, 207, rfl⟩
abbrev main_v36 : Ref sig .tc := ⟨.hbm, 208, rfl⟩
abbrev main_c_10 : Ref sig .tc := ⟨.hbm, 209, rfl⟩
abbrev main_v37 : Ref sig .tc := ⟨.hbm, 210, rfl⟩
abbrev main_v38 : Ref sig .tc := ⟨.hbm, 211, rfl⟩
abbrev main_c_11 : Ref sig .tc := ⟨.hbm, 212, rfl⟩
abbrev main_v39 : Ref sig .tc := ⟨.hbm, 213, rfl⟩
abbrev main_v40 : Ref sig .tc := ⟨.hbm, 214, rfl⟩
abbrev main_v41 : Ref sig .tc := ⟨.hbm, 215, rfl⟩
abbrev main_v42 : Ref sig .tc := ⟨.hbm, 216, rfl⟩
abbrev main_v43 : Ref sig .tc := ⟨.hbm, 217, rfl⟩
abbrev main_v44 : Ref sig .tc := ⟨.hbm, 218, rfl⟩
abbrev main_v45 : Ref sig .tc := ⟨.hbm, 219, rfl⟩
abbrev main_c_12 : Ref sig .tc := ⟨.hbm, 220, rfl⟩
abbrev main_v46 : Ref sig .tc := ⟨.hbm, 221, rfl⟩
abbrev main_v47 : Ref sig .tc := ⟨.hbm, 222, rfl⟩
abbrev main_call8_cst : Ref sig .tc := ⟨.hbm, 223, rfl⟩
abbrev main_call8_v0 : Ref sig .tc := ⟨.hbm, 224, rfl⟩
abbrev main_call8_v1 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_v6 : Ref sig .tc := ⟨.hbm, 230, rfl⟩
abbrev main_call8_v7 : Ref sig .tc := ⟨.hbm, 231, rfl⟩
abbrev main_call8_v8 : Ref sig .tc := ⟨.hbm, 232, rfl⟩
abbrev main_call8_v9 : Ref sig .tc := ⟨.hbm, 233, rfl⟩
abbrev main_call8_v10 : Ref sig .tc := ⟨.hbm, 234, rfl⟩
abbrev main_call8_v11 : Ref sig .tc := ⟨.hbm, 235, rfl⟩
abbrev main_v48 : Ref sig .tc := ⟨.hbm, 236, rfl⟩
abbrev main_cst_13 : Ref sig .tc := ⟨.hbm, 237, rfl⟩
abbrev main_call9_v0 : Ref sig .tc := ⟨.hbm, 238, rfl⟩
abbrev main_call9_v1 : Ref sig .tc := ⟨.hbm, 239, rfl⟩
abbrev main_v49 : Ref sig .tc := ⟨.hbm, 240, rfl⟩
abbrev main_cst_14 : Ref sig .tc := ⟨.hbm, 241, rfl⟩
abbrev main_v50 : Ref sig .tc := ⟨.hbm, 242, rfl⟩
abbrev main_cst_15 : Ref sig .tc := ⟨.hbm, 243, rfl⟩
abbrev main_v51 : Ref sig .tc := ⟨.hbm, 244, rfl⟩
abbrev main_v52 : Ref sig .tc := ⟨.hbm, 245, rfl⟩
abbrev main_cst_16 : Ref sig .tc := ⟨.hbm, 246, rfl⟩
abbrev main_v53 : Ref sig .tc := ⟨.hbm, 247, rfl⟩
abbrev main_cst_17 : Ref sig .tc := ⟨.hbm, 248, rfl⟩
abbrev main_v54 : Ref sig .tc := ⟨.hbm, 249, rfl⟩
abbrev main_cst_18 : Ref sig .tc := ⟨.hbm, 250, rfl⟩
abbrev main_v55 : Ref sig .tc := ⟨.hbm, 251, rfl⟩
abbrev main_cst_19 : Ref sig .tc := ⟨.hbm, 252, rfl⟩
abbrev main_v56 : Ref sig .tc := ⟨.hbm, 253, rfl⟩
abbrev main_cst_20 : Ref sig .tc := ⟨.hbm, 254, rfl⟩
abbrev main_v57 : Ref sig .tc := ⟨.hbm, 255, rfl⟩
abbrev main_cst_21 : Ref sig .tc := ⟨.hbm, 256, rfl⟩
abbrev main_v58 : Ref sig .tc := ⟨.hbm, 257, rfl⟩
abbrev main_cst_22 : Ref sig .tc := ⟨.hbm, 258, rfl⟩
abbrev main_v59 : Ref sig .tc := ⟨.hbm, 259, rfl⟩
abbrev main_cst_23 : Ref sig .tc := ⟨.hbm, 260, rfl⟩
abbrev main_v60 : Ref sig .tc := ⟨.hbm, 261, rfl⟩
abbrev main_cst_24 : Ref sig .tc := ⟨.hbm, 262, rfl⟩
abbrev main_v61 : Ref sig .tc := ⟨.hbm, 263, rfl⟩
abbrev main_v62 : Ref sig .tc := ⟨.hbm, 264, rfl⟩
abbrev main_v63 : Ref sig .tc := ⟨.hbm, 265, rfl⟩
abbrev main_v64 : Ref sig .tc := ⟨.hbm, 266, rfl⟩
abbrev main_cst_25 : Ref sig .tc := ⟨.hbm, 267, rfl⟩
abbrev main_v65 : Ref sig .tc := ⟨.hbm, 268, rfl⟩
abbrev main_v66 : Ref sig .tc := ⟨.hbm, 269, rfl⟩
abbrev main_v67 : Ref sig .tc := ⟨.hbm, 270, rfl⟩
abbrev main_v68 : Ref sig .tc := ⟨.hbm, 271, rfl⟩
abbrev main_v69 : Ref sig .tc := ⟨.hbm, 272, rfl⟩
abbrev main_v70 : Ref sig .tc := ⟨.hbm, 273, rfl⟩
abbrev main_v71 : Ref sig .tc := ⟨.hbm, 274, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S1_S1x1x1_2 : S1.BroadcastsInDim S1x1x1 (![2] : Fin 1 → Fin S1x1x1.rank)
  bcast_S1x1x1_S32x128x1_0_1_2 : S1x1x1.BroadcastsInDim S32x128x1 (![0, 1, 2] : Fin 3 → Fin S32x128x1.rank)
  reducesTo_S32x128x1_S32x128_d2 : S32x128x1.ReducesTo [2] S32x128
  h_S_ : 0 < S_.numel
  bcast_S32x128_S32x128x2_0_1 : S32x128.BroadcastsInDim S32x128x2 (![0, 1] : Fin 2 → Fin S32x128x2.rank)
  bcast_S_S32x128x2 : S_.BroadcastsInDim S32x128x2 (![] : Fin 0 → Fin S32x128x2.rank)
  reducesTo_S32x128x2_S32_d1_2 : S32x128x2.ReducesTo [1, 2] S32
  bcast_S_S32 : S_.BroadcastsInDim S32 (![] : Fin 0 → Fin S32.rank)
  reducesTo_S32_S_d0 : S32.ReducesTo [0] S_
  bcast_S32x128_S32x128x1024_0_1 : S32x128.BroadcastsInDim S32x128x1024 (![0, 1] : Fin 2 → Fin S32x128x1024.rank)
  bcast_S_S32x128x1024 : S_.BroadcastsInDim S32x128x1024 (![] : Fin 0 → Fin S32x128x1024.rank)
  bcast_S_S32x128 : S_.BroadcastsInDim S32x128 (![] : Fin 0 → Fin S32x128.rank)
  shapeCasts_S32x128_S32x128x1 : S32x128.ShapeCasts S32x128x1
  reducesTo_S32x128x1024_S32x128_d2 : S32x128x1024.ReducesTo [2] S32x128
  bcast_S32x128x1_S32x128x1024_0_1_2 : S32x128x1.BroadcastsInDim S32x128x1024 (![0, 1, 2] : Fin 3 → Fin S32x128x1024.rank)
  shapeCasts_S32x128x1_S32x128x1x1 : S32x128x1.ShapeCasts S32x128x1x1
  bcast_S_S32x128x1x1 : S_.BroadcastsInDim S32x128x1x1 (![] : Fin 0 → Fin S32x128x1x1.rank)
  bcast_S1_S1x1x1x1_3 : S1.BroadcastsInDim S1x1x1x1 (![3] : Fin 1 → Fin S1x1x1x1.rank)
  bcast_S1x1x1x1_S32x128x1x1_0_1_2_3 : S1x1x1x1.BroadcastsInDim S32x128x1x1 (![0, 1, 2, 3] : Fin 4 → Fin S32x128x1x1.rank)
  reducesTo_S32x128x1x1_S32x128x1_d3 : S32x128x1x1.ReducesTo [3] S32x128x1
  shapeCasts_S32x128x1_S32x128 : S32x128x1.ShapeCasts S32x128
  reducesTo_S32x128_S32_d1 : S32x128.ReducesTo [1] S32
  bcast_S_S32x1024 : S_.BroadcastsInDim S32x1024 (![] : Fin 0 → Fin S32x1024.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  concatenates_S32x128x1_S32x128x1_S32x128x2_d2 : Shape.Concatenates [S32x128x1, S32x128x1] S32x128x2 2
  reducesTo_S32x1024_S32_d1 : S32x1024.ReducesTo [1] S32
  bcast_S_S1 : S_.BroadcastsInDim S1 (![] : Fin 0 → Fin S1.rank)
  concatenates_S1_S1_S1_S1_S1_S1_S6_d0 : Shape.Concatenates [S1, S1, S1, S1, S1, S1] S6 0
  gather_S32x1024x2_S32x128x1_S32x128x2_2_1_0_0_1_2_112_wf : GatherDims.WF S32x1024x2 S32x128x1 S32x128x2 [2] [1] [0] [1] [0] 2 ![1, 1, 2]
  gather_S32x128x2_S32x128x1_S32x128x2_2_1_0_0_1_2_112_wf : GatherDims.WF S32x128x2 S32x128x1 S32x128x2 [2] [1] [0] [1] [0] 2 ![1, 1, 2]
  gather_S32x1024x1024_S32x128x1_S32x128x1024_2_1_0_0_1_2_111024_wf : GatherDims.WF S32x1024x1024 S32x128x1 S32x128x1024 [2] [1] [0] [1] [0] 2 ![1, 1, 1024]
  gather_S32x128_S32x128x1_S32x128_n_1_0_0_1_2_11_wf : GatherDims.WF S32x128 S32x128x1 S32x128 [] [1] [0] [1] [0] 2 ![1, 1]
  gather_S32x128x1024_S32x128x1x1_S32x128x1_n_2_01_01_2_3_111_wf : GatherDims.WF S32x128x1024 S32x128x1x1 S32x128x1 [] [2] [0, 1] [2] [0, 1] 3 ![1, 1, 1]
  gather_S32x1024_S32x128x1_S32x128_n_1_0_0_1_2_11_wf : GatherDims.WF S32x1024 S32x128x1 S32x128 [] [1] [0] [1] [0] 2 ![1, 1]
  scatter_S32x1024_S32x128x2_S32x128_n_01_01_2_wf : ScatterDims.WF S32x1024 S32x128x2 S32x128 [] [0, 1] [0, 1] 2

variable [Facts₀]

def gather_S32x1024x2_S32x128x1_S32x128x2_2_1_0_0_1_2_112 : GatherDims S32x1024x2 S32x128x1 S32x128x2 where
  offsetDims := [2]
  collapsedSliceDims := [1]
  operandBatchingDims := [0]
  startIndicesBatchingDims := [0]
  startIndexMap := [1]
  indexVectorDim := 2
  sliceSizes := ![1, 1, 2]
  wf := gather_S32x1024x2_S32x128x1_S32x128x2_2_1_0_0_1_2_112_wf
def gather_S32x128x2_S32x128x1_S32x128x2_2_1_0_0_1_2_112 : GatherDims S32x128x2 S32x128x1 S32x128x2 where
  offsetDims := [2]
  collapsedSliceDims := [1]
  operandBatchingDims := [0]
  startIndicesBatchingDims := [0]
  startIndexMap := [1]
  indexVectorDim := 2
  sliceSizes := ![1, 1, 2]
  wf := gather_S32x128x2_S32x128x1_S32x128x2_2_1_0_0_1_2_112_wf
def gather_S32x1024x1024_S32x128x1_S32x128x1024_2_1_0_0_1_2_111024 : GatherDims S32x1024x1024 S32x128x1 S32x128x1024 where
  offsetDims := [2]
  collapsedSliceDims := [1]
  operandBatchingDims := [0]
  startIndicesBatchingDims := [0]
  startIndexMap := [1]
  indexVectorDim := 2
  sliceSizes := ![1, 1, 1024]
  wf := gather_S32x1024x1024_S32x128x1_S32x128x1024_2_1_0_0_1_2_111024_wf
def gather_S32x128_S32x128x1_S32x128_n_1_0_0_1_2_11 : GatherDims S32x128 S32x128x1 S32x128 where
  offsetDims := []
  collapsedSliceDims := [1]
  operandBatchingDims := [0]
  startIndicesBatchingDims := [0]
  startIndexMap := [1]
  indexVectorDim := 2
  sliceSizes := ![1, 1]
  wf := gather_S32x128_S32x128x1_S32x128_n_1_0_0_1_2_11_wf
def gather_S32x128x1024_S32x128x1x1_S32x128x1_n_2_01_01_2_3_111 : GatherDims S32x128x1024 S32x128x1x1 S32x128x1 where
  offsetDims := []
  collapsedSliceDims := [2]
  operandBatchingDims := [0, 1]
  startIndicesBatchingDims := [0, 1]
  startIndexMap := [2]
  indexVectorDim := 3
  sliceSizes := ![1, 1, 1]
  wf := gather_S32x128x1024_S32x128x1x1_S32x128x1_n_2_01_01_2_3_111_wf
def gather_S32x1024_S32x128x1_S32x128_n_1_0_0_1_2_11 : GatherDims S32x1024 S32x128x1 S32x128 where
  offsetDims := []
  collapsedSliceDims := [1]
  operandBatchingDims := [0]
  startIndicesBatchingDims := [0]
  startIndexMap := [1]
  indexVectorDim := 2
  sliceSizes := ![1, 1]
  wf := gather_S32x1024_S32x128x1_S32x128_n_1_0_0_1_2_11_wf
def scatter_S32x1024_S32x128x2_S32x128_n_01_01_2 : ScatterDims S32x1024 S32x128x2 S32x128 where
  updateWindowDims := []
  insertedWindowDims := [0, 1]
  scatterDimsToOperandDims := [0, 1]
  indexVectorDim := 2
  wf := scatter_S32x1024_S32x128x2_S32x128_n_01_01_2_wf

class Facts : Prop extends Facts₀ where

variable [Facts]
-- ==== Proof.KFrame.lean ====
import proofs.«428638_j60473139528033_2_alg».proof.Proof.Gen.Kernel.Launch
import proofs.«428638_j60473139528033_2_alg».proof.Proof.Gen.Kernel.Skeleton
import proofs.«428638_j60473139528033_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-! # The frame of the program

@main is seven stretches of host operations, one region (a pipeline of three windows over a grid of four points: two
inputs fetched at every point, one output written back at every point), and nine more stretches of host operations.
The region's body reads both input buffers whole, reads the output buffer whole (a value nothing uses), and stores one
value over the whole output buffer. No host operation writes an argument array, and none after the region writes a
window's array; so @main runs, the region's arrays end at what the proof data compute, and the seven argument arrays
end as launched. Everything is stated at any float instance `F`. -/

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev prefixOps : List (List (HloOp τ sig (Elt F))) := [hostOps0, hostOps0_1, hostOps0_2, hostOps0_3, hostOps0_4, hostOps0_5, hostOps0_6]
/-- The stretches of host operations after the region, in order. -/
abbrev tailOps : List (List (HloOp τ sig (Elt F))) := [hostOps1, hostOps1_1, hostOps1_2, hostOps1_3, hostOps1_4, hostOps1_5, hostOps1_6, hostOps1_7, hostOps1_8]

/-- Core `c`'s TensorCore buffer contents when the region is entered, as a valuation: the launch contents taken through
    every host operation before the region. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-! ### No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ### What the host operations leave alone

Every host operation writes exactly one buffer, its result. Telling that result apart from a list of references, as
references, tells it apart from each of them as a device buffer. -/

/-- The argument arrays. -/
abbrev argRefs : List (Ref sig .tc) := [main_arg0, main_arg1, main_arg2, main_arg3, main_arg4, main_arg5, main_arg6]
/-- The argument arrays and the windows' arrays. -/
abbrev argAndArrayRefs : List (Ref sig .tc) := argRefs ++ List.ofFn (Pipeline.arrRef spec0)

/-- An operation whose one written buffer is the reference `y`, not in the list `L`, writes no buffer of `L`. -/
theorem writes_avoid {L : List (Ref sig .tc)} {y : Ref sig .tc} (hy : y ∉ L) :
    ∀ r ∈ L, Proc.devRef (τ := τ) .tc r ∉ ({Proc.devRef .tc y} : Finset (DevRef τ sig)) :=
  fun r hr h => hy (Proc.devRef_injective _ (Finset.mem_singleton.mp h) ▸ hr)

theorem hostOps0_keeps : (hostOps0 : List (HloOp τ sig (Elt F))).Forall fun op => ∀ r ∈ argRefs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_1_keeps : (hostOps0_1 : List (HloOp τ sig (Elt F))).Forall fun op => ∀ r ∈ argRefs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_2_keeps : (hostOps0_2 : List (HloOp τ sig (Elt F))).Forall fun op => ∀ r ∈ argRefs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_3_keeps : (hostOps0_3 : List (HloOp τ sig (Elt F))).Forall fun op => ∀ r ∈ argRefs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_4_keeps : (hostOps0_4 : List (HloOp τ sig (Elt F))).Forall fun op => ∀ r ∈ argRefs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_5_keeps : (hostOps0_5 : List (HloOp τ sig (Elt F))).Forall fun op => ∀ r ∈ argRefs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_6_keeps : (hostOps0_6 : List (HloOp τ sig (Elt F))).Forall fun op => ∀ r ∈ argRefs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_keeps : (hostOps1 : List (HloOp τ sig (Elt F))).Forall fun op => ∀ r ∈ argAndArrayRefs, Proc.devRef .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_1_keeps : (hostOps1_1 : List (HloOp τ sig (Elt F))).Forall fun op => ∀ r ∈ argAndArrayRefs, Proc.devRef .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_2_keeps : (hostOps1_2 : List (HloOp τ sig (Elt F))).Forall fun op => ∀ r ∈ argAndArrayRefs, Proc.devRef .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_3_keeps : (hostOps1_3 : List (HloOp τ sig (Elt F))).Forall fun op => ∀ r ∈ argAndArrayRefs, Proc.devRef .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_4_keeps : (hostOps1_4 : List (HloOp τ sig (Elt F))).Forall fun op => ∀ r ∈ argAndArrayRefs, Proc.devRef .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_5_keeps : (hostOps1_5 : List (HloOp τ sig (Elt F))).Forall fun op => ∀ r ∈ argAndArrayRefs, Proc.devRef .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_6_keeps : (hostOps1_6 : List (HloOp τ sig (Elt F))).Forall fun op => ∀ r ∈ argAndArrayRefs, Proc.devRef .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_7_keeps : (hostOps1_7 : List (HloOp τ sig (Elt F))).Forall fun op => ∀ r ∈ argAndArrayRefs, Proc.devRef .tc r ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_8_keeps : (hostOps1_8 : List (HloOp τ sig (Elt F))).Forall fun op => ∀ r ∈ argAndArrayRefs, Proc.devRef .tc r ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)

/-- No host operation before the region writes an argument array. -/
theorem prefix_keeps : ∀ ops ∈ (prefixOps : List (List (HloOp τ sig (Elt F)))), ∀ op ∈ ops,
    ∀ r ∈ argRefs, Proc.devRef .tc r ∉ op.writes := by
  intro ops hops op hop
  simp only [List.mem_cons, List.mem_nil_iff, or_false] at hops
  rcases hops with rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop

/-- No host operation after the region writes an argument array or a window's array. -/
theorem tail_keeps : ∀ ops ∈ (tailOps : List (List (HloOp τ sig (Elt F)))), ∀ op ∈ ops,
    ∀ r ∈ argAndArrayRefs, Proc.devRef .tc r ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- @main around the region, at the certificate's variants `𝒱₀`: the host stretches before it, the region, the host
    stretches after it: it reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main prefixOps tailOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-- The stretches after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop (Pipeline.arrRef spec0 w) (by revert w; decide)

/-- No host operation before the region writes an argument array: the region finds it as launched. -/
theorem V_arg (c : Dev nD) (r : Ref sig .tc) (hr : r ∈ argRefs) : V m c r = m ((c : Thread nD τ).loc r) :=
  StableHlo.after_of_forall_not_mem (b := Proc.devRef .tc r) _ _ fun op hop => by
    obtain ⟨ops, hops, hop'⟩ := List.mem_flatten.mp hop
    exact prefix_keeps ops hops op hop' r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)

/-- No host operation after the region writes an argument array, and none is a window's array: it ends as launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) tailOps c r = m ((c : Thread nD τ).loc r) := by
  unfold Pipeline.afterTail₀
  rw [StableHlo.after_of_forall_not_mem (b := Proc.devRef .tc r) _ _ fun op hop => by
      obtain ⟨ops, hops, hop'⟩ := List.mem_flatten.mp hop
      exact tail_keeps ops hops op hop' r (List.mem_append_left _ hr),
    Pipeline.withArrays_of_ne _ c (V0 m c) _ r ((by decide : ∀ r ∈ argRefs, ∀ w, Pipeline.arrRef spec0 w ≠ r) r hr)]
  exact V_arg m c r hr
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := W_arg m dats c main_arg0 (by decide)
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := W_arg m dats c main_arg1 (by decide)
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := W_arg m dats c main_arg2 (by decide)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := W_arg m dats c main_arg3 (by decide)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := W_arg m dats c main_arg4 (by decide)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := W_arg m dats c main_arg5 (by decide)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := W_arg m dats c main_arg6 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is `V`'s
    (`hA`) and whose body leaves the block in place (`hafter`): the window is fetched whole and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

/-- The whole of the first input's block. -/
abbrev wholeIn0 : Rect S8x128x1024 := Rect.unit (s := S8x128x1024) ![0, 0, 0] S8x128x1024.size inb_S8x128x1024_S8x128x1024_0_0_0
/-- The whole of the second input's block. -/
abbrev wholeIn1 : Rect S8x128 := Rect.unit (s := S8x128) ![0, 0] S8x128.size inb_S8x128_S8x128_0_0
/-- The whole of the output's block. -/
abbrev wholeOut : Rect S8x1x1 := Rect.unit (s := S8x1x1) ![0, 0, 0] S8x1x1.size inb_S8x1x1_S8x1x1_0_0_0

/-! ## What the body leaves in the output window's buffer -/

/-- The output's staging buffer after the body, from the two input blocks: its one store, over the whole buffer, of the
    body's value at the two blocks read whole. -/
def out0_2 (x0 : Vec F S8x128x1024 .f32) (x1 : Vec F S8x128 .i32) : Vec F S8x1x1 .f32 :=
  View.canon [⟨wholeOut, k0_pay1 (View.ld x0 wholeIn0) (View.ld x1 wholeIn1)⟩]

/-- The one store covers the output's buffer. -/
theorem cover_out (p0 : Vec F S8x1x1 .f32) (y : S8x1x1.Idx) :
    ∃ pc ∈ ([⟨wholeOut, p0⟩] : List (View.Piece (Elt F) S8x1x1 .f32)), y ∈ pc.1.set :=
  View.cover_of_tiled [⟨wholeOut, p0⟩] S8x1x1.size (by rfl) y

/-! ## The body's triple -/

set_option maxHeartbeats 1000000 in
/-- The kernel body on whole staging memrefs, the inputs' at contents `x0`, `x1` and the output's at anything, runs to
    the continuation holding the inputs' as they were and the output's at `out0_2 x0 x1`. The body also reads the output's
    buffer whole before it stores; what it reads there is used by nothing, so any contents will do. -/
theorem sound_kernel (c : Dev nD) (E : Set ℕ) (i : grid0.Coords)
    (arg1 : Memref sig .tc .vmem S8x128x1024 .f32) (harg1 : arg1.IsWhole)
    (arg2 : Memref sig .tc .vmem S8x128 .i32) (harg2 : arg2.IsWhole)
    (arg3 : Memref sig .tc .vmem S8x1x1 .f32) (harg3 : arg3.IsWhole)
    (x0 : Vec F S8x128x1024 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them (`V`); after the body at
    point `t` each input's buffer at its block and the output's at `out0_2` of the two input blocks; the invariant is
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V`, a fold over the long host
    prefix, is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_0`, `before0_1`), so `sound_kernel` applies;
    the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unification up to unfolding plain definitions in a type
set_option backward.isDefEq.respectTransparency.types false in
/-- At the compiled mesh, for any values, from any memory with zero counters: every weakly fair execution of @main on the
    TensorCores terminates, and every final state has every array of the pipeline at what the library computes from the
    proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: every weakly fair execution of @main terminates without fault and each of the seven argument arrays ends
    as launched — none is a window's array, so each is read off the run's post at the buffers that bypass the region,
    where no host operation after the region, and none before it, has written it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.Kernel.Fr

end
-- ==== Proof.KIFrame.lean ====
import proofs.«428638_j60473139528033_2_alg».proof.Proof.Gen.KernelIdeal.Launch
import proofs.«428638_j60473139528033_2_alg».proof.Proof.Gen.KernelIdeal.Skeleton
import proofs.«428638_j60473139528033_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-! # The frame of the program

@main is seven stretches of host operations, one region (a pipeline of three windows over a grid of four points: two
inputs fetched at every point, one output written back at every point), and nine more stretches of host operations.
The region's body reads both input buffers whole, reads the output buffer whole (a value nothing uses), and stores one
value over the whole output buffer. No host operation writes an argument array, and none after the region writes a
window's array; so @main runs, the region's arrays end at what the proof data compute, and the seven argument arrays
end as launched. Everything is stated at any float instance `F`. -/

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev prefixOps : List (List (HloOp τ sig (Elt F))) := [hostOps0, hostOps0_1, hostOps0_2, hostOps0_3, hostOps0_4, hostOps0_5, hostOps0_6]
/-- The stretches of host operations after the region, in order. -/
abbrev tailOps : List (List (HloOp τ sig (Elt F))) := [hostOps1, hostOps1_1, hostOps1_2, hostOps1_3, hostOps1_4, hostOps1_5, hostOps1_6, hostOps1_7, hostOps1_8]

/-- Core `c`'s TensorCore buffer contents when the region is entered, as a valuation: the launch contents taken through
    every host operation before the region. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-! ### No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ### What the host operations leave alone

Every host operation writes exactly one buffer, its result. Telling that result apart from a list of references, as
references, tells it apart from each of them as a device buffer. -/

/-- The argument arrays. -/
abbrev argRefs : List (Ref sig .tc) := [main_arg0, main_arg1, main_arg2, main_arg3, main_arg4, main_arg5, main_arg6]
/-- The argument arrays and the windows' arrays. -/
abbrev argAndArrayRefs : List (Ref sig .tc) := argRefs ++ List.ofFn (Pipeline.arrRef spec0)

/-- An operation whose one written buffer is the reference `y`, not in the list `L`, writes no buffer of `L`. -/
theorem writes_avoid {L : List (Ref sig .tc)} {y : Ref sig .tc} (hy : y ∉ L) :
    ∀ r ∈ L, Proc.devRef (τ := τ) .tc r ∉ ({Proc.devRef .tc y} : Finset (DevRef τ sig)) :=
  fun r hr h => hy (Proc.devRef_injective _ (Finset.mem_singleton.mp h) ▸ hr)

theorem hostOps0_keeps : (hostOps0 : List (HloOp τ sig (Elt F))).Forall fun op => ∀ r ∈ argRefs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_1_keeps : (hostOps0_1 : List (HloOp τ sig (Elt F))).Forall fun op => ∀ r ∈ argRefs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_2_keeps : (hostOps0_2 : List (HloOp τ sig (Elt F))).Forall fun op => ∀ r ∈ argRefs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_3_keeps : (hostOps0_3 : List (HloOp τ sig (Elt F))).Forall fun op => ∀ r ∈ argRefs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_4_keeps : (hostOps0_4 : List (HloOp τ sig (Elt F))).Forall fun op => ∀ r ∈ argRefs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_5_keeps : (hostOps0_5 : List (HloOp τ sig (Elt F))).Forall fun op => ∀ r ∈ argRefs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps0_6_keeps : (hostOps0_6 : List (HloOp τ sig (Elt F))).Forall fun op => ∀ r ∈ argRefs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_keeps : (hostOps1 : List (HloOp τ sig (Elt F))).Forall fun op => ∀ r ∈ argAndArrayRefs, Proc.devRef .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_1_keeps : (hostOps1_1 : List (HloOp τ sig (Elt F))).Forall fun op => ∀ r ∈ argAndArrayRefs, Proc.devRef .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_2_keeps : (hostOps1_2 : List (HloOp τ sig (Elt F))).Forall fun op => ∀ r ∈ argAndArrayRefs, Proc.devRef .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_3_keeps : (hostOps1_3 : List (HloOp τ sig (Elt F))).Forall fun op => ∀ r ∈ argAndArrayRefs, Proc.devRef .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_4_keeps : (hostOps1_4 : List (HloOp τ sig (Elt F))).Forall fun op => ∀ r ∈ argAndArrayRefs, Proc.devRef .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_5_keeps : (hostOps1_5 : List (HloOp τ sig (Elt F))).Forall fun op => ∀ r ∈ argAndArrayRefs, Proc.devRef .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_6_keeps : (hostOps1_6 : List (HloOp τ sig (Elt F))).Forall fun op => ∀ r ∈ argAndArrayRefs, Proc.devRef .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_7_keeps : (hostOps1_7 : List (HloOp τ sig (Elt F))).Forall fun op => ∀ r ∈ argAndArrayRefs, Proc.devRef .tc r ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)
theorem hostOps1_8_keeps : (hostOps1_8 : List (HloOp τ sig (Elt F))).Forall fun op => ∀ r ∈ argAndArrayRefs, Proc.devRef .tc r ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals exact writes_avoid (by decide)

/-- No host operation before the region writes an argument array. -/
theorem prefix_keeps : ∀ ops ∈ (prefixOps : List (List (HloOp τ sig (Elt F)))), ∀ op ∈ ops,
    ∀ r ∈ argRefs, Proc.devRef .tc r ∉ op.writes := by
  intro ops hops op hop
  simp only [List.mem_cons, List.mem_nil_iff, or_false] at hops
  rcases hops with rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop

/-- No host operation after the region writes an argument array or a window's array. -/
theorem tail_keeps : ∀ ops ∈ (tailOps : List (List (HloOp τ sig (Elt F)))), ∀ op ∈ ops,
    ∀ r ∈ argAndArrayRefs, Proc.devRef .tc r ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- @main around the region, at the certificate's variants `𝒱₀`: the host stretches before it, the region, the host
    stretches after it: it reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main prefixOps tailOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-- The stretches after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop (Pipeline.arrRef spec0 w) (by revert w; decide)

/-- No host operation before the region writes an argument array: the region finds it as launched. -/
theorem V_arg (c : Dev nD) (r : Ref sig .tc) (hr : r ∈ argRefs) : V m c r = m ((c : Thread nD τ).loc r) :=
  StableHlo.after_of_forall_not_mem (b := Proc.devRef .tc r) _ _ fun op hop => by
    obtain ⟨ops, hops, hop'⟩ := List.mem_flatten.mp hop
    exact prefix_keeps ops hops op hop' r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)

/-- No host operation after the region writes an argument array, and none is a window's array: it ends as launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) tailOps c r = m ((c : Thread nD τ).loc r) := by
  unfold Pipeline.afterTail₀
  rw [StableHlo.after_of_forall_not_mem (b := Proc.devRef .tc r) _ _ fun op hop => by
      obtain ⟨ops, hops, hop'⟩ := List.mem_flatten.mp hop
      exact tail_keeps ops hops op hop' r (List.mem_append_left _ hr),
    Pipeline.withArrays_of_ne _ c (V0 m c) _ r ((by decide : ∀ r ∈ argRefs, ∀ w, Pipeline.arrRef spec0 w ≠ r) r hr)]
  exact V_arg m c r hr
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := W_arg m dats c main_arg0 (by decide)
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := W_arg m dats c main_arg1 (by decide)
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := W_arg m dats c main_arg2 (by decide)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := W_arg m dats c main_arg3 (by decide)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := W_arg m dats c main_arg4 (by decide)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := W_arg m dats c main_arg5 (by decide)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := W_arg m dats c main_arg6 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is `V`'s
    (`hA`) and whose body leaves the block in place (`hafter`): the window is fetched whole and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

/-- The whole of the first input's block. -/
abbrev wholeIn0 : Rect S8x128x1024 := Rect.unit (s := S8x128x1024) ![0, 0, 0] S8x128x1024.size inb_S8x128x1024_S8x128x1024_0_0_0
/-- The whole of the second input's block. -/
abbrev wholeIn1 : Rect S8x128 := Rect.unit (s := S8x128) ![0, 0] S8x128.size inb_S8x128_S8x128_0_0
/-- The whole of the output's block. -/
abbrev wholeOut : Rect S8x1x1 := Rect.unit (s := S8x1x1) ![0, 0, 0] S8x1x1.size inb_S8x1x1_S8x1x1_0_0_0

/-! ## What the body leaves in the output window's buffer -/

/-- The output's staging buffer after the body, from the two input blocks: its one store, over the whole buffer, of the
    body's value at the two blocks read whole. -/
def out0_2 (x0 : Vec F S8x128x1024 .f32) (x1 : Vec F S8x128 .i32) : Vec F S8x1x1 .f32 :=
  View.canon [⟨wholeOut, k0_pay1 (View.ld x0 wholeIn0) (View.ld x1 wholeIn1)⟩]

/-- The one store covers the output's buffer. -/
theorem cover_out (p0 : Vec F S8x1x1 .f32) (y : S8x1x1.Idx) :
    ∃ pc ∈ ([⟨wholeOut, p0⟩] : List (View.Piece (Elt F) S8x1x1 .f32)), y ∈ pc.1.set :=
  View.cover_of_tiled [⟨wholeOut, p0⟩] S8x1x1.size (by rfl) y

/-! ## The body's triple -/

set_option maxHeartbeats 1000000 in
/-- The kernel body on whole staging memrefs, the inputs' at contents `x0`, `x1` and the output's at anything, runs to
    the continuation holding the inputs' as they were and the output's at `out0_2 x0 x1`. The body also reads the output's
    buffer whole before it stores; what it reads there is used by nothing, so any contents will do. -/
theorem sound_kernel (c : Dev nD) (E : Set ℕ) (i : grid0.Coords)
    (arg1 : Memref sig .tc .vmem S8x128x1024 .f32) (harg1 : arg1.IsWhole)
    (arg2 : Memref sig .tc .vmem S8x128 .i32) (harg2 : arg2.IsWhole)
    (arg3 : Memref sig .tc .vmem S8x1x1 .f32) (harg3 : arg3.IsWhole)
    (x0 : Vec F S8x128x1024 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them (`V`); after the body at
    point `t` each input's buffer at its block and the output's at `out0_2` of the two input blocks; the invariant is
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V`, a fold over the long host
    prefix, is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_0`, `before0_1`), so `sound_kernel` applies;
    the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unification up to unfolding plain definitions in a type
set_option backward.isDefEq.respectTransparency.types false in
/-- At the compiled mesh, for any values, from any memory with zero counters: every weakly fair execution of @main on the
    TensorCores terminates, and every final state has every array of the pipeline at what the library computes from the
    proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: every weakly fair execution of @main terminates without fault and each of the seven argument arrays ends
    as launched — none is a window's array, so each is read off the run's post at the buffers that bypass the region,
    where no host operation after the region, and none before it, has written it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.KernelIdeal.Fr

end
-- ==== Proof.HostBridge.lean ====
/-
  The host sides of the two programs are the same operations. Around the one place where they differ (the class loss),
  the kernel's program and the reference apply the same pure operations to the same arguments, on differently numbered
  buffers. Here: the closing operations as ONE function `tailFn` of the two scalars that reach them (the position loss
  and the class loss) and of the arguments the other two losses read; the reference's result as `tailFn` at its own
  two scalars; and, over any contents of the device's buffers, what the kernel program's host operations before the
  region leave in the gathered logits, the gathered classes and the position loss, and what those after the region
  leave in the stacked result, each as the reference's own value function of the arguments.
-/
import proofs.«428638_j60473139528033_2_alg».proof.Proof.Gen.KernelIdeal.Launch
import proofs.«428638_j60473139528033_2_alg».proof.Proof.RefReadP
import Idealize.ShloMosaic.Lib.StableHlo.Run

noncomputable section

namespace Idealize.ShloMosaic

/-- A concatenation of two operands depends only on the operands (a congruence: the side condition reads the operands'
    shapes only, so it passes from one pair of operands to an equal pair). -/
theorem concatenate2_congr {α : Type} {t : Shape} {ax : Fin t.rank} {s0 s1 : Shape}
    {a0 b0 : s0.Idx → α} {a1 b1 : s1.Idx → α} (h0 : a0 = b0) (h1 : a1 = b1)
    (h : Shape.Concatenates (([⟨s0, a0⟩, ⟨s1, a1⟩] : List ((s : Shape) × (s.Idx → α))).map (·.1)) t ax) :
    concatenate t ax [⟨s0, a0⟩, ⟨s1, a1⟩] h = concatenate t ax [⟨s0, b0⟩, ⟨s1, b1⟩] (by subst h0 h1; exact h) := by
  subst h0 h1; rfl

namespace StableHlo

variable {τ : Topo} {sig : RefSig} {Val : EltTy → Type}

/-- `nary` over a literal family of six references: the result with each operand's contents at its own reference. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- The same, from what each operand's reference holds. -/
theorem nary6_result_of {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val)
    {a0 : (Proc.devRef (τ := τ) .tc x0).ty.Contents Val} {a1 : (Proc.devRef (τ := τ) .tc x1).ty.Contents Val}
    {a2 : (Proc.devRef (τ := τ) .tc x2).ty.Contents Val} {a3 : (Proc.devRef (τ := τ) .tc x3).ty.Contents Val}
    {a4 : (Proc.devRef (τ := τ) .tc x4).ty.Contents Val} {a5 : (Proc.devRef (τ := τ) .tc x5).ty.Contents Val}
    (h0 : F (Proc.devRef .tc x0) = a0) (h1 : F (Proc.devRef .tc x1) = a1) (h2 : F (Proc.devRef .tc x2) = a2)
    (h3 : F (Proc.devRef .tc x3) = a3) (h4 : F (Proc.devRef .tc x4) = a4) (h5 : F (Proc.devRef .tc x5) = a5) :
    (nary (τ := τ) ![x0, x1, x2, x3, x4, x5] y f hxs hy).result F (Proc.devRef .tc y)
      = f (Fin.cons a0 (Fin.cons a1 (Fin.cons a2 (Fin.cons a3 (Fin.cons a4 (Fin.cons a5 (fun i => i.elim0))))))) := by
  subst h0 h1 h2 h3 h4 h5; exact nary6_result f hxs hy F

end StableHlo

end Idealize.ShloMosaic

namespace Cert.HostBridge

open Idealize.ShloMosaic Idealize.ShloMosaic.StableHlo Idealize.SL.Sem

variable {F : FTy → Type} [FloatOps F]

/-! ## The closing operations, as one function

Both programs end with the same scalar arithmetic: each of the four losses scaled by its weight and divided by the
batch size, their sum, and the six scalars stacked. It is stated here once, over the reference's own two middle losses. -/

section Closing

open Cert.ReferenceIdeal Cert.ReferenceIdeal.Gen Cert.ReferenceIdeal.Read

/-- `w · loss / 32` for a weight given by its word. -/
def scaled (w : BitVec 32) (loss : FVec F S_ .f32) : FVec F S_ .f32 :=
  Host.divf (mulf (constant S_ .f32 w) loss) (constant S_ .f32 0x42000000#32)

/-- the closing operations both programs share, as a function of the two scalars that reach them from before
    (`lossPos`) and from the class loss (`lossCls`), and of the arguments the other two losses read
    (`x2` the confidences, `x5` the indices) -/
def tailFn (lossCls lossPos : FVec F S_ .f32) (x2 : FVec F S32x1024 .f32) (x5 : IVec S32x128 32) : FVec F S6 .f32 :=
  concatenate S6 0
    [⟨S1, broadcastInDim S1 ![] bcast_S_S1 (scaled 0x40A00000#32 lossPos)⟩,
     ⟨S1, broadcastInDim S1 ![] bcast_S_S1 (scaled 0x3F800000#32 lossCls)⟩,
     ⟨S1, broadcastInDim S1 ![] bcast_S_S1 (scaled 0x40000000#32 (val_main_v28 (F := F) x2 x5))⟩,
     ⟨S1, broadcastInDim S1 ![] bcast_S_S1 (scaled 0x3DCCCCCD#32 (val_main_v53 (F := F) x2 x5))⟩,
     ⟨S1, broadcastInDim S1 ![] bcast_S_S1
        (addf (addf (addf (scaled 0x40A00000#32 lossPos) (scaled 0x3F800000#32 lossCls))
          (scaled 0x40000000#32 (val_main_v28 (F := F) x2 x5))) (scaled 0x3DCCCCCD#32 (val_main_v53 (F := F) x2 x5)))⟩,
     ⟨S1, broadcastInDim S1 ![] bcast_S_S1 (constant S_ .f32 0x43000000#32)⟩]
    concatenates_S1_S1_S1_S1_S1_S1_S6_d0

/-- The reference's result is the closing operations at its own position loss and class loss. -/
theorem ref_result (x0 : FVec F S32x1024x2 .f32) (x1 : FVec F S32x1024x1024 .f32) (x2 : FVec F S32x1024 .f32)
    (x3 : FVec F S32x128x2 .f32) (x4 x5 x6 : IVec S32x128 32) :
    val_main_v71 (F := F) x0 x1 x2 x3 x4 x5 x6
      = tailFn (val_main_v21 (F := F) x1 x4 x5 x6) (val_main_v9 (F := F) x0 x3 x5 x6) x2 x5 := rfl

end Closing

/-! ## The kernel program's host operations are the reference's

Over any contents of the device's buffers, each buffer the host operations around the region write holds the value
the reference's operation of the same position computes from the same arguments. -/

section Kernel

open Cert.KernelIdeal
open Cert.ReferenceIdeal.Read (val_main_v9 val_main_v11 val_main_v12 val_main_v28 val_main_v47 val_main_v53)

local notation:max b "!" => (Proc.devRef (τ := Cert.KernelIdeal.τ) (sig := Cert.KernelIdeal.sig) Proc.tc b)

/-- The host operations before the region, stretch by stretch. -/
abbrev prefixOps : List (List (HloOp Cert.KernelIdeal.τ Cert.KernelIdeal.sig (Elt F))) :=
  [Gen.hostOps0, Gen.hostOps0_1, Gen.hostOps0_2, Gen.hostOps0_3, Gen.hostOps0_4, Gen.hostOps0_5, Gen.hostOps0_6]

/-- The host operations after the region, stretch by stretch. -/
abbrev tailOps : List (List (HloOp Cert.KernelIdeal.τ Cert.KernelIdeal.sig (Elt F))) :=
  [Gen.hostOps1, Gen.hostOps1_1, Gen.hostOps1_2, Gen.hostOps1_3, Gen.hostOps1_4, Gen.hostOps1_5, Gen.hostOps1_6,
   Gen.hostOps1_7, Gen.hostOps1_8]

attribute [local congr] concatenate2_congr

set_option maxRecDepth 8192 in
/-- The gathered classes. -/
theorem prefix_v12 (V : Valuation Cert.KernelIdeal.τ Cert.KernelIdeal.sig (Elt F)) :
    StableHlo.after (List.flatten (prefixOps (F := F))) V (main_v12 !)
      = val_main_v12 (F := F) (V (main_arg4 !)) (V (main_arg6 !)) := by
  simp only [prefixOps, Gen.hostOps0, Gen.hostOps0_1, Gen.hostOps0_2, Gen.hostOps0_3, Gen.hostOps0_4, Gen.hostOps0_5,
    Gen.hostOps0_6, List.flatten_cons, List.flatten_nil, List.append_nil, List.cons_append, List.nil_append]
  after_results_simp
  (try simp only [StableHlo.TRef.ofBuf, StableHlo.TRef.toBuf, cast_eq])
  rfl

set_option maxRecDepth 8192 in
/-- The gathered logits. -/
theorem prefix_v11 (V : Valuation Cert.KernelIdeal.τ Cert.KernelIdeal.sig (Elt F)) :
    StableHlo.after (List.flatten (prefixOps (F := F))) V (main_v11 !)
      = val_main_v11 (F := F) (V (main_arg1 !)) (V (main_arg5 !)) := by
  simp only [prefixOps, Gen.hostOps0, Gen.hostOps0_1, Gen.hostOps0_2, Gen.hostOps0_3, Gen.hostOps0_4, Gen.hostOps0_5,
    Gen.hostOps0_6, List.flatten_cons, List.flatten_nil, List.append_nil, List.cons_append, List.nil_append]
  after_results_simp
  (try simp only [StableHlo.TRef.ofBuf, StableHlo.TRef.toBuf, cast_eq])
  rfl

set_option maxRecDepth 8192 in
/-- The position loss. -/
theorem prefix_v9 (V : Valuation Cert.KernelIdeal.τ Cert.KernelIdeal.sig (Elt F)) :
    StableHlo.after (List.flatten (prefixOps (F := F))) V (main_v9 !)
      = val_main_v9 (F := F) (V (main_arg0 !)) (V (main_arg3 !)) (V (main_arg5 !)) (V (main_arg6 !)) := by
  simp only [prefixOps, Gen.hostOps0, Gen.hostOps0_1, Gen.hostOps0_2, Gen.hostOps0_3, Gen.hostOps0_4, Gen.hostOps0_5,
    Gen.hostOps0_6, List.flatten_cons, List.flatten_nil, List.append_nil, List.cons_append, List.nil_append]
  after_results_simp
  (try simp only [StableHlo.TRef.ofBuf, StableHlo.TRef.toBuf, cast_eq])
  rfl

set_option maxRecDepth 8192 in
set_option maxHeartbeats 4000000 in
/-- The stacked result: the closing operations at the summed class loss of the region's output and the position loss
    that reaches them from before the region. -/
theorem tail_v64 (W : Valuation Cert.KernelIdeal.τ Cert.KernelIdeal.sig (Elt F)) :
    StableHlo.after (List.flatten (tailOps (F := F))) W (main_v64 !)
      = tailFn (F := F)
          (Host.reduceAdd (W (main_v13 !) : (⟨S32x1x1, .f32⟩ : BufTy).Contents (Elt F)) (constant S_ .f32 0x00000000#32)
            Gen.reducesTo_S32x1x1_S_d0_1_2 Gen.h_S_)
          (W (main_v9 !)) (W (main_arg2 !)) (W (main_arg5 !)) := by
  simp only [tailOps, Gen.hostOps1, Gen.hostOps1_1, Gen.hostOps1_2, Gen.hostOps1_3, Gen.hostOps1_4, Gen.hostOps1_5,
    Gen.hostOps1_6, Gen.hostOps1_7, Gen.hostOps1_8, List.flatten_cons, List.flatten_nil, List.append_nil, List.cons_append,
    List.nil_append]
  simp only [after_cons, after_nil]
  refine (nary6_result_of _ _ _ _
    (a0 := broadcastInDim S1 ![] Gen.bcast_S_S1 (scaled 0x40A00000#32 (W (main_v9 !))))
    (a1 := broadcastInDim S1 ![] Gen.bcast_S_S1 (scaled 0x3F800000#32
      (Host.reduceAdd (W (main_v13 !) : (⟨S32x1x1, .f32⟩ : BufTy).Contents (Elt F)) (constant S_ .f32 0x00000000#32)
        Gen.reducesTo_S32x1x1_S_d0_1_2 Gen.h_S_)))
    (a2 := broadcastInDim S1 ![] Gen.bcast_S_S1 (scaled 0x40000000#32 (val_main_v28 (F := F) (W (main_arg2 !)) (W (main_arg5 !)))))
    (a3 := broadcastInDim S1 ![] Gen.bcast_S_S1 (scaled 0x3DCCCCCD#32 (val_main_v53 (F := F) (W (main_arg2 !)) (W (main_arg5 !)))))
    (a4 := broadcastInDim S1 ![] Gen.bcast_S_S1
      (addf (addf (addf (scaled 0x40A00000#32 (W (main_v9 !)))
        (scaled 0x3F800000#32
          (Host.reduceAdd (W (main_v13 !) : (⟨S32x1x1, .f32⟩ : BufTy).Contents (Elt F)) (constant S_ .f32 0x00000000#32)
            Gen.reducesTo_S32x1x1_S_d0_1_2 Gen.h_S_)))
        (scaled 0x40000000#32 (val_main_v28 (F := F) (W (main_arg2 !)) (W (main_arg5 !)))))
        (scaled 0x3DCCCCCD#32 (val_main_v53 (F := F) (W (main_arg2 !)) (W (main_arg5 !))))))
    (a5 := broadcastInDim S1 ![] Gen.bcast_S_S1 (constant S_ .f32 0x43000000#32))
    ?_ ?_ ?_ ?_ ?_ ?_).trans ?_
  · after_results_simp
    (try simp only [StableHlo.TRef.ofBuf, StableHlo.TRef.toBuf, cast_eq])
    rfl
  · after_results_simp
    (try simp only [StableHlo.TRef.ofBuf, StableHlo.TRef.toBuf, cast_eq])
    rfl
  · after_results_simp
    (try simp only [StableHlo.TRef.ofBuf, StableHlo.TRef.toBuf, cast_eq])
    rfl
  · after_results_simp
    (try simp only [StableHlo.TRef.ofBuf, StableHlo.TRef.toBuf, cast_eq])
    rfl
  · after_results_simp
    (try simp only [StableHlo.TRef.ofBuf, StableHlo.TRef.toBuf, cast_eq])
    rfl
  · after_results_simp
  · rfl

end Kernel

end Cert.HostBridge

end
-- ==== Proof.KArr.lean ====
import proofs.«428638_j60473139528033_2_alg».proof.Proof.KIFrame
import Idealize.ShloMosaic.Lib.Pipeline.Value
import Idealize.ShloMosaic.Lib.ValueIdx

/-! # From blocks to the array

The region runs over four grid points. Point t stages rows 8t … 8t + 7 of the two input arrays (shapes [32,128,1024]
and [32,128]) as blocks of 8 rows, and writes back rows 8t … 8t + 7 of the output array (shape [32,1,1]) from the body's
value at those two blocks. The four output blocks tile the 32 rows, so after the run entry (b, 0, 0) of the output is
row b % 8 of the body's value at the input blocks of point b / 8; and entry (r, …) of an input block at point t is
entry (8t + r, …) of its array. -/

set_option maxRecDepth 16384

noncomputable section

namespace Cert.KernelIdeal.Arr

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## Rows and grid points

The output array has 32 rows; grid point t owns rows 8t … 8t + 7 of every array. Row b therefore belongs to point
b / 8 and is row b % 8 of that point's block. -/

/-- The grid point whose block holds row b. -/
def tOf (b : Fin 32) : Fin cfg0.N := ⟨b.val / 8, by have := b.isLt; rw [show cfg0.N = 4 from N_0]; omega⟩

/-- The row inside that block. -/
def rOf (b : Fin 32) : Fin 8 := ⟨b.val % 8, Nat.mod_lt _ (by decide)⟩

theorem tOf_val (b : Fin 32) : (tOf b).val = b.val / 8 := rfl
theorem rOf_val (b : Fin 32) : (rOf b).val = b.val % 8 := rfl

/-! ## The blocks and arrays at their literal types -/

/-- The first input's block at point t. -/
abbrev blk0 (c : Dev nD) (t : Fin cfg0.N) : Vec F S8x128x1024 .f32 := iblk m c 0 t
/-- The second input's block at point t. -/
abbrev blk1 (c : Dev nD) (t : Fin cfg0.N) : Vec F S8x128 .i32 := iblk m c 1 t
/-- The first input's array as the region finds it. -/
abbrev arr0 (c : Dev nD) : S32x128x1024.Idx → Elt F .f32 := V m c main_v11
/-- The second input's array as the region finds it. -/
abbrev arr1 (c : Dev nD) : S32x128.Idx → Elt F .i32 := V m c main_v12

/-- The output array as one function of its index: entry (b, 0, 0) is row b % 8 of the body's value at the two
    input blocks of point b / 8. -/
def wholeOutput (c : Dev nD) : S32x1x1.Idx → Elt F .f32 := fun i =>
  k0_pay1 (blk0 m c (tOf (i 0))) (blk1 m c (tOf (i 0))) (ix3 (rOf (i 0)) (0 : Fin 1) (0 : Fin 1))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three index maps over the grid: each sends point t to block t along the rows and block 0 along every other
    axis. -/
theorem index_facts : ∀ t : Fin cfg0.N,
    win0_2.index t (0 : Fin 3) = t.val ∧ win0_2.index t (1 : Fin 3) = 0 ∧ win0_2.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- An index of the output array whose row is 8t + (row r of a block) reads, in the whole-array function, the body's
    value at point t's blocks at row r. -/
theorem wholeOutput_of_row (c : Dev nD) (t : Fin cfg0.N) (j : S8x1x1.Idx) (i : S32x1x1.Idx)
    (h : (i 0).val = t.val * 8 + 1 * (j 0).val) :
    wholeOutput m c i = k0_pay1 (blk0 m c t) (blk1 m c t) j := by
  have hj0 : (j 0).val < 8 := (j 0).isLt
  have hj1 : (j 1).val < 1 := (j 1).isLt
  have hj2 : (j 2).val < 1 := (j 2).isLt
  have ht : tOf (i 0) = t := Fin.ext (by show (i 0).val / 8 = t.val; omega)
  have hr : ix3 (rOf (i 0)) (0 : Fin 1) (0 : Fin 1) = j := by
    funext a; apply Fin.ext
    match a with
    | ⟨0, _⟩ => show (i 0).val % 8 = (j 0).val; omega
    | ⟨1, _⟩ => show 0 = (j 1).val; omega
    | ⟨2, _⟩ => show 0 = (j 2).val; omega
  unfold wholeOutput
  rw [ht, hr]

/-- What point t writes back is block t of the whole-array function. -/
theorem flushed_eq (c : Dev nD) (t : Fin cfg0.N) :
    (dats m 0 c).flushed 2 t = ((cfg0.win 2).blk t).view.read (Elt F) (wholeOutput m c) := by
  show (cfg0.win 2).cut (grid0.coords t) ((dats m 0 c).after 2 t) = _
  rw [after0_2]
  unfold out0_2
  rw [View.canon_unit_zero zeros3]
  simp only [View.ld_unit_zero (S := S8x128x1024) zeros3, View.ld_unit_zero (S := S8x128) zeros2]
  obtain ⟨e0, e1, e2, -⟩ := index_facts t
  funext j
  show k0_pay1 (blk0 m c t) (blk1 m c t) j = wholeOutput m c (((cfg0.win 2).blk t).view.emb j)
  refine (wholeOutput_of_row m c t j _ ?_).symm
  show win0_2.index t (0 : Fin 3) * 8 + 1 * (j 0).val = t.val * 8 + 1 * (j 0).val
  rw [e0]

/-- An index of the output array is in point t's block iff each coordinate is in the block's range on its axis. -/
theorem mem_blk (t : Fin cfg0.N) (i : S32x1x1.Idx) :
    i ∈ ((cfg0.win 2).blk t).view.set ↔ ∀ a : Fin 3, win0_2.index t a * S8x1x1.size a ≤ (i a).val ∧ (i a).val < win0_2.index t a * S8x1x1.size a + S8x1x1.size a := by
  show i ∈ ((View.whole main_v13).slice (win0_2.rect t)).set ↔ _
  rw [View.set_slice_whole, Rect.mem_set_unit]
  exact Iff.rfl

/-- Every index of the output array is in the block of the point its row belongs to. -/
theorem covered (i : S32x1x1.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1 := (i 2).isLt
  have htv : (tOf (i 0)).val = (i 0).val / 8 := rfl
  obtain ⟨e0, e1, e2, -⟩ := index_facts (tOf (i 0))
  refine ⟨tOf (i 0), flush0_2 _, ?_⟩
  rw [mem_blk]
  intro a
  match a with
  | ⟨0, _⟩ =>
    show win0_2.index (tOf (i 0)) (0 : Fin 3) * 8 ≤ (i 0).val ∧ (i 0).val < win0_2.index (tOf (i 0)) (0 : Fin 3) * 8 + 8
    rw [e0]; omega
  | ⟨1, _⟩ =>
    show win0_2.index (tOf (i 0)) (1 : Fin 3) * 1 ≤ (i 1).val ∧ (i 1).val < win0_2.index (tOf (i 0)) (1 : Fin 3) * 1 + 1
    rw [e1]; omega
  | ⟨2, _⟩ =>
    show win0_2.index (tOf (i 0)) (2 : Fin 3) * 1 ≤ (i 2).val ∧ (i 2).val < win0_2.index (tOf (i 0)) (2 : Fin 3) * 1 + 1
    rw [e2]; omega

/-- The output array after the run is the whole-array function. -/
theorem arr_eq (c : Dev nD) : (dats m 0 c).arrAt 2 cfg0.N = wholeOutput m c :=
  (dats m 0 c).arrAt_eq_of_cover 2 (wholeOutput m c) (fun t _ => flushed_eq m c t) covered

/-- Entry (b, 0, 0) of the output array after the run. -/
theorem arr_apply (c : Dev nD) (b : Fin 32) :
    ((dats m 0 c).arrAt 2 cfg0.N : S32x1x1.Idx → Elt F .f32) (ix3 b (0 : Fin 1) (0 : Fin 1))
      = k0_pay1 (iblk m c 0 (tOf b)) (iblk m c 1 (tOf b)) (ix3 (rOf b) (0 : Fin 1) (0 : Fin 1)) := by
  rw [arr_eq]
  rfl

/-! ## The input blocks as rows of their arrays -/

/-- Entry (r, q, k) of the first input's block at point t is entry (8t + r, q, k) of its array. -/
theorem iblk0_apply (c : Dev nD) (t : Fin cfg0.N) (r : Fin 8) (q : Fin 128) (k : Fin 1024) :
    (iblk m c 0 t : S8x128x1024.Idx → Elt F .f32) (ix3 r q k)
      = (V m c main_v11 : S32x128x1024.Idx → Elt F .f32)
          (ix3 ⟨8 * t.val + r.val, by have hN : cfg0.N = 4 := N_0; have := t.isLt; have := r.isLt; omega⟩ q k) := by
  obtain ⟨-, -, -, e0, e1, e2, -⟩ := index_facts t
  unfold iblk
  rw [View.read_apply]
  show arr0 m c _ = arr0 m c _
  refine congrArg (arr0 m c) (funext fun a => Fin.ext ?_)
  match a with
  | ⟨0, _⟩ => show win0_0.index t (0 : Fin 3) * 8 + 1 * r.val = 8 * t.val + r.val; rw [e0]; omega
  | ⟨1, _⟩ => show win0_0.index t (1 : Fin 3) * 128 + 1 * q.val = q.val; rw [e1]; omega
  | ⟨2, _⟩ => show win0_0.index t (2 : Fin 3) * 1024 + 1 * k.val = k.val; rw [e2]; omega

/-- Entry (r, q) of the second input's block at point t is entry (8t + r, q) of its array. -/
theorem iblk1_apply (c : Dev nD) (t : Fin cfg0.N) (r : Fin 8) (q : Fin 128) :
    (iblk m c 1 t : S8x128.Idx → Elt F .i32) (ix2 r q)
      = (V m c main_v12 : S32x128.Idx → Elt F .i32)
          (ix2 ⟨8 * t.val + r.val, by have hN : cfg0.N = 4 := N_0; have := t.isLt; have := r.isLt; omega⟩ q) := by
  obtain ⟨-, -, -, -, -, -, e0, e1⟩ := index_facts t
  unfold iblk
  rw [View.read_apply]
  show arr1 m c _ = arr1 m c _
  refine congrArg (arr1 m c) (funext fun a => Fin.ext ?_)
  match a with
  | ⟨0, _⟩ => show win0_1.index t (0 : Fin 2) * 8 + 1 * r.val = 8 * t.val + r.val; rw [e0]; omega
  | ⟨1, _⟩ => show win0_1.index t (1 : Fin 2) * 128 + 1 * q.val = q.val; rw [e1]; omega

end Cert.KernelIdeal.Arr

end
-- ==== Proof.KPay.lean ====
/-
  What the kernel body computes, read at an index, on the extended reals.

  For one block of 8 samples × 128 matched rows × 1024 classes of logits `x` and the 8 × 128 target classes `y`, the body's
  result at sample `b` is

      ( Σ_m [ (M_m + log Σ_c exp (x_{m,c} − M_m)) − Σ_c x_{m,c} · hot(y_m, c) ] ) · κ

  where `M_m` is the maximum of row `m` over the classes taken from `−∞`, `hot(w, c)` is 1 when the class counter `c`, as a
  32-bit word, is the target word `w` and 0 otherwise, and `κ` is the scalar the word `0x3C000000` encodes. The bracket is
  the cross-entropy of row `m`: the log-sum-exp of its logits minus the logit of its true class.

  The first part reads the layout steps of a reduction that keeps its axis at rank three: `[a, b] → [a, b, 1]`,
  `[a, b, 1] → [a, b, c]`, `[a, 1] → [a, 1, 1]`, and a sum or a maximum along the last or the middle axis as a sum or a
  fold over that axis's coordinates. A one-axis sum on the extended reals is the plain sum over the coordinates: the
  accumulator's zero does not appear.
-/
import proofs.«428638_j60473139528033_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KPay

open Idealize.ShloMosaic Idealize.ShloMosaic.ValueIdx Cert.KernelIdeal Cert.KernelIdeal.Gen

/-! ## Layout steps and one-axis reductions at rank three -/

section Layout
variable {α : Type}

/-- An `[a, b]` array cast to `[a, b, 1]` reads, at `(i, j, u)`, the operand at `(i, j)`: both sit at row-major position
    `i · b + j`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem cast_a1_a11 {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, b, 1]` array broadcast to `[a, b, c]` reads, at `(i, j, k)`, the operand at `(i, j, 0)`: the last coordinate
    is dropped, the first two are kept (also when an extent is 1, where the coordinate is 0 anyway). -/
theorem bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-- A sum of an `[a, b, c]` vector along its last axis, read at `(i, j)` on the extended reals, is the sum of that lane's
    entries. -/
theorem laneSum_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-- A maximum of an `[a, b, c]` vector along its last axis, read at `(i, j)` on the extended reals, is the fold of `max`,
    from the accumulator's value, over that lane's entries. -/
theorem laneMax_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (congrArg (fun f => (Finset.univ : Finset (Fin c)).fold max (Ideal.ofBits .f32 acc) f)
      (funext fun k => congrArg src (funext fun ax => Fin.ext (by
        match ax with
        | ⟨0, _⟩ => rfl
        | ⟨1, _⟩ => rfl
        | ⟨2, _⟩ => rfl))))

/-- A sum of an `[a, b, 1]` vector along its middle axis, read at `(i, u)` on the extended reals, is the sum over the middle
    coordinate. -/
theorem midSum_apply {a b : ℕ} (src : FVec Ideal ⟨3, ![a, b, 1]⟩ .f32) (acc : BitVec FTy.f32.bits)
    (h : (⟨3, ![a, b, 1]⟩ : Shape).Reduces [1] ⟨2, ![a, 1]⟩) (hφ : FKind.Formats .f32)
    (hacc : acc = FKind.add.neutral .f32 hφ) (i : Fin a) (u : Fin 1) :
    multiReduction .add [1] ⟨2, ![a, 1]⟩ src acc h hφ hacc (ix2 i u) = ∑ j : Fin b, src (ix3 i j u) :=
  (Ideal.multiReduction_add_single src acc h hφ hacc (ix2 i u)).trans
    (Finset.sum_congr rfl fun k _ => congrArg src (funext fun ax => Fin.ext (by
      match ax with
      | ⟨0, _⟩ => rfl
      | ⟨1, _⟩ => rfl
      | ⟨2, _⟩ => rfl)))

/-! ## The row maximum -/

/-- The word `0xFF800000` encodes `−∞`, the bottom of the extended reals. -/
theorem ofBits_negInf : Ideal.ofBits .f32 0xFF800000#32 = ⊥ := by simp [Ideal.ofBits, Ideal.ieee]

/-- A maximum, taken from `⊥`, of finitely many reals — at least one — is a real: adding one more real to the set keeps the
    maximum among the reals met so far. -/
theorem fold_max_real {ι : Type} [DecidableEq ι] (f : ι → EReal) (s : Finset ι) :
    (∀ i ∈ s, ∃ r : ℝ, f i = (r : EReal)) → s.Nonempty → ∃ M : ℝ, s.fold max ⊥ f = (M : EReal) := by
  induction s using Finset.induction_on with
  | empty => intro _ h; exact absurd h Finset.not_nonempty_empty
  | insert a s ha ih =>
    intro hf _
    obtain ⟨r, hr⟩ := hf a (Finset.mem_insert_self a s)
    rw [Finset.fold_insert ha, hr]
    rcases s.eq_empty_or_nonempty with h | h
    · subst h
      exact ⟨r, by rw [Finset.fold_empty]; exact max_bot_right _⟩
    · obtain ⟨M, hM⟩ := ih (fun i hi => hf i (Finset.mem_insert_of_mem hi)) h
      rw [hM]
      rcases max_choice (r : EReal) (M : EReal) with e | e
      · exact ⟨r, e⟩
      · exact ⟨M, e⟩

/-- The row maximum the body takes: the maximum over the 1024 classes of the logits of sample `b`, row `m`, from `−∞`. -/
def rowMax (x : Vec Ideal S8x128x1024 .f32) (b : Fin 8) (m : Fin 128) : EReal :=
  multiReduction (F := Ideal) .maximumf [2] S8x128 x 0xFF800000#32 reduces_S8x128x1024_S8x128 (.inl rfl) rfl (ix2 b m)

/-- The row maximum is the fold of `max` from `⊥` over the row's 1024 logits. -/
theorem rowMax_eq_fold (x : Vec Ideal S8x128x1024 .f32) (b : Fin 8) (m : Fin 128) :
    rowMax x b m = (Finset.univ : Finset (Fin 1024)).fold max ⊥ (fun c => x (ix3 b m c)) := by
  unfold rowMax
  refine (laneMax_apply (a := 8) (b := 128) (c := 1024) x 0xFF800000#32 reduces_S8x128x1024_S8x128 (.inl rfl) rfl
    b m).trans ?_
  rw [ofBits_negInf]

/-- When every logit of the row is a real, so is the row maximum. -/
theorem rowMax_real (x : Vec Ideal S8x128x1024 .f32) (b : Fin 8) (m : Fin 128)
    (hx : ∀ c : Fin 1024, ∃ r : ℝ, x (ix3 b m c) = (r : EReal)) : ∃ M : ℝ, rowMax x b m = (M : EReal) := by
  rw [rowMax_eq_fold]
  exact fold_max_real (fun c => x (ix3 b m c)) Finset.univ (fun c _ => hx c) ⟨0, Finset.mem_univ _⟩

/-! ## The one-hot factor -/

/-- The one-hot factor: the one-bit answer to "is the class counter `c`, as a 32-bit word, the target word `w`?", widened to
    32 bits without sign and read as a signed integer on the extended reals. -/
def hot (w : BitVec 32) (c : Fin 1024) : EReal :=
  FloatOps.sitofp (F := Ideal) .f32 ((IntOp.cmpi .eq (BitVec.ofNat 32 c.val) w).setWidth 32)

/-- It is 1 at the class the target word names and 0 at every other class. -/
theorem hot_eq (w : BitVec 32) (c : Fin 1024) :
    hot w c = if BitVec.ofNat 32 c.val = w then (1 : EReal) else 0 := by
  unfold hot
  show ((((IntOp.cmpi .eq (BitVec.ofNat 32 c.val) w).setWidth 32).toInt : ℝ) : EReal) = _
  by_cases h : BitVec.ofNat 32 c.val = w
  · have e : IntOp.cmpi .eq (BitVec.ofNat 32 c.val) w = 1#1 := by
      unfold IntOp.cmpi; simp [h]
    have e1 : ((1#1 : BitVec 1).setWidth 32).toInt = 1 := by decide
    rw [if_pos h, e, e1]; simp
  · have e : IntOp.cmpi .eq (BitVec.ofNat 32 c.val) w = 0#1 := by
      show BitVec.ofBool (BitVec.ofNat 32 c.val == w) = 0#1
      rw [beq_eq_false_iff_ne.mpr h]; rfl
    have e0 : ((0#1 : BitVec 1).setWidth 32).toInt = 0 := by decide
    rw [if_neg h, e, e0]; simp

/-! ## One row: the log-sum-exp and the logit of the true class -/

/-- The log-sum-exp of one row: with `v6` the column of row maxima, whose entry at `(b, m, 0)` is `M`, the body's
    `v6 + log (Σ_c exp (x − v6 spread over the classes))` reads at `(b, m, 0)` as `M + log (Σ_c exp (x_c − M))`. -/
theorem lse_apply (x : FVec Ideal S8x128x1024 .f32) (v6 : FVec Ideal S8x128x1 .f32) (M : EReal)
    (b : Fin 8) (m : Fin 128) (hv6 : v6 (ix3 b m (0 : Fin 1)) = M)
    (acc : BitVec FTy.f32.bits) (hr : S8x128x1024.Reduces [2] S8x128) (hφ : FKind.Formats .f32)
    (hacc : acc = FKind.add.neutral .f32 hφ) (hc : S8x128.ShapeCasts S8x128x1)
    (hb : S8x128x1.Broadcasts S8x128x1024) :
    addf v6 (log (shapeCast S8x128x1
        (multiReduction .add [2] S8x128 (exp (subf x (broadcastTo S8x128x1024 v6 hb))) acc hr hφ hacc) hc))
        (ix3 b m (0 : Fin 1))
      = M + Ideal.log (∑ c : Fin 1024, Ideal.exp (x (ix3 b m c) - M)) := by
  show v6 (ix3 b m (0 : Fin 1)) + Ideal.log (shapeCast S8x128x1 _ hc (ix3 b m (0 : Fin 1))) = _
  rw [hv6]
  refine congrArg (fun t => M + Ideal.log t) ?_
  refine (cast_ab_ab1 _ hc b m 0).trans ?_
  refine (laneSum_apply _ acc hr hφ hacc b m).trans ?_
  refine Finset.sum_congr rfl fun c _ => ?_
  show Ideal.exp (x (ix3 b m c) - broadcastTo S8x128x1024 v6 hb (ix3 b m c)) = _
  rw [bcast_ab1_abc v6 hb b m c, hv6]

/-- The logit of the true class of one row: the body's `Σ_c x · onehot`, the one-hot built from the class counter and the
    target word spread over the classes, reads at `(b, m, 0)` as `Σ_c x_c · hot (y (b, m)) c`. -/
theorem trueLogit_apply (x : FVec Ideal S8x128x1024 .f32) (y : IVec S8x128 32) (b : Fin 8) (m : Fin 128)
    (acc : BitVec FTy.f32.bits) (hr : S8x128x1024.Reduces [2] S8x128) (hφ : FKind.Formats .f32)
    (hacc : acc = FKind.add.neutral .f32 hφ) (hc : S8x128.ShapeCasts S8x128x1)
    (hb : S8x128x1.Broadcasts S8x128x1024) (hi : S8x128x1024.Iotas .tc 32 [2]) (hlt : 1 < 32) :
    shapeCast S8x128x1 (multiReduction .add [2] S8x128
        (mulf x (sitofp (F := Ideal) .f32 (extui 32 (cmpi .eq (iota .tc S8x128x1024 32 [2] hi)
          (broadcastTo S8x128x1024 (shapeCast S8x128x1 y hc) hb)) hlt))) acc hr hφ hacc) hc (ix3 b m (0 : Fin 1))
      = ∑ c : Fin 1024, x (ix3 b m c) * hot (y (ix2 b m)) c := by
  refine (cast_ab_ab1 _ hc b m 0).trans ?_
  refine (laneSum_apply _ acc hr hφ hacc b m).trans ?_
  refine Finset.sum_congr rfl fun c _ => ?_
  show x (ix3 b m c) * FloatOps.sitofp (F := Ideal) .f32
      ((IntOp.cmpi .eq (iota .tc S8x128x1024 32 [2] hi (ix3 b m c))
        (broadcastTo S8x128x1024 (shapeCast S8x128x1 y hc) hb (ix3 b m c))).setWidth 32) = _
  rw [iota_single_apply, bcast_ab1_abc _ hb b m c, cast_ab_ab1 y hc b m 0]
  rfl

/-! ## The body's result -/

/-- THE BODY'S RESULT AT SAMPLE `b`: the sum over the 128 rows of (the log-sum-exp of the row − the logit of its true class),
    times the scalar the word `0x3C000000` encodes. The two casts of an array to its own shape are the identity; the
    product, the difference and the sum over rows are read outermost first, and each row is the two lemmas above. -/
theorem pay_apply (x : Vec Ideal S8x128x1024 .f32) (y : Vec Ideal S8x128 .i32) (b : Fin 8) :
    k0_pay1 (F := Ideal) x y (ix3 b (0 : Fin 1) (0 : Fin 1))
      = (∑ m : Fin 128, ((rowMax x b m + Ideal.log (∑ c : Fin 1024, Ideal.exp (x (ix3 b m c) - rowMax x b m)))
            - ∑ c : Fin 1024, x (ix3 b m c) * hot (y (ix2 b m)) c))
          * Ideal.ofBits .f32 0x3C000000#32 := by
  have e1 : shapeCast S8x128x1024 x shapeCasts_S8x128x1024_S8x128x1024 = x := shapeCast_self x _
  have e3 : shapeCast S8x128 y shapeCasts_S8x128_S8x128 = y := shapeCast_self y _
  unfold k0_pay1
  dsimp only
  rw [e1, e3]
  refine (mulf_apply _ _ _).trans ?_
  refine congrArg₂ (· * ·) ?_ rfl
  refine (cast_a1_a11 _ shapeCasts_S8x1_S8x1x1 b 0 0).trans ?_
  refine (midSum_apply _ _ reduces_S8x128x1_S8x1 _ _ b 0).trans ?_
  refine Finset.sum_congr rfl fun m _ => ?_
  refine (subf_apply _ _ _).trans ?_
  refine congrArg₂ (· - ·) ?_ ?_
  · exact lse_apply x _ (rowMax x b m) b m (cast_ab_ab1 _ _ b m 0) _ _ _ _ _ _
  · exact trueLogit_apply x y b m _ _ _ _ _ _ _ _

end Cert.KPay

end
-- ==== Proof.RowAlgebra.lean ====
/-
  One row of the cross-entropy, over the extended reals.

  A row of real logits `r c` (`c < n`, `0 < n`), a class `y`, any real shift `M`. With
  `lse r = log ∑ c, exp (r c)`,

    `exp (r c - M) = exp (r c) · exp (-M)`, so `∑ c, exp (r c - M) = (∑ c, exp (r c)) · exp (-M)`,

  a product of two positive reals, whose logarithm splits: `log ∑ c, exp (r c - M) = lse r - M`.
  Hence the shifted form `(M + log ∑ c, exp (x c - M)) - x y` and the negated log-softmax form
  `-((x y - M) - log ∑ c, exp (x c - M))` are both `lse r - r y`, whatever the shift. All of it happens
  among finite values, so each extended-real operation is the real one under the coercion.

  Also here: a sum against a one-hot row selects one entry (for any extended reals: `0` annihilates the
  infinities too), and the product with `2⁻⁷` is the ideal quotient by `128`.
-/
import Idealize.ShloMosaic.PureOps.Ideal
import Mathlib.Analysis.SpecialFunctions.Log.Basic
import Mathlib.Analysis.SpecialFunctions.Exp
import Mathlib.Data.EReal.Basic
import Mathlib.Data.EReal.Operations
import Mathlib.Algebra.BigOperators.Group.Finset.Basic
import Mathlib.Algebra.Order.BigOperators.Group.Finset
import Mathlib.Tactic.Ring
import Mathlib.Tactic.NormNum

noncomputable section

open scoped BigOperators

namespace Cert.RowAlgebra

open Idealize.ShloMosaic

/-- The log-sum-exp of a row of reals. -/
def lse {n : ℕ} (r : Fin n → ℝ) : ℝ := Real.log (∑ c, Real.exp (r c))

/-- A sum against a one-hot row is the selected entry: every other term is `x c * 0 = 0`, for any
    extended real `x c`, and the selected one is `x y * 1`. -/
theorem onehot_sum {n : ℕ} (x : Fin n → EReal) (y : Fin n) (oh : Fin n → EReal)
    (hoh : ∀ c, oh c = if c = y then (1 : EReal) else 0) : (∑ c, x c * oh c) = x y := by
  simp only [hoh, mul_ite, mul_one, mul_zero]
  rw [Finset.sum_ite_eq' Finset.univ y x, if_pos (Finset.mem_univ y)]

/-- The coercion of the reals into the extended reals goes through finite sums: it is additive, so
    induct on the index set. -/
theorem coe_sum {ι : Type*} (s : Finset ι) (f : ι → ℝ) :
    ((∑ i ∈ s, f i : ℝ) : EReal) = ∑ i ∈ s, (f i : EReal) := by
  classical
  refine Finset.induction_on s (by simp) (fun a t ha ih => ?_)
  rw [Finset.sum_insert ha, Finset.sum_insert ha, EReal.coe_add, ih]

/-- A nonempty sum of exponentials is positive. -/
theorem sum_exp_pos {n : ℕ} (hn : 0 < n) (r : Fin n → ℝ) : 0 < ∑ c, Real.exp (r c) := by
  haveI : Nonempty (Fin n) := ⟨⟨0, hn⟩⟩
  exact Finset.sum_pos (fun c _ => Real.exp_pos (r c)) Finset.univ_nonempty

/-- The shifted sum is the unshifted one times `exp (-M)`. -/
theorem sum_exp_shift {n : ℕ} (r : Fin n → ℝ) (M : ℝ) :
    (∑ c, Real.exp (r c - M)) = (∑ c, Real.exp (r c)) * Real.exp (-M) := by
  rw [Finset.sum_mul]
  refine Finset.sum_congr rfl (fun c _ => ?_)
  rw [sub_eq_add_neg, Real.exp_add]

/-- The logarithm of the shifted sum: both factors are positive, the logarithm of the product splits,
    and `log (exp (-M)) = -M`. -/
theorem log_sum_exp_shift {n : ℕ} (hn : 0 < n) (r : Fin n → ℝ) (M : ℝ) :
    Real.log (∑ c, Real.exp (r c - M)) = lse r - M := by
  rw [sum_exp_shift, Real.log_mul (ne_of_gt (sum_exp_pos hn r)) (Real.exp_ne_zero _), Real.log_exp, lse]
  ring

/-- The extended-real sum of the ideal exponentials of the shifted row is the coercion of the real sum. -/
theorem sum_exp_coe {n : ℕ} (r : Fin n → ℝ) (x : Fin n → EReal) (hx : ∀ c, x c = (r c : EReal)) (M : ℝ) :
    (∑ c, Ideal.exp (x c - (M : EReal))) = ((∑ c, Real.exp (r c - M) : ℝ) : EReal) := by
  rw [coe_sum]
  refine Finset.sum_congr rfl (fun c _ => ?_)
  rw [hx c, ← EReal.coe_sub, Ideal.exp_coe]

/-- The ideal logarithm of that sum is the coercion of `lse r - M`: the sum is a positive real. -/
theorem log_sum_exp_coe {n : ℕ} (hn : 0 < n) (r : Fin n → ℝ) (x : Fin n → EReal)
    (hx : ∀ c, x c = (r c : EReal)) (M : ℝ) :
    Ideal.log (∑ c, Ideal.exp (x c - (M : EReal))) = ((lse r - M : ℝ) : EReal) := by
  have hpos : 0 < ∑ c, Real.exp (r c - M) := sum_exp_pos hn (fun c => r c - M)
  rw [sum_exp_coe r x hx M, Ideal.log_coe, if_neg (not_le.mpr hpos), log_sum_exp_shift hn r M]

/-- The shifted form of the row's cross-entropy. -/
theorem ce_kernel {n : ℕ} (hn : 0 < n) (r : Fin n → ℝ) (x : Fin n → EReal) (hx : ∀ c, x c = (r c : EReal))
    (M : ℝ) (y : Fin n) :
    ((M : EReal) + Ideal.log (∑ c, Ideal.exp (x c - (M : EReal)))) - x y = ((lse r - r y : ℝ) : EReal) := by
  rw [log_sum_exp_coe hn r x hx M, hx y, ← EReal.coe_add, ← EReal.coe_sub]
  congr 1
  ring

/-- The negated log-softmax form of the row's cross-entropy. -/
theorem ce_reference {n : ℕ} (hn : 0 < n) (r : Fin n → ℝ) (x : Fin n → EReal) (hx : ∀ c, x c = (r c : EReal))
    (M : ℝ) (y : Fin n) :
    -((x y - (M : EReal)) - Ideal.log (∑ c, Ideal.exp (x c - (M : EReal)))) = ((lse r - r y : ℝ) : EReal) := by
  rw [log_sum_exp_coe hn r x hx M, hx y, ← EReal.coe_sub, ← EReal.coe_sub, ← EReal.coe_neg]
  congr 1
  ring

/-- The word `0x43000000` denotes `128 = 2⁷`. -/
theorem ofBits_128 : Ideal.ofBits .f32 0x43000000#32 = ((128 : ℝ) : EReal) := by
  simp [Ideal.ofBits, Ideal.ieee, -EReal.coe_mul]; norm_num

/-- The word `0x3C000000` denotes `1/128 = 2⁻⁷`. -/
theorem ofBits_inv128 : Ideal.ofBits .f32 0x3C000000#32 = ((1 / 128 : ℝ) : EReal) := by
  simp [Ideal.ofBits, Ideal.ieee, -EReal.coe_mul]; norm_num

/-- The product with `2⁻⁷` is the ideal quotient by `128`, on every extended real. -/
theorem mul_inv128_eq_div (a : EReal) :
    a * Ideal.ofBits .f32 0x3C000000#32 = Ideal.div a (Ideal.ofBits .f32 0x43000000#32) := by
  rw [ofBits_128, ofBits_inv128, Ideal.div_coe (by norm_num : (128 : ℝ) ≠ 0)]

end Cert.RowAlgebra

end
-- ==== Proof.LibGatherLast.lean ====
/-
  A gather of one element per row along the last axis, read at a result index. Taking `x[b, m, idx[b, m]]` from an
  array `x : [B, M, C]` prints as a gather whose start indices are the `[B, M, 1, 1]` array of positions, the operand's
  last axis collapsed and start-indexed, its two leading axes batching axes paired with the start indices' two leading
  axes, no offset axes, the index vector on axis 3. Result position `(b, m, 0)` is the operand at `(b, m, c)` where `c`
  is `idx[b, m, 0, 0]` read signed and clamped into `[0, C − 1]`: the two batching axes take their coordinate from the
  result's batch coordinates, not from the start index.

  Also: an and-reduction of all ones is one, and a maximum-reduction of real operands over a non-empty fibre is real.
-/
import Idealize.ShloMosaic.PureOps
import Idealize.ShloMosaic.PureOps.Reduce
import Idealize.ShloMosaic.PureOps.Ideal
import Idealize.ShloMosaic.Lib.ValueIdx
import Idealize.ShloMosaic.Lib.Affine
import Mathlib.Data.EReal.Basic
import Mathlib.Order.Lattice

noncomputable section

namespace Idealize.ShloMosaic.LibGatherLast

open Idealize.ShloMosaic Idealize.ShloMosaic.ValueIdx

/-! ## The read of one element per row along the last axis -/

/-- THE READ: position `(b, m, 0)` of the gather is the operand at `(b, m, c)`, `c` the start `idx[b, m, 0, 0]` read
    signed and clamped into `[0, C − 1]`. The two batching axes carry the result's coordinates `b` and `m`. -/
theorem gather_last_apply {α : Type} {B M C w : Nat} (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (hC : 0 < C) :
    Host.gather d x idx (ix3 b m (0 : Fin 1))
      = x (ix3 b m (⟨min (idx (ix4 b m (0 : Fin 1) (0 : Fin 1))).toInt.toNat (C - 1), by omega⟩ : Fin C)) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- a batching axis: no start, no offset; the coordinate is the result's on the paired batch axis, `b`
    rw [GatherDims.start_batching _ _ _ _ List.mem_cons_self,
      GatherDims.offCoord_eq_zero _ _ _ (fun h => ((GatherDims.mem_sKept _ _).mp h).2 List.mem_cons_self),
      Nat.zero_add, Nat.add_zero]
    rfl
  | ⟨1, _⟩ =>
    -- the second batching axis: the coordinate is `m`
    rw [GatherDims.start_batching _ _ _ _ (List.mem_cons_of_mem _ List.mem_cons_self),
      GatherDims.offCoord_eq_zero _ _ _
        (fun h => ((GatherDims.mem_sKept _ _).mp h).2 (List.mem_cons_of_mem _ List.mem_cons_self)),
      Nat.zero_add, Nat.add_zero]
    rfl
  | ⟨2, _⟩ =>
    -- the collapsed axis: the start is the entry `(b, m, 0, 0)`, read signed, clamped to `C − 1` (the slice is one wide)
    have hsl : ss 2 = 1 :=
      GatherDims.slice_collapsed ⟨[], [2], [0, 1], [0, 1], [2], 3, ss, wf⟩ 2 List.mem_cons_self
    have hnb : (2 : Fin 3) ∉ ([0, 1] : List (Fin 3)) := by decide
    rw [GatherDims.batchCoord_eq_zero _ _ _ hnb,
      GatherDims.offCoord_eq_zero _ _ _ (fun h => ((GatherDims.mem_sKept _ _).mp h).1 List.mem_cons_self)]
    simp only [Nat.add_zero]
    unfold GatherDims.start
    rw [dif_pos (by exact List.mem_cons_self)]
    show min (idx _).toInt.toNat (C - ss 2) = min (idx (ix4 b m (0 : Fin 1) (0 : Fin 1))).toInt.toNat (C - 1)
    rw [hsl]
    congr 3
    congr 1
    funext c
    refine Fin.ext ?_
    match c with
    | ⟨0, _⟩ => rfl
    | ⟨1, _⟩ => rfl
    | ⟨2, _⟩ => rfl
    | ⟨3, _⟩ => rfl

/-- THE READ IN RANGE: when the start `idx[b, m, 0, 0]`, read signed, is a column `k` of the operand, the clamp is the
    identity and position `(b, m, 0)` of the gather is the operand at `(b, m, k)`. -/
theorem gather_last_apply_of_lt {α : Type} {B M C w : Nat}
    (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (k : Fin C)
    (hk : (idx (ix4 b m (0 : Fin 1) (0 : Fin 1))).toInt = (k.val : ℤ)) :
    Host.gather d x idx (ix3 b m (0 : Fin 1)) = x (ix3 b m k) := by
  have hC : 0 < C := Nat.lt_of_le_of_lt (Nat.zero_le _) k.isLt
  rw [gather_last_apply d hoff hcoll hob hsb hsim hivd x idx b m hC]
  have e : (⟨min (idx (ix4 b m (0 : Fin 1) (0 : Fin 1))).toInt.toNat (C - 1), by omega⟩ : Fin C) = k := by
    apply Fin.ext
    show min (idx (ix4 b m (0 : Fin 1) (0 : Fin 1))).toInt.toNat (C - 1) = k.val
    rw [hk, Int.toNat_natCast]
    have := k.isLt
    omega
  rw [e]

/-! ## An and-reduction of all ones is one -/

/-- A left fold by `and` over `i1` words that starts at 1 and meets only 1s comes out 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, IntOp.andi_eq_one.2 ⟨rfl, hf a⟩]
    exact foldl_andi_one f hf l

/-- A reduction by `and` of an `i1` array whose every element is 1, from an initial value 1, is 1 at every result
    index (the converse of: a reduction by `and` that is 1 met only 1s). -/
theorem reduce_andi_one_of_forall {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) :
    Host.reduce IntOp.andi x init h hu j = 1#1 := by
  rw [Host.reduce_eq_foldl, hinit]
  exact foldl_andi_one x hx _

/-! ## A maximum-reduction of reals is a real -/

/-- A left fold by `max` over extended reals that starts at a real and meets only reals comes out a real. -/
theorem foldl_max_real {ι : Type} (f : ι → EReal) (hf : ∀ n, ∃ r : ℝ, f n = (r : EReal)) :
    ∀ (l : List ι) (r : ℝ), ∃ M : ℝ, l.foldl (fun a n => max a (f n)) (r : EReal) = (M : EReal)
  | [], r => ⟨r, rfl⟩
  | a :: l, r => by
    obtain ⟨ra, hra⟩ := hf a
    rw [List.foldl_cons, hra, ← EReal.coe_strictMono.monotone.map_max]
    exact foldl_max_real f hf l _

/-- A left fold by `max` from `−∞` over a non-empty list of reals comes out a real: the first step leaves the first
    element. -/
theorem foldl_max_bot_real {ι : Type} (f : ι → EReal) (hf : ∀ n, ∃ r : ℝ, f n = (r : EReal)) (l : List ι)
    (hl : l ≠ []) : ∃ M : ℝ, l.foldl (fun a n => max a (f n)) (⊥ : EReal) = (M : EReal) := by
  match l, hl with
  | a :: l, _ =>
    obtain ⟨ra, hra⟩ := hf a
    rw [List.foldl_cons, hra, max_eq_right bot_le]
    exact foldl_max_real f hf l ra

/-- At the ideal values, a reduction by maximum from `−∞` of an array of reals is a real at every result index that some
    operand index reduces into (over an empty fibre it stays `−∞`). -/
theorem reduce_max_real {s t u : Shape} {axes : List (Fin s.rank)} {φ : FTy} (x : FVec Ideal s φ)
    (init : u.Idx → Ideal φ) (h : s.ReducesTo axes t) (hu : 0 < u.numel) (hinit : ∀ k, init k = (⊥ : EReal))
    (hx : ∀ i, ∃ r : ℝ, x i = (r : EReal)) (j : t.Idx) (hne : ∃ i, h.drop i = j) :
    ∃ M : ℝ, Host.reduce (FloatOps.maximumf (F := Ideal)) x init h hu j = (M : EReal) := by
  rw [Host.reduce_eq_foldl, hinit]
  obtain ⟨i, hi⟩ := hne
  refine foldl_max_bot_real x hx _ (List.ne_nil_of_mem (a := i) ?_)
  rw [List.mem_filter]
  exact ⟨List.mem_map.2 ⟨s.rowMajor i, List.mem_finRange _, Equiv.symm_apply_apply _ _⟩, by simp [hi]⟩

end Idealize.ShloMosaic.LibGatherLast

end
-- ==== Proof.RefRead.lean ====
/- The reference's class loss, read at an index, at the ideal values (a float is an extended real).

   With `lm` the gathered logits [32,128,1024] and `ym` the gathered classes [32,128], both kept folded:
   the shift of row `(b, m)` is the maximum of the row's logits taken from minus infinity, a real as soon as the row's
   logits are real (nothing is asked of the other rows); the log-probability at class `c` is the shifted logit minus the
   logarithm of the row's sum of exponentials of shifted logits; with the row's class `k` in range, the cross-entropy
   term is minus the log-probability at `k` (the wrapped index is the class itself, both range tests hold, the guard is
   an and-reduction over an axis of extent one, and the gather reads class `k`); the class loss is the sum over the 32
   samples of the mean over the 128 rows. The sums' initial value, the zero word, is the extended real 0 and is dropped. -/
import proofs.«428638_j60473139528033_2_alg».proof.Proof.RefReadP
import proofs.«428638_j60473139528033_2_alg».proof.Proof.LibGatherLast
import Idealize.ShloMosaic.PureOps.Reduce
import Idealize.ShloMosaic.PureOps.Ideal.Laws
import Idealize.ShloMosaic.Lib.ValueIdx
import Idealize.ShloMosaic.Lib.Affine
import Mathlib.Data.EReal.Basic
import Mathlib.Data.Finset.Fold

noncomputable section

namespace Cert.RefRead

open Idealize.ShloMosaic Idealize.ShloMosaic.ValueIdx Cert.ReferenceIdeal Cert.ReferenceIdeal.Gen Cert.ReferenceIdeal.Read
open scoped BigOperators

/-! ## General facts -/

/-- The word of minus infinity is the bottom extended real. -/
theorem ofBits_neg_inf_f32 : Ideal.ofBits .f32 0xFF800000#32 = (⊥ : EReal) := by
  simp [Ideal.ofBits, Ideal.ieee]

/-- A fold by an operation that is the maximum, from bottom, over a finite set on which the function is real:
    bottom (the empty set) or a real. -/
theorem fold_max_bot_or_real {ι : Type} [DecidableEq ι] (op : EReal → EReal → EReal) [Std.Commutative op]
    [Std.Associative op] (hop : ∀ x y, op x y = max x y) (f : ι → EReal) (s : Finset ι)
    (hf : ∀ i ∈ s, ∃ r : ℝ, f i = (r : EReal)) :
    s.fold op (⊥ : EReal) f = ⊥ ∨ ∃ M : ℝ, s.fold op (⊥ : EReal) f = (M : EReal) := by
  induction s using Finset.induction_on with
  | empty => exact Or.inl (Finset.fold_empty)
  | insert a s ha ih =>
    obtain ⟨r, hr⟩ := hf a (Finset.mem_insert_self a s)
    rw [Finset.fold_insert ha, hop, hr]
    rcases ih (fun i hi => hf i (Finset.mem_insert_of_mem hi)) with h | ⟨M, h⟩
    · exact Or.inr ⟨r, by rw [h, max_bot_right]⟩
    · exact Or.inr ⟨max r M, by rw [h]; exact (EReal.coe_strictMono.monotone.map_max).symm⟩

/-- Over a nonempty set the fold is a real: the maximum of finitely many reals. -/
theorem fold_max_bot_real {ι : Type} [DecidableEq ι] (op : EReal → EReal → EReal) [Std.Commutative op]
    [Std.Associative op] (hop : ∀ x y, op x y = max x y) (f : ι → EReal) (s : Finset ι) (hs : s.Nonempty)
    (hf : ∀ i ∈ s, ∃ r : ℝ, f i = (r : EReal)) :
    ∃ M : ℝ, s.fold op (⊥ : EReal) f = (M : EReal) := by
  obtain ⟨a, ha⟩ := hs
  obtain ⟨r, hr⟩ := hf a ha
  rw [← Finset.insert_erase ha, Finset.fold_insert (Finset.notMem_erase a s), hop, hr]
  rcases fold_max_bot_or_real op hop f (s.erase a) (fun i hi => hf i (Finset.mem_of_mem_erase hi)) with h | ⟨M, h⟩
  · exact ⟨r, by rw [h, max_bot_right]⟩
  · exact ⟨max r M, by rw [h]; exact (EReal.coe_strictMono.monotone.map_max).symm⟩

/-- A maximum-reduction over ONE axis, from minus infinity, is a real at a result index `j` as soon as the operand
    is real at the indices that reduce into `j` (the axis being nonempty): nothing is asked of the other rows. -/
theorem reduce_max_row_real {s t u : Shape} {a : Fin s.rank} {φ : FTy} (x : FVec Ideal s φ) (init : u.Idx → Ideal φ)
    (h' : s.ReducesTo [a] t) (h : s.Reduces [a] t) (hu : 0 < u.numel)
    (hinit : init (Shape.Idx.first hu) = (⊥ : EReal)) (j : t.Idx) (hpos : 0 < s.size a)
    (hx : ∀ k : Fin (s.size a), ∃ r : ℝ, x (h.lift j k) = (r : EReal)) :
    ∃ M : ℝ, Host.reduce (FloatOps.maximumf (F := Ideal) (φ := φ)) x init h' hu j = (M : EReal) := by
  rw [Host.reduce_eq_fold_single (FloatOps.maximumf (F := Ideal) (φ := φ)) x init h' h hu j, hinit]
  exact fold_max_bot_real _ (fun _ _ => rfl) _ _ ⟨⟨0, hpos⟩, Finset.mem_univ _⟩ (fun k _ => hx k)

/-- An and-reduction over ONE axis of extent one is one `and`: the operand's element over `j` (the index `i` that every
    coordinate of the unit axis lifts `j` to) and the initial bit. Nothing is asked of the other rows. -/
theorem reduce_andi_unit_axis {s t u : Shape} {a : Fin s.rank} (x : s.Idx → BitVec 1) (init : u.Idx → BitVec 1)
    (h' : s.ReducesTo [a] t) (h : s.Reduces [a] t) (hu : 0 < u.numel) (ha : s.size a = 1) (j : t.Idx) (i : s.Idx)
    (hi : ∀ k, h.lift j k = i) :
    Host.reduce IntOp.andi x init h' hu j = IntOp.andi (x i) (init (Shape.Idx.first hu)) := by
  rw [Host.reduce_eq_fold_single IntOp.andi x init h' h hu j]
  have huniv : (Finset.univ : Finset (Fin (s.size a))) = {⟨0, by omega⟩} := by
    ext k
    simp only [Finset.mem_univ, Finset.mem_singleton, true_iff]
    exact Fin.ext (by have := k.isLt; show k.val = 0; omega)
  rw [huniv, Finset.fold_singleton, Function.comp_apply, hi]

/-- The class axis of [32,128,1024] put back over a row index. -/
theorem lift_row (h : (⟨3, ![32, 128, 1024]⟩ : Shape).Reduces [2] ⟨2, ![32, 128]⟩) (b : Fin 32) (m : Fin 128)
    (k : Fin 1024) : h.lift (ix2 b m) k = ix3 b m k := by
  funext c
  apply Fin.ext
  match c with
  | ⟨0, _⟩ => rfl
  | ⟨1, _⟩ => rfl
  | ⟨2, _⟩ => rfl

/-- The last unit axis of [32,128,1,1] put back over an index of [32,128,1]. -/
theorem lift_unit (h : (⟨4, ![32, 128, 1, 1]⟩ : Shape).Reduces [3] ⟨3, ![32, 128, 1]⟩) (b : Fin 32) (m : Fin 128)
    (k : Fin 1) : h.lift (ix3 b m (0 : Fin 1)) k = ix4 b m (0 : Fin 1) (0 : Fin 1) := by
  funext c
  apply Fin.ext
  match c with
  | ⟨0, _⟩ => rfl
  | ⟨1, _⟩ => rfl
  | ⟨2, _⟩ => rfl
  | ⟨3, _⟩ => exact Nat.lt_one_iff.mp k.isLt

/-- Indices of a rank-one shape are its coordinates. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-! ## The reference's class loss at an index -/

/-- The shift the reference subtracts in row `(b, m)`: the maximum of the row's logits (taken from minus infinity). -/
def rowMaxR (x1 : (⟨S32x1024x1024, .f32⟩ : BufTy).Contents (Elt Ideal)) (x5 : (⟨S32x128, .i32⟩ : BufTy).Contents (Elt Ideal))
    (b : Fin 32) (m : Fin 128) : EReal :=
  val_main_call4_v2 (F := Ideal) x1 x5 (ix2 b m)

theorem rowMaxR_def (x1 : (⟨S32x1024x1024, .f32⟩ : BufTy).Contents (Elt Ideal)) (x5 : (⟨S32x128, .i32⟩ : BufTy).Contents (Elt Ideal))
    (b : Fin 32) (m : Fin 128) : rowMaxR x1 x5 b m = val_main_call4_v2 (F := Ideal) x1 x5 (ix2 b m) := by
  unfold rowMaxR
  rfl

/-- With the row's logits real, its shift is a real. -/
theorem rowMaxR_real (x1 : (⟨S32x1024x1024, .f32⟩ : BufTy).Contents (Elt Ideal)) (x5 : (⟨S32x128, .i32⟩ : BufTy).Contents (Elt Ideal))
    (b : Fin 32) (m : Fin 128)
    (hlm : ∀ c : Fin 1024, ∃ r : ℝ, val_main_v11 (F := Ideal) x1 x5 (ix3 b m c) = (r : EReal)) :
    ∃ M : ℝ, rowMaxR x1 x5 b m = (M : EReal) := by
  have hred : S32x128x1024.Reduces [2] S32x128 := by decide
  obtain ⟨M, hM⟩ : ∃ M : ℝ, val_main_call4_v0 (F := Ideal) x1 x5 (ix2 b m) = (M : EReal) := by
    unfold val_main_call4_v0
    generalize val_main_v11 (F := Ideal) x1 x5 = lm at hlm ⊢
    refine reduce_max_row_real lm _ reducesTo_S32x128x1024_S32x128_d2 hred h_S_ ?_ (ix2 b m) (by decide) (fun k => ?_)
    · rw [val_main_call4_cst_apply, Ideal.ofBits_def, ofBits_neg_inf_f32]
    · obtain ⟨r, hr⟩ := hlm k
      exact ⟨r, (congrArg lm (lift_row hred b m k)).trans hr⟩
  refine ⟨M, ?_⟩
  rw [rowMaxR_def, val_main_call4_v2_apply, val_main_call4_v1_apply, val_main_call4_cst_0_apply, hM, Ideal.ofBits_def,
    ofBits_neg_inf_f32, Ideal.maximumf_def, max_bot_left]

/-- The reference's log-probability at class `c` of row `(b, m)`: the shifted logit minus the logarithm of the row's
    sum of exponentials of shifted logits. -/
theorem logp_apply (x1 : (⟨S32x1024x1024, .f32⟩ : BufTy).Contents (Elt Ideal)) (x5 : (⟨S32x128, .i32⟩ : BufTy).Contents (Elt Ideal))
    (b : Fin 32) (m : Fin 128) (c : Fin 1024) :
    val_main_v13 (F := Ideal) x1 x5 (ix3 b m c)
      = (val_main_v11 (F := Ideal) x1 x5 (ix3 b m c) - rowMaxR x1 x5 b m)
        - Ideal.log (∑ k : Fin 1024, Ideal.exp (val_main_v11 (F := Ideal) x1 x5 (ix3 b m k) - rowMaxR x1 x5 b m)) := by
  have e3 : ∀ c : Fin 1024, idx_main_call4_v3 (idx_main_call4_v4 (ix3 b m c)) = ix2 b m := fun c =>
    funext fun a => Fin.ext (by match a with | ⟨0, _⟩ => rfl | ⟨1, _⟩ => rfl)
  have e8 : idx_main_call4_v8 (idx_main_call4_v10 (ix3 b m c)) = ix2 b m :=
    funext fun a => Fin.ext (by match a with | ⟨0, _⟩ => rfl | ⟨1, _⟩ => rfl)
  have e7 : ∀ k : Fin 1024, idx_main_call4_v7 (ix2 b m) k = ix3 b m k := fun k =>
    funext fun a => Fin.ext (by match a with | ⟨0, _⟩ => rfl | ⟨1, _⟩ => rfl | ⟨2, _⟩ => rfl)
  have h5 : ∀ c : Fin 1024, val_main_call4_v5 (F := Ideal) x1 x5 (ix3 b m c)
      = val_main_v11 (F := Ideal) x1 x5 (ix3 b m c) - rowMaxR x1 x5 b m := fun c => by
    rw [val_main_call4_v5_apply, val_main_call4_v4_apply, val_main_call4_v3_apply, e3 c, Ideal.subf_def, rowMaxR_def]
  have h6 : ∀ k : Fin 1024, val_main_call4_v6 (F := Ideal) x1 x5 (idx_main_call4_v7 (ix2 b m) k)
      = Ideal.exp (val_main_v11 (F := Ideal) x1 x5 (ix3 b m k) - rowMaxR x1 x5 b m) := fun k => by
    rw [e7 k, val_main_call4_v6_apply, h5 k, Ideal.hostUnary_exp_def]
  have hsum : ∑ k : Fin 1024, val_main_call4_v6 (F := Ideal) x1 x5 (idx_main_call4_v7 (ix2 b m) k)
      = ∑ k : Fin 1024, Ideal.exp (val_main_v11 (F := Ideal) x1 x5 (ix3 b m k) - rowMaxR x1 x5 b m) :=
    Finset.sum_congr rfl fun k _ => h6 k
  rw [val_main_v13_apply, val_main_call4_v10_apply, val_main_call4_v9_apply, val_main_call4_v8_apply, e8,
    val_main_call4_v7_apply, val_main_call4_cst_1_apply, h5 c, hsum, Ideal.subf_def, Ideal.hostUnary_log_def,
    Ideal.ofBits_def, Ideal.ofBits_zero_f32, zero_add]

/-- The reference's cross-entropy term of row `(b, m)` when the row's class is `k` (in range): minus the
    log-probability at `k`. The wrapped index is the class itself, both range tests hold, so the guard over the unit
    axis is true and the select takes the gathered element. -/
theorem ce_apply (x1 : (⟨S32x1024x1024, .f32⟩ : BufTy).Contents (Elt Ideal)) (x4 x5 x6 : (⟨S32x128, .i32⟩ : BufTy).Contents (Elt Ideal))
    (b : Fin 32) (m : Fin 128) (k : Fin 1024)
    (hym : (val_main_v12 (F := Ideal) x4 x6 (ix2 b m)).toInt = (k.val : ℤ)) :
    val_main_v17 (F := Ideal) x1 x4 x5 x6 (ix2 b m) = -(val_main_v13 (F := Ideal) x1 x5 (ix3 b m k)) := by
  have hb := b.isLt
  have hm := m.isLt
  have hk := k.isLt
  have e16 : idx_main_v16 (ix2 b m) = ix3 b m (0 : Fin 1) :=
    funext fun a => Fin.ext (by
      match a with
      | ⟨0, _⟩ => show (b.val * 128 + m.val) / 128 = b.val; omega
      | ⟨1, _⟩ => show (b.val * 128 + m.val) / 1 % 128 = m.val; omega
      | ⟨2, _⟩ => rfl)
  have e14 : idx_main_v14 (ix3 b m (0 : Fin 1)) = ix2 b m :=
    funext fun a => Fin.ext (by match a with | ⟨0, _⟩ => rfl | ⟨1, _⟩ => rfl)
  have e5 : idx_main_call5_v5 (ix4 b m (0 : Fin 1) (0 : Fin 1)) = ix3 b m (0 : Fin 1) :=
    funext fun a => Fin.ext (by
      match a with
      | ⟨0, _⟩ => show (((b.val * 128 + m.val) * 1 + 0) * 1 + 0) / 128 = b.val; omega
      | ⟨1, _⟩ => show (((b.val * 128 + m.val) * 1 + 0) * 1 + 0) / 1 % 128 = m.val; omega
      | ⟨2, _⟩ => rfl)
  -- the class of the row, as a word
  generalize hy : val_main_v12 (F := Ideal) x4 x6 (ix2 b m) = y at hym
  have h14 : val_main_v14 (F := Ideal) x4 x6 (ix3 b m (0 : Fin 1)) = y := by
    rw [val_main_v14_apply, e14, hy]
  -- the wrapped index is the class: it is not negative
  have h4 : val_main_call5_v4 (F := Ideal) x4 x6 (ix3 b m (0 : Fin 1)) = y := by
    rw [val_main_call5_v4_apply, val_main_call5_v1_apply, val_main_call5_v0_apply, val_main_call5_c_apply, h14]
    have hlt : IntOp.cmpi .slt y 0#32 = 0#1 :=
      eq_zero_of_ne_one (fun h => by
        have := IntOp.cmpi_slt.1 h
        rw [hym] at this
        simp at this
        omega)
    rw [hlt, select_zero]
  have h5 : val_main_call5_v5 (F := Ideal) x4 x6 (ix4 b m (0 : Fin 1) (0 : Fin 1)) = y := by
    rw [val_main_call5_v5_apply, e5, h4]
  -- both range tests hold
  have h7 : val_main_call5_v7 (F := Ideal) x4 x6 (ix4 b m (0 : Fin 1) (0 : Fin 1)) = 1#1 := by
    rw [val_main_call5_v7_apply, h5, val_main_call5_v6_apply, val_main_call5_c_2_apply]
    exact IntOp.cmpi_sge.2 (by rw [hym]; simp)
  have h10 : val_main_call5_v10 (F := Ideal) x4 x6 (ix4 b m (0 : Fin 1) (0 : Fin 1)) = 1#1 := by
    rw [val_main_call5_v10_apply, h5, val_main_call5_v9_apply, val_main_call5_v8_apply, val_main_call5_c_1_apply]
    exact IntOp.cmpi_sle.2 (by rw [hym, show (1023#32 : BitVec 32).toInt = 1023 by decide]; omega)
  have h11 : val_main_call5_v11 (F := Ideal) x4 x6 (ix4 b m (0 : Fin 1) (0 : Fin 1)) = 1#1 := by
    rw [val_main_call5_v11_apply, h7, h10]; rfl
  -- the guard: an and-reduction over an axis of extent one
  have hred : S32x128x1x1.Reduces [3] S32x128x1 := by decide
  have h12 : val_main_call5_v12 (F := Ideal) x4 x6 (ix3 b m (0 : Fin 1)) = 1#1 := by
    unfold val_main_call5_v12
    rw [reduce_andi_unit_axis _ _ reducesTo_S32x128x1x1_S32x128x1_d3 hred h_S_ rfl (ix3 b m (0 : Fin 1))
      (ix4 b m (0 : Fin 1) (0 : Fin 1)) (fun k => lift_unit hred b m k), h11, val_main_call5_c_3_apply]
    rfl
  -- the gather reads the log-probability at the class
  have h13 : val_main_call5_v13 (F := Ideal) x1 x4 x5 x6 (ix3 b m (0 : Fin 1))
      = val_main_v13 (F := Ideal) x1 x5 (ix3 b m k) := by
    unfold val_main_call5_v13
    generalize val_main_v13 (F := Ideal) x1 x5 = lp
    generalize val_main_call5_v5 (F := Ideal) x4 x6 = idx at h5 ⊢
    exact Idealize.ShloMosaic.LibGatherLast.gather_last_apply_of_lt _ rfl rfl rfl rfl rfl rfl lp idx b m k
      ((congrArg BitVec.toInt h5).trans hym)
  rw [val_main_v17_apply, val_main_v16_apply, e16, val_main_v15_apply, h12, h13, select_one, Ideal.hostNegf_def,
    Ideal.negf_def]

/-- The reference's class loss: the sum over the 32 samples of the mean (a division by 128.0) of the 128 rows'
    cross-entropy terms. -/
theorem losscls_apply (x1 : (⟨S32x1024x1024, .f32⟩ : BufTy).Contents (Elt Ideal)) (x4 x5 x6 : (⟨S32x128, .i32⟩ : BufTy).Contents (Elt Ideal))
    (i : S_.Idx) :
    val_main_v21 (F := Ideal) x1 x4 x5 x6 i
      = ∑ b : Fin 32, Ideal.div (∑ m : Fin 128, val_main_v17 (F := Ideal) x1 x4 x5 x6 (ix2 b m))
          (Ideal.ofBits .f32 0x43000000#32) := by
  have e18 : ∀ (b : Fin 32) (m : Fin 128), idx_main_v18 (ix1 b) m = ix2 b m := fun b m =>
    funext fun a => Fin.ext (by match a with | ⟨0, _⟩ => rfl | ⟨1, _⟩ => rfl)
  have h19 : ∀ b : Fin 32, val_main_v19 (F := Ideal) (ix1 b) = Ideal.ofBits .f32 0x43000000#32 := fun b => by
    rw [val_main_v19_apply, val_main_cst_3_apply, Ideal.ofBits_def]
  have h18 : ∀ b : Fin 32, val_main_v18 (F := Ideal) x1 x4 x5 x6 (ix1 b)
      = ∑ m : Fin 128, val_main_v17 (F := Ideal) x1 x4 x5 x6 (ix2 b m) := fun b => by
    rw [val_main_v18_apply, val_main_cst_2_apply, Ideal.ofBits_def, Ideal.ofBits_zero_f32, zero_add]
    exact Finset.sum_congr rfl fun m _ => congrArg (val_main_v17 (F := Ideal) x1 x4 x5 x6) (e18 b m)
  have h20 : ∀ b : Fin 32, val_main_v20 (F := Ideal) x1 x4 x5 x6 (ix1 b)
      = Ideal.div (∑ m : Fin 128, val_main_v17 (F := Ideal) x1 x4 x5 x6 (ix2 b m))
          (Ideal.ofBits .f32 0x43000000#32) := fun b => by
    rw [val_main_v20_apply, h18 b, h19 b, Ideal.hostDivf_def]
  rw [val_main_v21_apply, val_main_cst_4_apply, Ideal.ofBits_def, Ideal.ofBits_zero_f32, zero_add, sum_idx1]
  exact Finset.sum_congr rfl fun b _ => h20 b

end Cert.RefRead

end
-- ==== Proof.ClassLoss.lean ====
/-
  The class loss of the kernel program, in closed form.

  Under the precondition the gathered logits are real numbers and the gathered target classes lie in the class range.
  Then every entry of the array the region leaves is a sum over the 128 matched rows of a sample of the row's
  cross-entropy, log Σ_k exp(x_k) − x_y, times the word 2⁻⁷; the program's class loss is the sum of the 32 entries.
-/
import proofs.«428638_j60473139528033_2_alg».proof.Proof.KArr
import proofs.«428638_j60473139528033_2_alg».proof.Proof.KPay
import proofs.«428638_j60473139528033_2_alg».proof.Proof.RowAlgebra
import proofs.«428638_j60473139528033_2_alg».proof.Proof.RefRead
import Idealize.ShloMosaic.Lib.ValueIdx
import Idealize.ShloMosaic.PureOps.Ideal.Laws

noncomputable section

open scoped BigOperators

namespace Cert.ClassLoss

open Idealize.ShloMosaic Idealize.ShloMosaic.ValueIdx

/-- The cross-entropy of the matched row `q` of sample `b`: the log of the sum of the exponentials of its logits, less
    the logit of its target class. -/
def ce (r : (⟨3, ![32, 128, 1024]⟩ : Shape).Idx → ℝ) (yy : (⟨2, ![32, 128]⟩ : Shape).Idx → Fin 1024) (b : Fin 32) (q : Fin 128) : ℝ :=
  Cert.RowAlgebra.lse (fun k => r (ix3 b q k)) - r (ix3 b q (yy (ix2 b q)))

/-- A word that reads, signed, as the class `k` is matched by the class index `j` exactly when `j = k`. -/
theorem word_eq_iff (w : BitVec 32) (k : Fin 1024) (h : w.toInt = (k.val : ℤ)) (j : Fin 1024) :
    BitVec.ofNat 32 j.val = w ↔ j = k := by
  have hw : w.toNat = k.val := by
    have := w.isLt
    have hk := k.isLt
    rw [BitVec.toInt_eq_toNat_cond] at h
    split at h <;> omega
  have hj : j.val % 2 ^ 32 = j.val := Nat.mod_eq_of_lt (lt_of_lt_of_le j.isLt (by norm_num))
  constructor
  · intro e
    have := congrArg BitVec.toNat e
    rw [BitVec.toNat_ofNat, hj, hw] at this
    exact Fin.ext this
  · rintro rfl
    apply BitVec.eq_of_toNat_eq
    rw [BitVec.toNat_ofNat, hj, hw]

/-- A sum over the indices of a [32, 1, 1] array is the sum over its first coordinate. -/
theorem sum_idx_32x1x1 {M : Type*} [AddCommMonoid M] (f : (⟨3, ![32, 1, 1]⟩ : Shape).Idx → M) :
    ∑ i, f i = ∑ b : Fin 32, f (ix3 b (0 : Fin 1) (0 : Fin 1)) := by
  have hl : ∀ i : (⟨3, ![32, 1, 1]⟩ : Shape).Idx, ix3 (i 0) (0 : Fin 1) (0 : Fin 1) = i := fun i => by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  let e : (⟨3, ![32, 1, 1]⟩ : Shape).Idx ≃ Fin 32 :=
    { toFun := fun i => (i 0 : Fin 32), invFun := fun b => ix3 b (0 : Fin 1) (0 : Fin 1), left_inv := hl, right_inv := fun _ => rfl }
  exact Fintype.sum_equiv e f (fun b => f (ix3 b (0 : Fin 1) (0 : Fin 1))) (fun i => congrArg f (hl i).symm)

/-- A sum over the indices of a [32] vector is the sum over its coordinate. -/
theorem sum_idx_32 {M : Type*} [AddCommMonoid M] (f : (⟨1, ![32]⟩ : Shape).Idx → M) :
    ∑ i, f i = ∑ b : Fin 32, f (ix1 b) := by
  have hl : ∀ i : (⟨1, ![32]⟩ : Shape).Idx, ix1 (i 0) = i := fun i => (eq_ix1 i).symm
  let e : (⟨1, ![32]⟩ : Shape).Idx ≃ Fin 32 :=
    { toFun := fun i => (i 0 : Fin 32), invFun := fun b => ix1 b, left_inv := hl, right_inv := fun _ => rfl }
  exact Fintype.sum_equiv e f (fun b => f (ix1 b)) (fun i => congrArg f (hl i).symm)

section Kernel

open Cert.KernelIdeal Cert.KernelIdeal.Gen Cert.KernelIdeal.Fr Cert.KernelIdeal.Arr

variable (m : (ℓ : Loc nD τ sig) → Buf (Elt Ideal) ℓ) (c : Dev nD)

/-- One entry of the array the region leaves: the sample's summed cross-entropy times 2⁻⁷. The entry is the body's value
    on the sample's block; the block's logits are the array's, real; the row maximum the body subtracts is then a real, and
    whatever it is it cancels; the one-hot sum picks the target's logit. -/
theorem entry (r : S32x128x1024.Idx → ℝ) (hlm : ∀ i, arr0 m c i = ((r i : ℝ) : EReal))
    (yy : S32x128.Idx → Fin 1024) (hym : ∀ j, (arr1 m c j).toInt = ((yy j).val : ℤ)) (b : Fin 32) :
    ((dats m 0 c).arrAt 2 cfg0.N : S32x1x1.Idx → Elt Ideal .f32) (ix3 b (0 : Fin 1) (0 : Fin 1))
      = (∑ q : Fin 128, ((ce r yy b q : ℝ) : EReal)) * Ideal.ofBits .f32 0x3C000000#32 := by
  refine (arr_apply m c b).trans ?_
  refine (Cert.KPay.pay_apply (blk0 m c (tOf b)) (blk1 m c (tOf b)) (rOf b)).trans ?_
  refine congrArg (· * Ideal.ofBits .f32 0x3C000000#32) ?_
  refine Finset.sum_congr rfl fun q _ => ?_
  have hb : 8 * (tOf b).val + (rOf b).val = b.val := by rw [tOf_val, rOf_val]; omega
  have hX : ∀ k : Fin 1024, (blk0 m c (tOf b)) (ix3 (rOf b) q k) = ((r (ix3 b q k) : ℝ) : EReal) := fun k => by
    refine (iblk0_apply m c (tOf b) (rOf b) q k).trans ?_
    have key : ∀ b' : Fin 32, b' = b → arr0 m c (ix3 b' q k) = ((r (ix3 b q k) : ℝ) : EReal) := by
      rintro _ rfl; exact hlm _
    exact key _ (Fin.ext hb)
  have hY : ((blk1 m c (tOf b)) (ix2 (rOf b) q)).toInt = ((yy (ix2 b q)).val : ℤ) := by
    rw [show (blk1 m c (tOf b)) (ix2 (rOf b) q) = arr1 m c (ix2 b q) from by
      refine (iblk1_apply m c (tOf b) (rOf b) q).trans ?_
      have key : ∀ b' : Fin 32, b' = b → arr1 m c (ix2 b' q) = arr1 m c (ix2 b q) := by rintro _ rfl; rfl
      exact key _ (Fin.ext hb)]
    exact hym _
  obtain ⟨M, hM⟩ := Cert.KPay.rowMax_real (blk0 m c (tOf b)) (rOf b) q (fun k => ⟨_, hX k⟩)
  rw [hM]
  have hhot : ∀ k : Fin 1024, Cert.KPay.hot ((blk1 m c (tOf b)) (ix2 (rOf b) q)) k
      = if k = yy (ix2 b q) then (1 : EReal) else 0 := fun k => by
    rw [Cert.KPay.hot_eq]
    exact if_congr (word_eq_iff _ _ hY k) rfl rfl
  have hs : (∑ k : Fin 1024, (blk0 m c (tOf b)) (ix3 (rOf b) q k) * Cert.KPay.hot ((blk1 m c (tOf b)) (ix2 (rOf b) q)) k)
      = (blk0 m c (tOf b)) (ix3 (rOf b) q (yy (ix2 b q))) :=
    Cert.RowAlgebra.onehot_sum (fun k => (blk0 m c (tOf b)) (ix3 (rOf b) q k)) (yy (ix2 b q)) _ hhot
  rw [hs]
  exact Cert.RowAlgebra.ce_kernel (by norm_num) (fun k => r (ix3 b q k))
    (fun k => (blk0 m c (tOf b)) (ix3 (rOf b) q k)) hX M (yy (ix2 b q))

end Kernel

section Reference

open Cert.ReferenceIdeal Cert.ReferenceIdeal.Read

/-- The reference's class loss: per sample the sum over its 128 matched rows of the same cross-entropy, divided by 128;
    summed over the samples. The class gather reads the log-softmax at the target class; the shift the log-softmax
    subtracts is a real and cancels. -/
theorem ref_losscls (x1 : (⟨S32x1024x1024, .f32⟩ : BufTy).Contents (Elt Ideal)) (x4 x5 x6 : (⟨S32x128, .i32⟩ : BufTy).Contents (Elt Ideal))
    (r : (⟨3, ![32, 128, 1024]⟩ : Shape).Idx → ℝ) (hlm : ∀ i, val_main_v11 (F := Ideal) x1 x5 i = ((r i : ℝ) : EReal))
    (yy : (⟨2, ![32, 128]⟩ : Shape).Idx → Fin 1024) (hym : ∀ j, (val_main_v12 (F := Ideal) x4 x6 j).toInt = ((yy j).val : ℤ))
    (i : S_.Idx) :
    val_main_v21 (F := Ideal) x1 x4 x5 x6 i
      = ∑ b : Fin 32, Ideal.div (∑ q : Fin 128, ((ce r yy b q : ℝ) : EReal)) (Ideal.ofBits .f32 0x43000000#32) := by
  rw [Cert.RefRead.losscls_apply]
  refine Finset.sum_congr rfl fun b _ => ?_
  refine congrArg (fun s => Ideal.div s (Ideal.ofBits .f32 0x43000000#32)) ?_
  refine Finset.sum_congr rfl fun q _ => ?_
  rw [Cert.RefRead.ce_apply x1 x4 x5 x6 b q (yy (ix2 b q)) (hym _), Cert.RefRead.logp_apply]
  obtain ⟨M, hM⟩ := Cert.RefRead.rowMaxR_real x1 x5 b q (fun k => ⟨_, hlm _⟩)
  rw [hM]
  generalize val_main_v11 (F := Ideal) x1 x5 = lm at hlm ⊢
  exact Cert.RowAlgebra.ce_reference (by norm_num) (fun k => r (ix3 b q k)) (fun k => lm (ix3 b q k))
    (fun k => hlm _) M (yy (ix2 b q))

end Reference

section Join

open Cert.KernelIdeal.Fr Cert.KernelIdeal.Arr

variable (m : (ℓ : Loc Cert.KernelIdeal.nD Cert.KernelIdeal.τ Cert.KernelIdeal.sig) → Buf (Elt Ideal) ℓ) (c : Dev Cert.KernelIdeal.nD)

/-- THE TWO CLASS LOSSES ARE EQUAL: when the kernel program's two staged arrays are the reference's gathered logits and
    gathered classes, the logits real and the classes in range, the sum of the array the region leaves is the reference's
    class loss: entry by entry a product with 2⁻⁷ against a quotient by 128. -/
theorem losscls_eq (x1 : (⟨Cert.ReferenceIdeal.S32x1024x1024, .f32⟩ : BufTy).Contents (Elt Ideal))
    (x4 x5 x6 : (⟨Cert.ReferenceIdeal.S32x128, .i32⟩ : BufTy).Contents (Elt Ideal))
    (h11 : arr0 m c = Cert.ReferenceIdeal.Read.val_main_v11 (F := Ideal) x1 x5)
    (h12 : arr1 m c = Cert.ReferenceIdeal.Read.val_main_v12 (F := Ideal) x4 x6)
    (hreal : ∀ i, ∃ r : ℝ, Cert.ReferenceIdeal.Read.val_main_v11 (F := Ideal) x1 x5 i = (r : EReal))
    (hrange : ∀ j, 0 ≤ (Cert.ReferenceIdeal.Read.val_main_v12 (F := Ideal) x4 x6 j).toInt
      ∧ (Cert.ReferenceIdeal.Read.val_main_v12 (F := Ideal) x4 x6 j).toInt < 1024) :
    (Host.reduceAdd (F := Ideal) ((dats m 0 c).arrAt 2 Cert.KernelIdeal.cfg0.N : (⟨Cert.KernelIdeal.S32x1x1, .f32⟩ : BufTy).Contents (Elt Ideal))
        (constant (F := Ideal) Cert.KernelIdeal.S_ .f32 0x00000000#32) Cert.KernelIdeal.Gen.reducesTo_S32x1x1_S_d0_1_2 Cert.KernelIdeal.Gen.h_S_
        : FVec Ideal Cert.KernelIdeal.S_ .f32)
      = (Cert.ReferenceIdeal.Read.val_main_v21 (F := Ideal) x1 x4 x5 x6 : FVec Ideal Cert.KernelIdeal.S_ .f32) := by
  choose r hr using hreal
  let yy : (⟨2, ![32, 128]⟩ : Shape).Idx → Fin 1024 := fun j =>
    ⟨(Cert.ReferenceIdeal.Read.val_main_v12 (F := Ideal) x4 x6 j).toInt.toNat, by have := hrange j; omega⟩
  have hyy : ∀ j, (Cert.ReferenceIdeal.Read.val_main_v12 (F := Ideal) x4 x6 j).toInt = ((yy j).val : ℤ) := fun j => by
    have := hrange j
    show _ = (((Cert.ReferenceIdeal.Read.val_main_v12 (F := Ideal) x4 x6 j).toInt.toNat : ℕ) : ℤ)
    omega
  funext i
  rw [ref_losscls x1 x4 x5 x6 r hr yy hyy i]
  simp only [Host.reduceAdd, Ideal.hostReduceAdd_def]
  rw [Ideal.hostReduceAdd_total Cert.KernelIdeal.Gen.reducesTo_S32x1x1_S_d0_1_2 (fun b => b.elim0)]
  rw [sum_idx_32x1x1]
  have h0 : (constant Cert.KernelIdeal.S_ .f32 0x00000000#32 : FVec Ideal Cert.KernelIdeal.S_ .f32) (Shape.Idx.first Cert.KernelIdeal.Gen.h_S_) = (0 : EReal) :=
    Ideal.ofBits_zero_f32
  rw [h0, zero_add]
  refine Finset.sum_congr rfl fun b _ => ?_
  rw [entry m c r (fun i => (congrFun h11 i).trans (hr i)) yy (fun j => (congrArg BitVec.toInt (congrFun h12 j)).trans (hyy j)) b]
  exact Cert.RowAlgebra.mul_inv128_eq_div _

end Join

end Cert.ClassLoss

end
-- ==== Proof.PreDecode.lean ====
/-
  The printed precondition read back.

  The precondition is a conjunction of ten "for all entries" statements, each printed as a reduction by "and" over every
  axis of an array of one-bit words, all joined by "and". Four of them say of a float input that the absolute value of
  every entry is below plus infinity; six say of an index input that every entry, read as a signed integer, is at least
  zero, or is below a bound. Read at an entry: an extended real whose absolute value is below plus infinity is neither
  infinity, so it is a real number; a signed comparison word that is one is the comparison of the two signed values.
-/
import proofs.«428638_j60473139528033_2_alg».proof.Pre_finite_inputs
import Idealize.ShloMosaic.Lib.ReduceAll
import Idealize.ShloMosaic.Lib.ValueIdx
import Idealize.ShloMosaic.PureOps.Ideal
import Mathlib.Data.EReal.Basic

noncomputable section

namespace Cert.PreDecode

open Idealize.ShloMosaic Cert.Pre_finite_inputs

/-- The shape with no axes has one index. -/
instance : Subsingleton S_.Idx := ⟨fun a b => funext fun d => d.elim0⟩

/-! ### One entry -/

/-- The pattern with all exponent bits set and no fraction bit denotes plus infinity. -/
theorem ofBits_inf : Ideal.ofBits .f32 0x7F800000#32 = (⊤ : EReal) := by
  simp [Ideal.ofBits, Ideal.ieee]

/-- An extended real whose absolute value max(x, -x) is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word of |x| < +inf being one says that x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · exfalso
    simp [hlt] at h'

/-! ### All entries: a full reduction by "and" that is one -/

variable {s : Shape} {axes : List (Fin s.rank)}

/-- "Every entry has absolute value below plus infinity", printed, says every entry is a real number. -/
theorem real_of_all (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
        (constantI S_ 1 1#1) hr hu j = 1#1) (i : s.Idx) : ∃ r : ℝ, x i = (r : EReal) :=
  real_of_cmp (x i) (Host.reduce_andi_all _ _ hr hu j e i)

/-- "Every entry is at least c, signed", printed, says so of the signed values. -/
theorem sge_of_all (x : IVec s 32) (c : BitVec 32) (hb : S_.BroadcastsInDim s (![] : Fin 0 → Fin s.rank))
    (hr : s.ReducesTo axes S_) (hu : 0 < S_.numel) (j : S_.Idx)
    (e : Host.reduce IntOp.andi (cmpi .sge x (broadcastInDim s ![] hb (constantI S_ 32 c)))
        (constantI S_ 1 1#1) hr hu j = 1#1) (i : s.Idx) : c.toInt ≤ (x i).toInt := by
  have h : IntOp.cmpi .sge (x i) c = 1#1 := Host.reduce_andi_all _ _ hr hu j e i
  exact IntOp.cmpi_sge.1 h

/-- "Every entry is below c, signed", printed, says so of the signed values. -/
theorem slt_of_all (x : IVec s 32) (c : BitVec 32) (hb : S_.BroadcastsInDim s (![] : Fin 0 → Fin s.rank))
    (hr : s.ReducesTo axes S_) (hu : 0 < S_.numel) (j : S_.Idx)
    (e : Host.reduce IntOp.andi (cmpi .slt x (broadcastInDim s ![] hb (constantI S_ 32 c)))
        (constantI S_ 1 1#1) hr hu j = 1#1) (i : s.Idx) : (x i).toInt < c.toInt := by
  have h : IntOp.cmpi .slt (x i) c = 1#1 := Host.reduce_andi_all _ _ hr hu j e i
  exact IntOp.cmpi_slt.1 h

/-- A conjunction of two arrays of one-bit words, at an index. -/
theorem andi_apply_eq_one {t : Shape} (x y : IVec t 1) (j : t.Idx) : andi x y j = 1#1 ↔ x j = 1#1 ∧ y j = 1#1 :=
  IntOp.andi_eq_one

/-! ### The precondition -/

/-- The precondition gives: every entry of the second input is a real number, and every entry of the three index inputs
    is in range — at least zero and below 1024, 1024 and 128. -/
theorem of_pre [Cert.Pre_finite_inputs.Facts]
    (a0 : FVec Ideal S32x1024x2 .f32) (a1 : FVec Ideal S32x1024x1024 .f32) (a2 : FVec Ideal S32x1024 .f32)
    (a3 : FVec Ideal S32x128x2 .f32) (a4 a5 a6 : IVec S32x128 32)
    (h : Cert.Pre_finite_inputs.fn (F := Ideal) a0 a1 a2 a3 a4 a5 a6 = fun _ => 1#1) :
    (∀ i, ∃ r : ℝ, a1 i = (r : EReal))
    ∧ (∀ i, 0 ≤ (a4 i).toInt ∧ (a4 i).toInt < 1024)
    ∧ (∀ i, 0 ≤ (a5 i).toInt ∧ (a5 i).toInt < 1024)
    ∧ (∀ i, 0 ≤ (a6 i).toInt ∧ (a6 i).toInt < 128) := by
  have e := congrFun h ValueIdx.ix0
  unfold Cert.Pre_finite_inputs.fn Cert.Pre_finite_inputs.fn_part1 Cert.Pre_finite_inputs.fn_part2 at e
  dsimp only at e
  simp only [andi_apply_eq_one] at e
  obtain ⟨⟨⟨⟨⟨⟨⟨⟨⟨-, h1⟩, -⟩, -⟩, h40⟩, h41⟩, h50⟩, h51⟩, h60⟩, h61⟩ := e
  have z0 : (0#32 : BitVec 32).toInt = 0 := by decide
  have z1024 : (1024#32 : BitVec 32).toInt = 1024 := by decide
  have z128 : (128#32 : BitVec 32).toInt = 128 := by decide
  refine ⟨fun i => real_of_all a1 _ _ _ _ h1 i, fun i => ⟨?_, ?_⟩, fun i => ⟨?_, ?_⟩, fun i => ⟨?_, ?_⟩⟩
  · have := sge_of_all a4 _ _ _ _ _ h40 i; rwa [z0] at this
  · have := slt_of_all a4 _ _ _ _ _ h41 i; rwa [z1024] at this
  · have := sge_of_all a5 _ _ _ _ _ h50 i; rwa [z0] at this
  · have := slt_of_all a5 _ _ _ _ _ h51 i; rwa [z1024] at this
  · have := sge_of_all a6 _ _ _ _ _ h60 i; rwa [z0] at this
  · have := slt_of_all a6 _ _ _ _ _ h61 i; rwa [z128] at this

/-! ### The same ranges over the unsigned readings -/

/-- A word whose signed value is at least zero reads the same signed and unsigned. -/
theorem toInt_eq_toNat_of_nonneg (w : BitVec 32) (h0 : 0 ≤ w.toInt) : w.toInt = (w.toNat : Int) := by
  have h32 := w.isLt
  rw [BitVec.toInt_eq_toNat_cond] at h0 ⊢
  split at h0 <;> omega

/-- A word whose signed value is in [0, n) has unsigned value below n. -/
theorem toNat_lt_of_toInt (w : BitVec 32) (n : Nat) (h0 : 0 ≤ w.toInt) (h1 : w.toInt < (n : Int)) : w.toNat < n := by
  rw [toInt_eq_toNat_of_nonneg w h0] at h1
  exact_mod_cast h1

/-- The index ranges of the precondition over the unsigned readings: every entry of the three index inputs is below
    1024, 1024 and 128, and reads the same signed and unsigned. -/
theorem of_pre_nat [Cert.Pre_finite_inputs.Facts]
    (a0 : FVec Ideal S32x1024x2 .f32) (a1 : FVec Ideal S32x1024x1024 .f32) (a2 : FVec Ideal S32x1024 .f32)
    (a3 : FVec Ideal S32x128x2 .f32) (a4 a5 a6 : IVec S32x128 32)
    (h : Cert.Pre_finite_inputs.fn (F := Ideal) a0 a1 a2 a3 a4 a5 a6 = fun _ => 1#1) :
    (∀ i, (a4 i).toNat < 1024 ∧ (a4 i).toInt = ((a4 i).toNat : Int))
    ∧ (∀ i, (a5 i).toNat < 1024 ∧ (a5 i).toInt = ((a5 i).toNat : Int))
    ∧ (∀ i, (a6 i).toNat < 128 ∧ (a6 i).toInt = ((a6 i).toNat : Int)) := by
  obtain ⟨-, h4, h5, h6⟩ := of_pre a0 a1 a2 a3 a4 a5 a6 h
  exact ⟨fun i => ⟨toNat_lt_of_toInt _ 1024 (h4 i).1 (h4 i).2, toInt_eq_toNat_of_nonneg _ (h4 i).1⟩,
    fun i => ⟨toNat_lt_of_toInt _ 1024 (h5 i).1 (h5 i).2, toInt_eq_toNat_of_nonneg _ (h5 i).1⟩,
    fun i => ⟨toNat_lt_of_toInt _ 128 (h6 i).1 (h6 i).2, toInt_eq_toNat_of_nonneg _ (h6 i).1⟩⟩

end Cert.PreDecode

end
-- ==== Proof.LmYm.lean ====
/-
  The two gathers of the matched pairs, under the precondition that the matched indices are in range.

  Taking entries along an axis at its default mode wraps negative indices (index + extent), tests each wrapped index
  against `0 ≤ index ≤ extent − 1`, folds the test over the unit last axis, gathers with the start indices clamped, and
  keeps the gathered entry where the folded test holds; elsewhere it writes a fill (for floats a word that reads as −∞
  at the ideal values, for integers the minimum word). With every index word in `[0, extent)` the wrap keeps the word
  and the test is 1 at every position, so the result IS the gather; and an entry of a gather is an entry of its
  operand. Hence the matched logits are real because every logit is, and the matched labels are classes in
  `[0, 1024)` because every label is — without knowing which entry was taken.
-/
import proofs.«428638_j60473139528033_2_alg».proof.Proof.RefReadP
import proofs.«428638_j60473139528033_2_alg».proof.Proof.LibGatherLast
import Idealize.ShloMosaic.Lib.ValueIdx

namespace Cert.LmYm

open Idealize.ShloMosaic Idealize.ShloMosaic.ValueIdx Cert.ReferenceIdeal Cert.ReferenceIdeal.Read

/-! ## Signed compares of two words, decided by the words' signed readings -/

/-- `a < b` (signed) is the bit 0 when `b ≤ a` as signed integers. -/
theorem cmpi_slt_zero {a b : BitVec 32} (h : b.toInt ≤ a.toInt) : IntOp.cmpi .slt a b = 0#1 := by
  unfold IntOp.cmpi
  show BitVec.ofBool (a.slt b) = 0#1
  rw [BitVec.slt, decide_eq_false (by omega)]
  rfl

/-- `a ≥ b` (signed) is the bit 1 when `b ≤ a` as signed integers. -/
theorem cmpi_sge_one {a b : BitVec 32} (h : b.toInt ≤ a.toInt) : IntOp.cmpi .sge a b = 1#1 := by
  unfold IntOp.cmpi
  show BitVec.ofBool (b.sle a) = 1#1
  rw [BitVec.sle, decide_eq_true h]
  rfl

/-- `a ≤ b` (signed) is the bit 1 when `a ≤ b` as signed integers. -/
theorem cmpi_sle_one {a b : BitVec 32} (h : a.toInt ≤ b.toInt) : IntOp.cmpi .sle a b = 1#1 := by
  unfold IntOp.cmpi
  show BitVec.ofBool (a.sle b) = 1#1
  rw [BitVec.sle, decide_eq_true h]
  rfl

/-- The three constant words the range tests compare against, read signed. -/
theorem toInt_zero32 : (0#32 : BitVec 32).toInt = 0 := by decide
theorem toInt_127 : (127#32 : BitVec 32).toInt = 127 := by decide
theorem toInt_1023 : (1023#32 : BitVec 32).toInt = 1023 := by decide

/-! ## The matched labels: `gt_classes` taken along axis 1 at `gt_idx`

The index words lie in `[0, 128)`. So the wrap of negative indices keeps each word, both range tests `0 ≤ idx` and
`idx ≤ 127` are 1 at every position, their conjunction folded over the unit axis is 1 at every row and column, and the
final select takes the gathered entry, which is SOME entry of `gt_classes`: a class in `[0, 1024)`. -/

/-- With the index word in `[0, 128)` the test "index < 0" is 0 and the wrap keeps the word. -/
theorem call3_v4_eq (x6 : (⟨S32x128, .i32⟩ : BufTy).Contents (Elt Ideal))
    (h6 : ∀ j, 0 ≤ (x6 j).toInt ∧ (x6 j).toInt < 128) (k : S32x128.Idx) :
    val_main_call3_v4 (F := Ideal) x6 k = x6 k := by
  have h0 : (0#32 : BitVec 32).toInt ≤ (x6 k).toInt := by rw [toInt_zero32]; exact (h6 k).1
  rw [val_main_call3_v4_apply, val_main_call3_v1_apply, val_main_call3_v0_apply, val_main_call3_c_apply,
    cmpi_slt_zero h0, select_zero]

/-- Both range tests hold at every position, so their conjunction is 1 everywhere. -/
theorem call3_v11_one (x6 : (⟨S32x128, .i32⟩ : BufTy).Contents (Elt Ideal))
    (h6 : ∀ j, 0 ≤ (x6 j).toInt ∧ (x6 j).toInt < 128) (i : S32x128x1.Idx) :
    val_main_call3_v11 (F := Ideal) x6 i = 1#1 := by
  have hlo : (0#32 : BitVec 32).toInt ≤ (x6 (idx_main_call3_v5 i)).toInt := by
    rw [toInt_zero32]; exact (h6 _).1
  have hhi : (x6 (idx_main_call3_v5 i)).toInt ≤ (127#32 : BitVec 32).toInt := by
    rw [toInt_127]; have := (h6 (idx_main_call3_v5 i)).2; omega
  rw [val_main_call3_v11_apply, val_main_call3_v7_apply, val_main_call3_v10_apply, val_main_call3_v5_apply,
    call3_v4_eq x6 h6, val_main_call3_v6_apply, val_main_call3_c_2_apply, val_main_call3_v9_apply,
    val_main_call3_v8_apply, val_main_call3_c_1_apply, cmpi_sge_one hlo, cmpi_sle_one hhi]
  decide

/-- The conjunction folded over the unit axis is 1 at every row and column. -/
theorem call3_v12_one (x6 : (⟨S32x128, .i32⟩ : BufTy).Contents (Elt Ideal))
    (h6 : ∀ j, 0 ≤ (x6 j).toInt ∧ (x6 j).toInt < 128) (j : S32x128.Idx) :
    val_main_call3_v12 (F := Ideal) x6 j = 1#1 := by
  unfold val_main_call3_v12
  exact LibGatherLast.reduce_andi_one_of_forall _ _ _ _ (call3_v11_one x6 h6) (fun _ => rfl) j

/-- Every matched label is an entry of `gt_classes`, hence a class in `[0, 1024)`. -/
theorem ym_range (x4 x6 : (⟨S32x128, .i32⟩ : BufTy).Contents (Elt Ideal))
    (h4 : ∀ j, 0 ≤ (x4 j).toInt ∧ (x4 j).toInt < 1024)
    (h6 : ∀ j, 0 ≤ (x6 j).toInt ∧ (x6 j).toInt < 128) :
    ∀ j, 0 ≤ (val_main_v12 (F := Ideal) x4 x6 j).toInt ∧ (val_main_v12 (F := Ideal) x4 x6 j).toInt < 1024 := by
  intro j
  rw [val_main_v12_apply, call3_v12_one x6 h6 j, select_one]
  -- a gather's entry is its operand at the position the dimension numbers compute: some entry of `gt_classes`
  unfold val_main_call3_v13 Host.gather
  exact h4 _

/-! ## The matched logit rows: `pred_logits` taken along axis 1 at `pred_idx`

The same argument with extent 1024: the index words lie in `[0, 1024)`, the tests are `0 ≤ idx` and `idx ≤ 1023`, the
folded conjunction is spread along the class axis, and the gathered entry is SOME entry of `pred_logits`: a real. -/

/-- With the index word in `[0, 1024)` the test "index < 0" is 0 and the wrap keeps the word. -/
theorem call2_v4_eq (x5 : (⟨S32x128, .i32⟩ : BufTy).Contents (Elt Ideal))
    (h5 : ∀ j, 0 ≤ (x5 j).toInt ∧ (x5 j).toInt < 1024) (i : S32x128x1.Idx) :
    val_main_call2_v4 (F := Ideal) x5 i = x5 (idx_main_v10 i) := by
  have h0 : (0#32 : BitVec 32).toInt ≤ (x5 (idx_main_v10 i)).toInt := by rw [toInt_zero32]; exact (h5 _).1
  rw [val_main_call2_v4_apply, val_main_call2_v1_apply, val_main_v10_apply, val_main_call2_v0_apply,
    val_main_call2_c_apply, cmpi_slt_zero h0, select_zero]

/-- Both range tests hold at every position, so their conjunction is 1 everywhere. -/
theorem call2_v10_one (x5 : (⟨S32x128, .i32⟩ : BufTy).Contents (Elt Ideal))
    (h5 : ∀ j, 0 ≤ (x5 j).toInt ∧ (x5 j).toInt < 1024) (i : S32x128x1.Idx) :
    val_main_call2_v10 (F := Ideal) x5 i = 1#1 := by
  have hlo : (0#32 : BitVec 32).toInt ≤ (x5 (idx_main_v10 i)).toInt := by
    rw [toInt_zero32]; exact (h5 _).1
  have hhi : (x5 (idx_main_v10 i)).toInt ≤ (1023#32 : BitVec 32).toInt := by
    rw [toInt_1023]; have := (h5 (idx_main_v10 i)).2; omega
  rw [val_main_call2_v10_apply, val_main_call2_v6_apply, val_main_call2_v9_apply, call2_v4_eq x5 h5,
    val_main_call2_v5_apply, val_main_call2_c_2_apply, val_main_call2_v8_apply, val_main_call2_v7_apply,
    val_main_call2_c_1_apply, cmpi_sge_one hlo, cmpi_sle_one hhi]
  decide

/-- The conjunction folded over the unit axis is 1 at every row and column. -/
theorem call2_v11_one (x5 : (⟨S32x128, .i32⟩ : BufTy).Contents (Elt Ideal))
    (h5 : ∀ j, 0 ≤ (x5 j).toInt ∧ (x5 j).toInt < 1024) (j : S32x128.Idx) :
    val_main_call2_v11 (F := Ideal) x5 j = 1#1 := by
  unfold val_main_call2_v11
  exact LibGatherLast.reduce_andi_one_of_forall _ _ _ _ (call2_v10_one x5 h5) (fun _ => rfl) j

/-- Spread along the class axis it is 1 at every position of the result. -/
theorem call2_v13_one (x5 : (⟨S32x128, .i32⟩ : BufTy).Contents (Elt Ideal))
    (h5 : ∀ j, 0 ≤ (x5 j).toInt ∧ (x5 j).toInt < 1024) (i : S32x128x1024.Idx) :
    val_main_call2_v13 (F := Ideal) x5 i = 1#1 := by
  rw [val_main_call2_v13_apply, call2_v11_one x5 h5]

/-- Every matched logit is an entry of `pred_logits`, hence real. -/
theorem lm_real (x1 : (⟨S32x1024x1024, .f32⟩ : BufTy).Contents (Elt Ideal))
    (x5 : (⟨S32x128, .i32⟩ : BufTy).Contents (Elt Ideal))
    (h1 : ∀ i, ∃ r : ℝ, x1 i = (r : EReal))
    (h5 : ∀ j, 0 ≤ (x5 j).toInt ∧ (x5 j).toInt < 1024) :
    ∀ i, ∃ r : ℝ, val_main_v11 (F := Ideal) x1 x5 i = (r : EReal) := by
  intro i
  rw [val_main_v11_apply, call2_v13_one x5 h5 i, select_one]
  -- a gather's entry is its operand at the position the dimension numbers compute: some entry of `pred_logits`
  unfold val_main_call2_v12 Host.gather
  exact h1 _

end Cert.LmYm
-- ==== Proof.Result.lean ====
/-
  The kernel program's result is the reference's.

  The host operations after the region compute, from the array the region leaves and from buffers the operations before
  the region filled, the same closing function the reference computes; the two programs' other three losses are the
  same operations on the same arguments; and the class losses agree under the precondition: the gathered logits are
  real and the gathered classes are in range.
-/
import proofs.«428638_j60473139528033_2_alg».proof.Proof.KIFrame
import proofs.«428638_j60473139528033_2_alg».proof.Proof.HostBridge
import proofs.«428638_j60473139528033_2_alg».proof.Proof.ClassLoss
import proofs.«428638_j60473139528033_2_alg».proof.Proof.PreDecode
import proofs.«428638_j60473139528033_2_alg».proof.Proof.LmYm
import proofs.«428638_j60473139528033_2_alg».proof.Defs
import proofs.«428638_j60473139528033_2_alg».proof.Proof.Gen.Pre_finite_inputs

noncomputable section

namespace Cert.Result

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ)

/-- The kernel program's result buffer after its run, as the frame run states it: the host operations after the region,
    from the region's exit contents. -/
abbrev kres (c : Dev nD) : Buf (Elt Ideal) ((c.tc : Thread nD τ).loc main_v64) :=
  Pipeline.afterTail₀ cfgs (dats m) 0 (V0 m) tailOps c main_v64

/-- The core's buffer contents at the region's exit. -/
abbrev exitV (c : Dev nD) : Valuation τ sig (Elt Ideal) :=
  Pipeline.withArrays (cfgs 0).spec c (V0 m c) fun w => (dats m 0 c).arrAt w (cfgs 0).N

theorem exit_v13 (c : Dev nD) : exitV m c (Proc.devRef .tc main_v13) = (dats m 0 c).arrAt 2 cfg0.N :=
  Pipeline.withArrays_arr spec0 launch0.win.arr_inj c (V0 m c) (fun w => (dats m 0 c).arrAt w cfg0.N) 2

theorem exit_of_ne (c : Dev nD) (b : Ref sig .tc) (hb : ∀ w, Pipeline.arrRef spec0 w ≠ b) :
    exitV m c (Proc.devRef .tc b) = V0 m c (Proc.devRef .tc b) :=
  Pipeline.withArrays_of_ne spec0 c (V0 m c) (fun w => (dats m 0 c).arrAt w cfg0.N) b hb

/-- Under the precondition the kernel program's result is the reference's final stage of the same arguments. -/
theorem kres_eq (hpre : Cert.Pre_KernelIdeal m) (c : Dev nD) :
    kres m c = Cert.ReferenceIdeal.Read.val_main_v71 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  obtain ⟨h1, h4, h5, h6⟩ := Cert.PreDecode.of_pre _ _ _ _ _ _ _ (hpre c)
  -- the two staged arrays are the reference's gathered logits and gathered classes
  have h11 : Cert.KernelIdeal.Arr.arr0 m c = Cert.ReferenceIdeal.Read.val_main_v11 (F := Ideal)
      (m ((c.tc : Thread nD τ).loc main_arg1)) (m ((c.tc : Thread nD τ).loc main_arg5)) :=
    Cert.HostBridge.prefix_v11 (F := Ideal) (fun b => m (c, b))
  have h12 : Cert.KernelIdeal.Arr.arr1 m c = Cert.ReferenceIdeal.Read.val_main_v12 (F := Ideal)
      (m ((c.tc : Thread nD τ).loc main_arg4)) (m ((c.tc : Thread nD τ).loc main_arg6)) :=
    Cert.HostBridge.prefix_v12 (F := Ideal) (fun b => m (c, b))
  have hcls := Cert.ClassLoss.losscls_eq m c _ _ _ _ h11 h12 (Cert.LmYm.lm_real _ _ h1 h5) (Cert.LmYm.ym_range _ _ h4 h6)
  have hpos : exitV m c (Proc.devRef .tc main_v9) = Cert.ReferenceIdeal.Read.val_main_v9 (F := Ideal)
      (m ((c.tc : Thread nD τ).loc main_arg0)) (m ((c.tc : Thread nD τ).loc main_arg3)) (m ((c.tc : Thread nD τ).loc main_arg5))
      (m ((c.tc : Thread nD τ).loc main_arg6)) :=
    (exit_of_ne m c main_v9 (by decide)).trans (Cert.HostBridge.prefix_v9 (F := Ideal) (fun b => m (c, b)))
  have h2 : exitV m c (Proc.devRef .tc main_arg2) = m ((c.tc : Thread nD τ).loc main_arg2) :=
    (exit_of_ne m c main_arg2 (by decide)).trans (V_main_arg2 m c)
  have h5' : exitV m c (Proc.devRef .tc main_arg5) = m ((c.tc : Thread nD τ).loc main_arg5) :=
    (exit_of_ne m c main_arg5 (by decide)).trans (V_main_arg5 m c)
  refine (Cert.HostBridge.tail_v64 (F := Ideal) (exitV m c)).trans ?_
  rw [Cert.HostBridge.ref_result, exit_v13, hcls, hpos, h2, h5']

end Cert.Result

end
-- ==== Proof.RefRun.lean ====
/-
  The reference program's run, read chunk by chunk. @main is 268 host operations in a line. They are cut into eight
  chunks (the position loss; the two gathers; the log-softmax of the gathered logits; the gather of each position's
  class; the class loss; the object-confidence loss; the no-object-confidence loss; the closing arithmetic), each chunk's
  result is read over ANY contents of the buffers as the reference's value function of what the chunk reads, no chunk
  writes an argument array or a value a later chunk still reads, and the chunks compose to the whole line: every
  weakly fair execution of @main terminates with the result at the value function of the arguments' launch contents
  and the arguments unchanged.
-/
import proofs.«428638_j60473139528033_2_alg».proof.Proof.RefReadP
import Idealize.ShloMosaic.Lib.StableHlo.Run

noncomputable section

namespace Cert.RefRun

open Idealize.ShloMosaic Idealize.ShloMosaic.StableHlo Idealize.SL.Sem
open Cert.ReferenceIdeal Cert.ReferenceIdeal.Gen Cert.ReferenceIdeal.Value Cert.ReferenceIdeal.Read

variable {F : FTy → Type} [FloatOps F]

/-! ## Two general facts about host operations -/

/-- A concatenation of two operands depends only on the operands (a congruence: the side condition reads the operands'
    shapes only, so it passes from one pair of operands to an equal pair). -/
theorem concatenate2_congr {α : Type} {t : Shape} {ax : Fin t.rank} {s0 s1 : Shape}
    {a0 b0 : s0.Idx → α} {a1 b1 : s1.Idx → α} (h0 : a0 = b0) (h1 : a1 = b1)
    (h : Shape.Concatenates (([⟨s0, a0⟩, ⟨s1, a1⟩] : List ((s : Shape) × (s.Idx → α))).map (·.1)) t ax) :
    concatenate t ax [⟨s0, a0⟩, ⟨s1, a1⟩] h = concatenate t ax [⟨s0, b0⟩, ⟨s1, b1⟩] (by subst h0 h1; exact h) := by
  subst h0 h1; rfl

section Nary

variable {τ : Topo} {sig : RefSig} {Val : EltTy → Type}

/-- `nary` over a literal family of six references: the result with each operand's contents at its own reference. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- The same, from what each operand's reference holds. -/
theorem nary6_result_of {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val)
    {a0 : (Proc.devRef (τ := τ) .tc x0).ty.Contents Val} {a1 : (Proc.devRef (τ := τ) .tc x1).ty.Contents Val}
    {a2 : (Proc.devRef (τ := τ) .tc x2).ty.Contents Val} {a3 : (Proc.devRef (τ := τ) .tc x3).ty.Contents Val}
    {a4 : (Proc.devRef (τ := τ) .tc x4).ty.Contents Val} {a5 : (Proc.devRef (τ := τ) .tc x5).ty.Contents Val}
    (h0 : F (Proc.devRef .tc x0) = a0) (h1 : F (Proc.devRef .tc x1) = a1) (h2 : F (Proc.devRef .tc x2) = a2)
    (h3 : F (Proc.devRef .tc x3) = a3) (h4 : F (Proc.devRef .tc x4) = a4) (h5 : F (Proc.devRef .tc x5) = a5) :
    (nary (τ := τ) ![x0, x1, x2, x3, x4, x5] y f hxs hy).result F (Proc.devRef .tc y)
      = f (Fin.cons a0 (Fin.cons a1 (Fin.cons a2 (Fin.cons a3 (Fin.cons a4 (Fin.cons a5 (fun i => i.elim0))))))) := by
  subst h0 h1 h2 h3 h4 h5; exact nary6_result f hxs hy F

end Nary

local notation:max b "!" => (Proc.devRef (τ := Cert.ReferenceIdeal.τ) (sig := Cert.ReferenceIdeal.sig) Proc.tc b)

attribute [local congr] concatenate2_congr

/-- The argument arrays. -/
abbrev argRefs : List (Ref sig .tc) := [main_arg0, main_arg1, main_arg2, main_arg3, main_arg4, main_arg5, main_arg6]

/-- An operation whose one written buffer is the reference `y`, not in the list `L`, writes no buffer of `L`. -/
theorem writes_avoid {L : List (Ref sig .tc)} {y : Ref sig .tc} (hy : y ∉ L) :
    ∀ r ∈ L, Proc.devRef (τ := τ) .tc r ∉ ({Proc.devRef .tc y} : Finset (DevRef τ sig)) :=
  fun r hr h => hy (Proc.devRef_injective _ (Finset.mem_singleton.mp h) ▸ hr)

/-! ## @main's operations in eight chunks

The position loss; the two gathers; the log-softmax of the gathered logits; the gather of the class's entry; the class
loss from it; the object-confidence loss; the no-object-confidence loss; the closing arithmetic. Each chunk's value is read over ANY
contents of the buffers, so that the chunks compose. -/

/-- Operations 1 … 55 of @main. -/
abbrev chunk1 : List (HloOp τ sig (Elt F)) :=
  [ unary main_arg5 main_v0 (broadcastInDim S32x128x1 ![0, 1] bcast_S32x128_S32x128x1_0_1 : (⟨S32x128, .i32⟩ : BufTy).Contents (Elt F) → (⟨S32x128x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32x128x1, .i32⟩) main_call0_v0) (broadcastInDim S32x128x1 ![] bcast_S_S32x128x1),
    TRef.binary (TRef.of (T := ⟨S32x128x1, .i32⟩) main_v0) (TRef.of (T := ⟨S32x128x1, .i32⟩) main_call0_v0) (TRef.of (T := ⟨S32x128x1, .i1⟩) main_call0_v1) (cmpi .slt),
    TRef.nullary (TRef.of (T := ⟨S_, .i32⟩) main_call0_c_0) (constantI S_ 32 1024#32),
    TRef.unary (TRef.of (T := ⟨S_, .i32⟩) main_call0_c_0) (TRef.of (T := ⟨S32x128x1, .i32⟩) main_call0_v2) (broadcastInDim S32x128x1 ![] bcast_S_S32x128x1),
    TRef.binary (TRef.of (T := ⟨S32x128x1, .i32⟩) main_v0) (TRef.of (T := ⟨S32x128x1, .i32⟩) main_call0_v2) (TRef.of (T := ⟨S32x128x1, .i32⟩) main_call0_v3) addi,
    TRef.ternary (TRef.of (T := ⟨S32x128x1, .i1⟩) main_call0_v1) (TRef.of (T := ⟨S32x128x1, .i32⟩) main_call0_v3) (TRef.of (T := ⟨S32x128x1, .i32⟩) main_v0) (TRef.of (T := ⟨S32x128x1, .i32⟩) main_call0_v4) select,
    TRef.nullary (TRef.of (T := ⟨S1, .i32⟩) main_call0_c_1) (constantI S1 32 1023#32),
    TRef.nullary (TRef.of (T := ⟨S_, .i32⟩) main_call0_c_2) (constantI S_ 32 0#32),
    TRef.unary (TRef.of (T := ⟨S_, .i32⟩) main_call0_c_2) (TRef.of (T := ⟨S32x128x1, .i32⟩) main_call0_v5) (broadcastInDim S32x128x1 ![] bcast_S_S32x128x1),
    TRef.binary (TRef.of (T := ⟨S32x128x1, .i32⟩) main_call0_v4) (TRef.of (T := ⟨S32x128x1, .i32⟩) main_call0_v5) (TRef.of (T := ⟨S32x128x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S32x128x1, .i32⟩) main_call0_v8) (broadcastInDim S32x128x1 ![0, 1, 2] bcast_S1x1x1_S32x128x1_0_1_2),
    TRef.binary (TRef.of (T := ⟨S32x128x1, .i32⟩) main_call0_v4) (TRef.of (T := ⟨S32x128x1, .i32⟩) main_call0_v8) (TRef.of (T := ⟨S32x128x1, .i1⟩) main_call0_v9) (cmpi .sle),
    TRef.binary (TRef.of (T := ⟨S32x128x1, .i1⟩) main_call0_v6) (TRef.of (T := ⟨S32x128x1, .i1⟩) main_call0_v9) (TRef.of (T := ⟨S32x128x1, .i1⟩) main_call0_v10) andi,
    TRef.nullary (TRef.of (T := ⟨S_, .i1⟩) main_call0_c_3) (constantI S_ 1 1#1),
    TRef.binary (TRef.of (T := ⟨S32x128x1, .i1⟩) main_call0_v10) (TRef.of (T := ⟨S_, .i1⟩) main_call0_c_3) (TRef.of (T := ⟨S32x128, .i1⟩) main_call0_v11) (fun x v => Host.reduce IntOp.andi x v reducesTo_S32x128x1_S32x128_d2 h_S_),
    TRef.binary (TRef.of (T := ⟨S32x1024x2, .f32⟩) main_arg0) (TRef.of (T := ⟨S32x128x1, .i32⟩) main_call0_v4) (TRef.of (T := ⟨S32x128x2, .f32⟩) main_call0_v12) (fun x i => Host.gather gather_S32x1024x2_S32x128x1_S32x128x2_2_1_0_0_1_2_112 x i),
    TRef.unary (TRef.of (T := ⟨S32x128, .i1⟩) main_call0_v11) (TRef.of (T := ⟨S32x128x2, .i1⟩) main_call0_v13) (broadcastInDim S32x128x2 ![0, 1] bcast_S32x128_S32x128x2_0_1),
    TRef.nullary (TRef.of (T := ⟨S_, .f32⟩) main_call0_cst) (constant S_ .f32 0x7FC00000#32),
    TRef.unary (TRef.of (T := ⟨S_, .f32⟩) main_call0_cst) (TRef.of (T := ⟨S32x128x2, .f32⟩) main_call0_v14) (broadcastInDim S32x128x2 ![] bcast_S_S32x128x2),
    TRef.ternary (TRef.of (T := ⟨S32x128x2, .i1⟩) main_call0_v13) (TRef.of (T := ⟨S32x128x2, .f32⟩) main_call0_v12) (TRef.of (T := ⟨S32x128x2, .f32⟩) main_call0_v14) (TRef.of (T := ⟨S32x128x2, .f32⟩) main_v1) select,
    unary main_arg6 main_v2 (broadcastInDim S32x128x1 ![0, 1] bcast_S32x128_S32x128x1_0_1 : (⟨S32x128, .i32⟩ : BufTy).Contents (Elt F) → (⟨S32x128x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S32x128x1, .i32⟩) main_call1_v0) (broadcastInDim S32x128x1 ![] bcast_S_S32x128x1),
    TRef.binary (TRef.of (T := ⟨S32x128x1, .i32⟩) main_v2) (TRef.of (T := ⟨S32x128x1, .i32⟩) main_call1_v0) (TRef.of (T := ⟨S32x128x1, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S32x128x1, .i32⟩) main_call1_v2) (broadcastInDim S32x128x1 ![] bcast_S_S32x128x1),
    TRef.binary (TRef.of (T := ⟨S32x128x1, .i32⟩) main_v2) (TRef.of (T := ⟨S32x128x1, .i32⟩) main_call1_v2) (TRef.of (T := ⟨S32x128x1, .i32⟩) main_call1_v3) addi,
    TRef.ternary (TRef.of (T := ⟨S32x128x1, .i1⟩) main_call1_v1) (TRef.of (T := ⟨S32x128x1, .i32⟩) main_call1_v3) (TRef.of (T := ⟨S32x128x1, .i32⟩) main_v2) (TRef.of (T := ⟨S32x128x1, .i32⟩) main_call1_v4) select,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S32x128x1, .i32⟩) main_call1_v5) (broadcastInDim S32x128x1 ![] bcast_S_S32x128x1),
    TRef.binary (TRef.of (T := ⟨S32x128x1, .i32⟩) main_call1_v4) (TRef.of (T := ⟨S32x128x1, .i32⟩) main_call1_v5) (TRef.of (T := ⟨S32x128x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S32x128x1, .i32⟩) main_call1_v8) (broadcastInDim S32x128x1 ![0, 1, 2] bcast_S1x1x1_S32x128x1_0_1_2),
    TRef.binary (TRef.of (T := ⟨S32x128x1, .i32⟩) main_call1_v4) (TRef.of (T := ⟨S32x128x1, .i32⟩) main_call1_v8) (TRef.of (T := ⟨S32x128x1, .i1⟩) main_call1_v9) (cmpi .sle),
    TRef.binary (TRef.of (T := ⟨S32x128x1, .i1⟩) main_call1_v6) (TRef.of (T := ⟨S32x128x1, .i1⟩) main_call1_v9) (TRef.of (T := ⟨S32x128x1, .i1⟩) main_call1_v10) andi,
    TRef.nullary (TRef.of (T := ⟨S_, .i1⟩) main_call1_c_3) (constantI S_ 1 1#1),
    TRef.binary (TRef.of (T := ⟨S32x128x1, .i1⟩) main_call1_v10) (TRef.of (T := ⟨S_, .i1⟩) main_call1_c_3) (TRef.of (T := ⟨S32x128, .i1⟩) main_call1_v11) (fun x v => Host.reduce IntOp.andi x v reducesTo_S32x128x1_S32x128_d2 h_S_),
    TRef.binary (TRef.of (T := ⟨S32x128x2, .f32⟩) main_arg3) (TRef.of (T := ⟨S32x128x1, .i32⟩) main_call1_v4) (TRef.of (T := ⟨S32x128x2, .f32⟩) main_call1_v12) (fun x i => Host.gather gather_S32x128x2_S32x128x1_S32x128x2_2_1_0_0_1_2_112 x i),
    TRef.unary (TRef.of (T := ⟨S32x128, .i1⟩) main_call1_v11) (TRef.of (T := ⟨S32x128x2, .i1⟩) main_call1_v13) (broadcastInDim S32x128x2 ![0, 1] bcast_S32x128_S32x128x2_0_1),
    TRef.nullary (TRef.of (T := ⟨S_, .f32⟩) main_call1_cst) (constant S_ .f32 0x7FC00000#32),
    TRef.unary (TRef.of (T := ⟨S_, .f32⟩) main_call1_cst) (TRef.of (T := ⟨S32x128x2, .f32⟩) main_call1_v14) (broadcastInDim S32x128x2 ![] bcast_S_S32x128x2),
    TRef.ternary (TRef.of (T := ⟨S32x128x2, .i1⟩) main_call1_v13) (TRef.of (T := ⟨S32x128x2, .f32⟩) main_call1_v12) (TRef.of (T := ⟨S32x128x2, .f32⟩) main_call1_v14) (TRef.of (T := ⟨S32x128x2, .f32⟩) main_v3) select,
    binary main_v1 main_v3 main_v4 (subf : (⟨S32x128x2, .f32⟩ : BufTy).Contents (Elt F) → (⟨S32x128x2, .f32⟩ : BufTy).Contents (Elt F) → (⟨S32x128x2, .f32⟩ : BufTy).Contents (Elt F)),
    unary main_v4 main_v5 (Host.absf : (⟨S32x128x2, .f32⟩ : BufTy).Contents (Elt F) → (⟨S32x128x2, .f32⟩ : BufTy).Contents (Elt F)),
    nullary main_cst (constant S_ .f32 0x00000000#32),
    binary main_v5 main_cst main_v6 ((fun x v => Host.reduceAdd x v reducesTo_S32x128x2_S32_d1_2 h_S_) : (⟨S32x128x2, .f32⟩ : BufTy).Contents (Elt F) → (⟨S_, .f32⟩ : BufTy).Contents (Elt F) → (⟨S32, .f32⟩ : BufTy).Contents (Elt F)),
    nullary main_cst_0 (constant S_ .f32 0x43800000#32),
    unary main_cst_0 main_v7 (broadcastInDim S32 ![] bcast_S_S32 : (⟨S_, .f32⟩ : BufTy).Contents (Elt F) → (⟨S32, .f32⟩ : BufTy).Contents (Elt F)),
    binary main_v6 main_v7 main_v8 (Host.divf : (⟨S32, .f32⟩ : BufTy).Contents (Elt F) → (⟨S32, .f32⟩ : BufTy).Contents (Elt F) → (⟨S32, .f32⟩ : BufTy).Contents (Elt F)),
    nullary main_cst_1 (constant S_ .f32 0x00000000#32),
    binary main_v8 main_cst_1 main_v9 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Operations 56 … 100 of @main. -/
abbrev chunk2 : List (HloOp τ sig (Elt F)) :=
  [ unary main_arg5 main_v10 (broadcastInDim S32x128x1 ![0, 1] bcast_S32x128_S32x128x1_0_1 : (⟨S32x128, .i32⟩ : BufTy).Contents (Elt F) → (⟨S32x128x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x128x1, .i32⟩) main_call2_v0) (broadcastInDim S32x128x1 ![] bcast_S_S32x128x1),
    TRef.binary (TRef.of (T := ⟨S32x128x1, .i32⟩) main_v10) (TRef.of (T := ⟨S32x128x1, .i32⟩) main_call2_v0) (TRef.of (T := ⟨S32x128x1, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S32x128x1, .i32⟩) main_call2_v2) (broadcastInDim S32x128x1 ![] bcast_S_S32x128x1),
    TRef.binary (TRef.of (T := ⟨S32x128x1, .i32⟩) main_v10) (TRef.of (T := ⟨S32x128x1, .i32⟩) main_call2_v2) (TRef.of (T := ⟨S32x128x1, .i32⟩) main_call2_v3) addi,
    TRef.ternary (TRef.of (T := ⟨S32x128x1, .i1⟩) main_call2_v1) (TRef.of (T := ⟨S32x128x1, .i32⟩) main_call2_v3) (TRef.of (T := ⟨S32x128x1, .i32⟩) main_v10) (TRef.of (T := ⟨S32x128x1, .i32⟩) main_call2_v4) select,
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S32x128x1, .i32⟩) main_call2_v5) (broadcastInDim S32x128x1 ![] bcast_S_S32x128x1),
    TRef.binary (TRef.of (T := ⟨S32x128x1, .i32⟩) main_call2_v4) (TRef.of (T := ⟨S32x128x1, .i32⟩) main_call2_v5) (TRef.of (T := ⟨S32x128x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S32x128x1, .i32⟩) main_call2_v8) (broadcastInDim S32x128x1 ![0, 1, 2] bcast_S1x1x1_S32x128x1_0_1_2),
    TRef.binary (TRef.of (T := ⟨S32x128x1, .i32⟩) main_call2_v4) (TRef.of (T := ⟨S32x128x1, .i32⟩) main_call2_v8) (TRef.of (T := ⟨S32x128x1, .i1⟩) main_call2_v9) (cmpi .sle),
    TRef.binary (TRef.of (T := ⟨S32x128x1, .i1⟩) main_call2_v6) (TRef.of (T := ⟨S32x128x1, .i1⟩) main_call2_v9) (TRef.of (T := ⟨S32x128x1, .i1⟩) main_call2_v10) andi,
    TRef.nullary (TRef.of (T := ⟨S_, .i1⟩) main_call2_c_3) (constantI S_ 1 1#1),
    TRef.binary (TRef.of (T := ⟨S32x128x1, .i1⟩) main_call2_v10) (TRef.of (T := ⟨S_, .i1⟩) main_call2_c_3) (TRef.of (T := ⟨S32x128, .i1⟩) main_call2_v11) (fun x v => Host.reduce IntOp.andi x v reducesTo_S32x128x1_S32x128_d2 h_S_),
    TRef.binary (TRef.of (T := ⟨S32x1024x1024, .f32⟩) main_arg1) (TRef.of (T := ⟨S32x128x1, .i32⟩) main_call2_v4) (TRef.of (T := ⟨S32x128x1024, .f32⟩) main_call2_v12) (fun x i => Host.gather gather_S32x1024x1024_S32x128x1_S32x128x1024_2_1_0_0_1_2_111024 x i),
    TRef.unary (TRef.of (T := ⟨S32x128, .i1⟩) main_call2_v11) (TRef.of (T := ⟨S32x128x1024, .i1⟩) main_call2_v13) (broadcastInDim S32x128x1024 ![0, 1] bcast_S32x128_S32x128x1024_0_1),
    TRef.nullary (TRef.of (T := ⟨S_, .f32⟩) main_call2_cst) (constant S_ .f32 0x7FC00000#32),
    TRef.unary (TRef.of (T := ⟨S_, .f32⟩) main_call2_cst) (TRef.of (T := ⟨S32x128x1024, .f32⟩) main_call2_v14) (broadcastInDim S32x128x1024 ![] bcast_S_S32x128x1024),
    TRef.ternary (TRef.of (T := ⟨S32x128x1024, .i1⟩) main_call2_v13) (TRef.of (T := ⟨S32x128x1024, .f32⟩) main_call2_v12) (TRef.of (T := ⟨S32x128x1024, .f32⟩) main_call2_v14) (TRef.of (T := ⟨S32x128x1024, .f32⟩) main_v11) select,
    TRef.nullary (TRef.of (T := ⟨S_, .i32⟩) main_call3_c) (constantI S_ 32 0#32),
    TRef.unary (TRef.of (T := ⟨S_, .i32⟩) main_call3_c) (TRef.of (T := ⟨S32x128, .i32⟩) main_call3_v0) (broadcastInDim S32x128 ![] bcast_S_S32x128),
    TRef.binary (TRef.of (T := ⟨S32x128, .i32⟩) main_arg6) (TRef.of (T := ⟨S32x128, .i32⟩) main_call3_v0) (TRef.of (T := ⟨S32x128, .i1⟩) main_call3_v1) (cmpi .slt),
    TRef.nullary (TRef.of (T := ⟨S_, .i32⟩) main_call3_c_0) (constantI S_ 32 128#32),
    TRef.unary (TRef.of (T := ⟨S_, .i32⟩) main_call3_c_0) (TRef.of (T := ⟨S32x128, .i32⟩) main_call3_v2) (broadcastInDim S32x128 ![] bcast_S_S32x128),
    TRef.binary (TRef.of (T := ⟨S32x128, .i32⟩) main_arg6) (TRef.of (T := ⟨S32x128, .i32⟩) main_call3_v2) (TRef.of (T := ⟨S32x128, .i32⟩) main_call3_v3) addi,
    TRef.ternary (TRef.of (T := ⟨S32x128, .i1⟩) main_call3_v1) (TRef.of (T := ⟨S32x128, .i32⟩) main_call3_v3) (TRef.of (T := ⟨S32x128, .i32⟩) main_arg6) (TRef.of (T := ⟨S32x128, .i32⟩) main_call3_v4) select,
    TRef.reshape (TRef.of (T := ⟨S32x128, .i32⟩) main_call3_v4) (TRef.of (T := ⟨S32x128x1, .i32⟩) main_call3_v5) rfl shapeCasts_S32x128_S32x128x1,
    TRef.nullary (TRef.of (T := ⟨S1, .i32⟩) main_call3_c_1) (constantI S1 32 127#32),
    TRef.nullary (TRef.of (T := ⟨S_, .i32⟩) main_call3_c_2) (constantI S_ 32 0#32),
    TRef.unary (TRef.of (T := ⟨S_, .i32⟩) main_call3_c_2) (TRef.of (T := ⟨S32x128x1, .i32⟩) main_call3_v6) (broadcastInDim S32x128x1 ![] bcast_S_S32x128x1),
    TRef.binary (TRef.of (T := ⟨S32x128x1, .i32⟩) main_call3_v5) (TRef.of (T := ⟨S32x128x1, .i32⟩) main_call3_v6) (TRef.of (T := ⟨S32x128x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S32x128x1, .i32⟩) main_call3_v9) (broadcastInDim S32x128x1 ![0, 1, 2] bcast_S1x1x1_S32x128x1_0_1_2),
    TRef.binary (TRef.of (T := ⟨S32x128x1, .i32⟩) main_call3_v5) (TRef.of (T := ⟨S32x128x1, .i32⟩) main_call3_v9) (TRef.of (T := ⟨S32x128x1, .i1⟩) main_call3_v10) (cmpi .sle),
    TRef.binary (TRef.of (T := ⟨S32x128x1, .i1⟩) main_call3_v7) (TRef.of (T := ⟨S32x128x1, .i1⟩) main_call3_v10) (TRef.of (T := ⟨S32x128x1, .i1⟩) main_call3_v11) andi,
    TRef.nullary (TRef.of (T := ⟨S_, .i1⟩) main_call3_c_3) (constantI S_ 1 1#1),
    TRef.binary (TRef.of (T := ⟨S32x128x1, .i1⟩) main_call3_v11) (TRef.of (T := ⟨S_, .i1⟩) main_call3_c_3) (TRef.of (T := ⟨S32x128, .i1⟩) main_call3_v12) (fun x v => Host.reduce IntOp.andi x v reducesTo_S32x128x1_S32x128_d2 h_S_),
    TRef.binary (TRef.of (T := ⟨S32x128, .i32⟩) main_arg4) (TRef.of (T := ⟨S32x128x1, .i32⟩) main_call3_v5) (TRef.of (T := ⟨S32x128, .i32⟩) main_call3_v13) (fun x i => Host.gather gather_S32x128_S32x128x1_S32x128_n_1_0_0_1_2_11 x i),
    TRef.nullary (TRef.of (T := ⟨S_, .i32⟩) main_call3_c_4) (constantI S_ 32 2147483648#32),
    TRef.unary (TRef.of (T := ⟨S_, .i32⟩) main_call3_c_4) (TRef.of (T := ⟨S32x128, .i32⟩) main_call3_v14) (broadcastInDim S32x128 ![] bcast_S_S32x128),
    TRef.ternary (TRef.of (T := ⟨S32x128, .i1⟩) main_call3_v12) (TRef.of (T := ⟨S32x128, .i32⟩) main_call3_v13) (TRef.of (T := ⟨S32x128, .i32⟩) main_call3_v14) (TRef.of (T := ⟨S32x128, .i32⟩) main_v12) select ]

/-- Operations 101 … 115 of @main. -/
abbrev chunk3 : List (HloOp τ sig (Elt F)) :=
  [ TRef.nullary (TRef.of (T := ⟨S_, .f32⟩) main_call4_cst) (constant S_ .f32 0xFF800000#32),
    TRef.binary (TRef.of (T := ⟨S32x128x1024, .f32⟩) main_v11) (TRef.of (T := ⟨S_, .f32⟩) main_call4_cst) (TRef.of (T := ⟨S32x128, .f32⟩) main_call4_v0) (fun x v => Host.reduce FloatOps.maximumf x v reducesTo_S32x128x1024_S32x128_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S32x128, .f32⟩) main_call4_v1) (broadcastInDim S32x128 ![] bcast_S_S32x128),
    TRef.binary (TRef.of (T := ⟨S32x128, .f32⟩) main_call4_v1) (TRef.of (T := ⟨S32x128, .f32⟩) main_call4_v0) (TRef.of (T := ⟨S32x128, .f32⟩) main_call4_v2) maximumf,
    TRef.unary (TRef.of (T := ⟨S32x128, .f32⟩) main_call4_v2) (TRef.of (T := ⟨S32x128x1, .f32⟩) main_call4_v3) (broadcastInDim S32x128x1 ![0, 1] bcast_S32x128_S32x128x1_0_1),
    TRef.unary (TRef.of (T := ⟨S32x128x1, .f32⟩) main_call4_v3) (TRef.of (T := ⟨S32x128x1024, .f32⟩) main_call4_v4) (broadcastInDim S32x128x1024 ![0, 1, 2] bcast_S32x128x1_S32x128x1024_0_1_2),
    TRef.binary (TRef.of (T := ⟨S32x128x1024, .f32⟩) main_v11) (TRef.of (T := ⟨S32x128x1024, .f32⟩) main_call4_v4) (TRef.of (T := ⟨S32x128x1024, .f32⟩) main_call4_v5) subf,
    TRef.unary (TRef.of (T := ⟨S32x128x1024, .f32⟩) main_call4_v5) (TRef.of (T := ⟨S32x128x1024, .f32⟩) main_call4_v6) Host.exp,
    TRef.nullary (TRef.of (T := ⟨S_, .f32⟩) main_call4_cst_1) (constant S_ .f32 0x00000000#32),
    TRef.binary (TRef.of (T := ⟨S32x128x1024, .f32⟩) main_call4_v6) (TRef.of (T := ⟨S_, .f32⟩) main_call4_cst_1) (TRef.of (T := ⟨S32x128, .f32⟩) main_call4_v7) (fun x v => Host.reduceAdd x v reducesTo_S32x128x1024_S32x128_d2 h_S_),
    TRef.unary (TRef.of (T := ⟨S32x128, .f32⟩) main_call4_v7) (TRef.of (T := ⟨S32x128x1, .f32⟩) main_call4_v8) (broadcastInDim S32x128x1 ![0, 1] bcast_S32x128_S32x128x1_0_1),
    TRef.unary (TRef.of (T := ⟨S32x128x1, .f32⟩) main_call4_v8) (TRef.of (T := ⟨S32x128x1, .f32⟩) main_call4_v9) Host.log,
    TRef.unary (TRef.of (T := ⟨S32x128x1, .f32⟩) main_call4_v9) (TRef.of (T := ⟨S32x128x1024, .f32⟩) main_call4_v10) (broadcastInDim S32x128x1024 ![0, 1, 2] bcast_S32x128x1_S32x128x1024_0_1_2),
    TRef.binary (TRef.of (T := ⟨S32x128x1024, .f32⟩) main_call4_v5) (TRef.of (T := ⟨S32x128x1024, .f32⟩) main_call4_v10) (TRef.of (T := ⟨S32x128x1024, .f32⟩) main_v13) subf ]

/-- Operations 116 … 138 of @main. -/
abbrev chunk4 : List (HloOp τ sig (Elt F)) :=
  [ unary main_v12 main_v14 (broadcastInDim S32x128x1 ![0, 1] bcast_S32x128_S32x128x1_0_1 : (⟨S32x128, .i32⟩ : BufTy).Contents (Elt F) → (⟨S32x128x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x128x1, .i32⟩) main_call5_v0) (broadcastInDim S32x128x1 ![] bcast_S_S32x128x1),
    TRef.binary (TRef.of (T := ⟨S32x128x1, .i32⟩) main_v14) (TRef.of (T := ⟨S32x128x1, .i32⟩) main_call5_v0) (TRef.of (T := ⟨S32x128x1, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S32x128x1, .i32⟩) main_call5_v2) (broadcastInDim S32x128x1 ![] bcast_S_S32x128x1),
    TRef.binary (TRef.of (T := ⟨S32x128x1, .i32⟩) main_v14) (TRef.of (T := ⟨S32x128x1, .i32⟩) main_call5_v2) (TRef.of (T := ⟨S32x128x1, .i32⟩) main_call5_v3) addi,
    TRef.ternary (TRef.of (T := ⟨S32x128x1, .i1⟩) main_call5_v1) (TRef.of (T := ⟨S32x128x1, .i32⟩) main_call5_v3) (TRef.of (T := ⟨S32x128x1, .i32⟩) main_v14) (TRef.of (T := ⟨S32x128x1, .i32⟩) main_call5_v4) select,
    TRef.reshape (TRef.of (T := ⟨S32x128x1, .i32⟩) main_call5_v4) (TRef.of (T := ⟨S32x128x1x1, .i32⟩) main_call5_v5) rfl shapeCasts_S32x128x1_S32x128x1x1,
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S32x128x1x1, .i32⟩) main_call5_v6) (broadcastInDim S32x128x1x1 ![] bcast_S_S32x128x1x1),
    TRef.binary (TRef.of (T := ⟨S32x128x1x1, .i32⟩) main_call5_v5) (TRef.of (T := ⟨S32x128x1x1, .i32⟩) main_call5_v6) (TRef.of (T := ⟨S32x128x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S32x128x1x1, .i32⟩) main_call5_v9) (broadcastInDim S32x128x1x1 ![0, 1, 2, 3] bcast_S1x1x1x1_S32x128x1x1_0_1_2_3),
    TRef.binary (TRef.of (T := ⟨S32x128x1x1, .i32⟩) main_call5_v5) (TRef.of (T := ⟨S32x128x1x1, .i32⟩) main_call5_v9) (TRef.of (T := ⟨S32x128x1x1, .i1⟩) main_call5_v10) (cmpi .sle),
    TRef.binary (TRef.of (T := ⟨S32x128x1x1, .i1⟩) main_call5_v7) (TRef.of (T := ⟨S32x128x1x1, .i1⟩) main_call5_v10) (TRef.of (T := ⟨S32x128x1x1, .i1⟩) main_call5_v11) andi,
    TRef.nullary (TRef.of (T := ⟨S_, .i1⟩) main_call5_c_3) (constantI S_ 1 1#1),
    TRef.binary (TRef.of (T := ⟨S32x128x1x1, .i1⟩) main_call5_v11) (TRef.of (T := ⟨S_, .i1⟩) main_call5_c_3) (TRef.of (T := ⟨S32x128x1, .i1⟩) main_call5_v12) (fun x v => Host.reduce IntOp.andi x v reducesTo_S32x128x1x1_S32x128x1_d3 h_S_),
    TRef.binary (TRef.of (T := ⟨S32x128x1024, .f32⟩) main_v13) (TRef.of (T := ⟨S32x128x1x1, .i32⟩) main_call5_v5) (TRef.of (T := ⟨S32x128x1, .f32⟩) main_call5_v13) (fun x i => Host.gather gather_S32x128x1024_S32x128x1x1_S32x128x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x128x1, .f32⟩) main_call5_v14) (broadcastInDim S32x128x1 ![] bcast_S_S32x128x1),
    TRef.ternary (TRef.of (T := ⟨S32x128x1, .i1⟩) main_call5_v12) (TRef.of (T := ⟨S32x128x1, .f32⟩) main_call5_v13) (TRef.of (T := ⟨S32x128x1, .f32⟩) main_call5_v14) (TRef.of (T := ⟨S32x128x1, .f32⟩) main_v15) select ]

/-- Operations 139 … 147 of @main. -/
abbrev chunk5 : List (HloOp τ sig (Elt F)) :=
  [ reshape main_v15 main_v16 rfl shapeCasts_S32x128x1_S32x128,
    unary main_v16 main_v17 (Host.negf : (⟨S32x128, .f32⟩ : BufTy).Contents (Elt F) → (⟨S32x128, .f32⟩ : BufTy).Contents (Elt F)),
    nullary main_cst_2 (constant S_ .f32 0x00000000#32),
    binary main_v17 main_cst_2 main_v18 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    nullary main_cst_3 (constant S_ .f32 0x43000000#32),
    unary main_cst_3 main_v19 (broadcastInDim S32 ![] bcast_S_S32 : (⟨S_, .f32⟩ : BufTy).Contents (Elt F) → (⟨S32, .f32⟩ : BufTy).Contents (Elt F)),
    binary main_v18 main_v19 main_v20 (Host.divf : (⟨S32, .f32⟩ : BufTy).Contents (Elt F) → (⟨S32, .f32⟩ : BufTy).Contents (Elt F) → (⟨S32, .f32⟩ : BufTy).Contents (Elt F)),
    nullary main_cst_4 (constant S_ .f32 0x00000000#32),
    binary main_v20 main_cst_4 main_v21 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Operations 148 … 191 of @main. -/
abbrev chunk6 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S32x128, .i32⟩) main_call6_v0) (broadcastInDim S32x128 ![] bcast_S_S32x128),
    TRef.binary (TRef.of (T := ⟨S32x128, .i32⟩) main_arg5) (TRef.of (T := ⟨S32x128, .i32⟩) main_call6_v0) (TRef.of (T := ⟨S32x128, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S32x128, .i32⟩) main_call6_v2) (broadcastInDim S32x128 ![] bcast_S_S32x128),
    TRef.binary (TRef.of (T := ⟨S32x128, .i32⟩) main_arg5) (TRef.of (T := ⟨S32x128, .i32⟩) main_call6_v2) (TRef.of (T := ⟨S32x128, .i32⟩) main_call6_v3) addi,
    TRef.ternary (TRef.of (T := ⟨S32x128, .i1⟩) main_call6_v1) (TRef.of (T := ⟨S32x128, .i32⟩) main_call6_v3) (TRef.of (T := ⟨S32x128, .i32⟩) main_arg5) (TRef.of (T := ⟨S32x128, .i32⟩) main_call6_v4) select,
    TRef.reshape (TRef.of (T := ⟨S32x128, .i32⟩) main_call6_v4) (TRef.of (T := ⟨S32x128x1, .i32⟩) main_call6_v5) rfl shapeCasts_S32x128_S32x128x1,
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S32x128x1, .i32⟩) main_call6_v6) (broadcastInDim S32x128x1 ![] bcast_S_S32x128x1),
    TRef.binary (TRef.of (T := ⟨S32x128x1, .i32⟩) main_call6_v5) (TRef.of (T := ⟨S32x128x1, .i32⟩) main_call6_v6) (TRef.of (T := ⟨S32x128x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S32x128x1, .i32⟩) main_call6_v9) (broadcastInDim S32x128x1 ![0, 1, 2] bcast_S1x1x1_S32x128x1_0_1_2),
    TRef.binary (TRef.of (T := ⟨S32x128x1, .i32⟩) main_call6_v5) (TRef.of (T := ⟨S32x128x1, .i32⟩) main_call6_v9) (TRef.of (T := ⟨S32x128x1, .i1⟩) main_call6_v10) (cmpi .sle),
    TRef.binary (TRef.of (T := ⟨S32x128x1, .i1⟩) main_call6_v7) (TRef.of (T := ⟨S32x128x1, .i1⟩) main_call6_v10) (TRef.of (T := ⟨S32x128x1, .i1⟩) main_call6_v11) andi,
    TRef.nullary (TRef.of (T := ⟨S_, .i1⟩) main_call6_c_3) (constantI S_ 1 1#1),
    TRef.binary (TRef.of (T := ⟨S32x128x1, .i1⟩) main_call6_v11) (TRef.of (T := ⟨S_, .i1⟩) main_call6_c_3) (TRef.of (T := ⟨S32x128, .i1⟩) main_call6_v12) (fun x v => Host.reduce IntOp.andi x v reducesTo_S32x128x1_S32x128_d2 h_S_),
    TRef.binary (TRef.of (T := ⟨S32x1024, .f32⟩) main_arg2) (TRef.of (T := ⟨S32x128x1, .i32⟩) main_call6_v5) (TRef.of (T := ⟨S32x128, .f32⟩) main_call6_v13) (fun x i => Host.gather gather_S32x1024_S32x128x1_S32x128_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S32x128, .f32⟩) main_call6_v14) (broadcastInDim S32x128 ![] bcast_S_S32x128),
    TRef.ternary (TRef.of (T := ⟨S32x128, .i1⟩) main_call6_v12) (TRef.of (T := ⟨S32x128, .f32⟩) main_call6_v13) (TRef.of (T := ⟨S32x128, .f32⟩) main_call6_v14) (TRef.of (T := ⟨S32x128, .f32⟩) main_v22) select,
    unary main_v22 main_v23 (Host.negf : (⟨S32x128, .f32⟩ : BufTy).Contents (Elt F) → (⟨S32x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32x128, .f32⟩) main_call7_v0) (broadcastInDim S32x128 ![] bcast_S_S32x128),
    TRef.binary (TRef.of (T := ⟨S32x128, .f32⟩) main_v23) (TRef.of (T := ⟨S32x128, .f32⟩) main_call7_v0) (TRef.of (T := ⟨S32x128, .f32⟩) main_call7_v1) maximumf,
    TRef.unary (TRef.of (T := ⟨S_, .f32⟩) main_call7_cst) (TRef.of (T := ⟨S32x128, .f32⟩) main_call7_v2) (broadcastInDim S32x128 ![] bcast_S_S32x128),
    TRef.binary (TRef.of (T := ⟨S32x128, .f32⟩) main_v23) (TRef.of (T := ⟨S32x128, .f32⟩) main_call7_v2) (TRef.of (T := ⟨S32x128, .f32⟩) main_call7_v3) subf,
    TRef.binary (TRef.of (T := ⟨S32x128, .f32⟩) main_call7_v3) (TRef.of (T := ⟨S32x128, .f32⟩) main_call7_v3) (TRef.of (T := ⟨S32x128, .i1⟩) main_call7_v4) (cmpf .une),
    TRef.unary (TRef.of (T := ⟨S_, .f32⟩) main_call7_cst) (TRef.of (T := ⟨S32x128, .f32⟩) main_call7_v5) (broadcastInDim S32x128 ![] bcast_S_S32x128),
    TRef.binary (TRef.of (T := ⟨S32x128, .f32⟩) main_v23) (TRef.of (T := ⟨S32x128, .f32⟩) main_call7_v5) (TRef.of (T := ⟨S32x128, .f32⟩) main_call7_v6) addf,
    TRef.unary (TRef.of (T := ⟨S32x128, .f32⟩) main_call7_v3) (TRef.of (T := ⟨S32x128, .f32⟩) main_call7_v7) Host.absf,
    TRef.unary (TRef.of (T := ⟨S32x128, .f32⟩) main_call7_v7) (TRef.of (T := ⟨S32x128, .f32⟩) main_call7_v8) Host.negf,
    TRef.unary (TRef.of (T := ⟨S32x128, .f32⟩) main_call7_v8) (TRef.of (T := ⟨S32x128, .f32⟩) main_call7_v9) Host.exp,
    TRef.unary (TRef.of (T := ⟨S32x128, .f32⟩) main_call7_v9) (TRef.of (T := ⟨S32x128, .f32⟩) main_call7_v10) Host.log1p,
    TRef.binary (TRef.of (T := ⟨S32x128, .f32⟩) main_call7_v1) (TRef.of (T := ⟨S32x128, .f32⟩) main_call7_v10) (TRef.of (T := ⟨S32x128, .f32⟩) main_call7_v11) addf,
    TRef.ternary (TRef.of (T := ⟨S32x128, .i1⟩) main_call7_v4) (TRef.of (T := ⟨S32x128, .f32⟩) main_call7_v6) (TRef.of (T := ⟨S32x128, .f32⟩) main_call7_v11) (TRef.of (T := ⟨S32x128, .f32⟩) main_v24) select,
    nullary main_cst_5 (constant S_ .f32 0x00000000#32),
    binary main_v24 main_cst_5 main_v25 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    nullary main_cst_6 (constant S_ .f32 0x43000000#32),
    unary main_cst_6 main_v26 (broadcastInDim S32 ![] bcast_S_S32 : (⟨S_, .f32⟩ : BufTy).Contents (Elt F) → (⟨S32, .f32⟩ : BufTy).Contents (Elt F)),
    binary main_v25 main_v26 main_v27 (Host.divf : (⟨S32, .f32⟩ : BufTy).Contents (Elt F) → (⟨S32, .f32⟩ : BufTy).Contents (Elt F) → (⟨S32, .f32⟩ : BufTy).Contents (Elt F)),
    nullary main_cst_7 (constant S_ .f32 0x00000000#32),
    binary main_v27 main_cst_7 main_v28 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Operations 192 … 241 of @main. -/
abbrev chunk7 : List (HloOp τ sig (Elt F)) :=
  [ nullary main_c (constantI S_ 1 1#1),
    unary main_c main_v29 (broadcastInDim S32x1024 ![] bcast_S_S32x1024 : (⟨S_, .i1⟩ : BufTy).Contents (Elt F) → (⟨S32x1024, .i1⟩ : BufTy).Contents (Elt F)),
    nullary main_v30 (iotaInDim S32 32 0),
    unary main_v30 main_v31 (broadcastInDim S32x1 ![0] bcast_S32_S32x1_0 : (⟨S32, .i32⟩ : BufTy).Contents (Elt F) → (⟨S32x1, .i32⟩ : BufTy).Contents (Elt F)),
    nullary main_c_8 (constantI S_ 32 0#32),
    unary main_c_8 main_v32 (broadcastInDim S32x1 ![] bcast_S_S32x1 : (⟨S_, .i32⟩ : BufTy).Contents (Elt F) → (⟨S32x1, .i32⟩ : BufTy).Contents (Elt F)),
    binary main_v31 main_v32 main_v33 (cmpi .slt : (⟨S32x1, .i32⟩ : BufTy).Contents (Elt F) → (⟨S32x1, .i32⟩ : BufTy).Contents (Elt F) → (⟨S32x1, .i1⟩ : BufTy).Contents (Elt F)),
    nullary main_c_9 (constantI S_ 32 32#32),
    unary main_c_9 main_v34 (broadcastInDim S32x1 ![] bcast_S_S32x1 : (⟨S_, .i32⟩ : BufTy).Contents (Elt F) → (⟨S32x1, .i32⟩ : BufTy).Contents (Elt F)),
    binary main_v31 main_v34 main_v35 (addi : (⟨S32x1, .i32⟩ : BufTy).Contents (Elt F) → (⟨S32x1, .i32⟩ : BufTy).Contents (Elt F) → (⟨S32x1, .i32⟩ : BufTy).Contents (Elt F)),
    ternary main_v33 main_v35 main_v31 main_v36 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_10 (constantI S_ 32 0#32),
    unary main_c_10 main_v37 (broadcastInDim S32x128 ![] bcast_S_S32x128 : (⟨S_, .i32⟩ : BufTy).Contents (Elt F) → (⟨S32x128, .i32⟩ : BufTy).Contents (Elt F)),
    binary main_arg5 main_v37 main_v38 (cmpi .slt : (⟨S32x128, .i32⟩ : BufTy).Contents (Elt F) → (⟨S32x128, .i32⟩ : BufTy).Contents (Elt F) → (⟨S32x128, .i1⟩ : BufTy).Contents (Elt F)),
    nullary main_c_11 (constantI S_ 32 1024#32),
    unary main_c_11 main_v39 (broadcastInDim S32x128 ![] bcast_S_S32x128 : (⟨S_, .i32⟩ : BufTy).Contents (Elt F) → (⟨S32x128, .i32⟩ : BufTy).Contents (Elt F)),
    binary main_arg5 main_v39 main_v40 (addi : (⟨S32x128, .i32⟩ : BufTy).Contents (Elt F) → (⟨S32x128, .i32⟩ : BufTy).Contents (Elt F) → (⟨S32x128, .i32⟩ : BufTy).Contents (Elt F)),
    ternary main_v38 main_v40 main_arg5 main_v41 (select : (⟨S32x128, .i1⟩ : BufTy).Contents (Elt F) → (⟨S32x128, .i32⟩ : BufTy).Contents (Elt F) → (⟨S32x128, .i32⟩ : BufTy).Contents (Elt F) → (⟨S32x128, .i32⟩ : BufTy).Contents (Elt F)),
    unary main_v36 main_v42 (broadcastInDim S32x128 ![0, 1] bcast_S32x1_S32x128_0_1 : (⟨S32x1, .i32⟩ : BufTy).Contents (Elt F) → (⟨S32x128, .i32⟩ : BufTy).Contents (Elt F)),
    unary main_v42 main_v43 (broadcastInDim S32x128x1 ![0, 1] bcast_S32x128_S32x128x1_0_1 : (⟨S32x128, .i32⟩ : BufTy).Contents (Elt F) → (⟨S32x128x1, .i32⟩ : BufTy).Contents (Elt F)),
    unary main_v41 main_v44 (broadcastInDim S32x128x1 ![0, 1] bcast_S32x128_S32x128x1_0_1 : (⟨S32x128, .i32⟩ : BufTy).Contents (Elt F) → (⟨S32x128x1, .i32⟩ : BufTy).Contents (Elt F)),
    binary main_v43 main_v44 main_v45 ((fun a b => concatenate S32x128x2 2 [⟨S32x128x1, a⟩, ⟨S32x128x1, b⟩] concatenates_S32x128x1_S32x128x1_S32x128x2_d2) : (⟨S32x128x1, .i32⟩ : BufTy).Contents (Elt F) → (⟨S32x128x1, .i32⟩ : BufTy).Contents (Elt F) → (⟨S32x128x2, .i32⟩ : BufTy).Contents (Elt F)),
    nullary main_c_12 (constantI S_ 1 0#1),
    unary main_c_12 main_v46 (broadcastInDim S32x128 ![] bcast_S_S32x128 : (⟨S_, .i1⟩ : BufTy).Contents (Elt F) → (⟨S32x128, .i1⟩ : BufTy).Contents (Elt F)),
    ternary main_v29 main_v45 main_v46 main_v47 ((fun x i u => Host.scatter scatter_S32x1024_S32x128x2_S32x128_n_01_01_2 (fun _ b => b) x i u) : (⟨S32x1024, .i1⟩ : BufTy).Contents (Elt F) → (⟨S32x128x2, .i32⟩ : BufTy).Contents (Elt F) → (⟨S32x128, .i1⟩ : BufTy).Contents (Elt F) → (⟨S32x1024, .i1⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S32x1024, .f32⟩) main_call8_v0) (broadcastInDim S32x1024 ![] bcast_S_S32x1024),
    TRef.binary (TRef.of (T := ⟨S32x1024, .f32⟩) main_arg2) (TRef.of (T := ⟨S32x1024, .f32⟩) main_call8_v0) (TRef.of (T := ⟨S32x1024, .f32⟩) main_call8_v1) maximumf,
    TRef.unary (TRef.of (T := ⟨S_, .f32⟩) main_call8_cst) (TRef.of (T := ⟨S32x1024, .f32⟩) main_call8_v2) (broadcastInDim S32x1024 ![] bcast_S_S32x1024),
    TRef.binary (TRef.of (T := ⟨S32x1024, .f32⟩) main_arg2) (TRef.of (T := ⟨S32x1024, .f32⟩) main_call8_v2) (TRef.of (T := ⟨S32x1024, .f32⟩) main_call8_v3) subf,
    TRef.binary (TRef.of (T := ⟨S32x1024, .f32⟩) main_call8_v3) (TRef.of (T := ⟨S32x1024, .f32⟩) main_call8_v3) (TRef.of (T := ⟨S32x1024, .i1⟩) main_call8_v4) (cmpf .une),
    TRef.unary (TRef.of (T := ⟨S_, .f32⟩) main_call8_cst) (TRef.of (T := ⟨S32x1024, .f32⟩) main_call8_v5) (broadcastInDim S32x1024 ![] bcast_S_S32x1024),
    TRef.binary (TRef.of (T := ⟨S32x1024, .f32⟩) main_arg2) (TRef.of (T := ⟨S32x1024, .f32⟩) main_call8_v5) (TRef.of (T := ⟨S32x1024, .f32⟩) main_call8_v6) addf,
    TRef.unary (TRef.of (T := ⟨S32x1024, .f32⟩) main_call8_v3) (TRef.of (T := ⟨S32x1024, .f32⟩) main_call8_v7) Host.absf,
    TRef.unary (TRef.of (T := ⟨S32x1024, .f32⟩) main_call8_v7) (TRef.of (T := ⟨S32x1024, .f32⟩) main_call8_v8) Host.negf,
    TRef.unary (TRef.of (T := ⟨S32x1024, .f32⟩) main_call8_v8) (TRef.of (T := ⟨S32x1024, .f32⟩) main_call8_v9) Host.exp,
    TRef.unary (TRef.of (T := ⟨S32x1024, .f32⟩) main_call8_v9) (TRef.of (T := ⟨S32x1024, .f32⟩) main_call8_v10) Host.log1p,
    TRef.binary (TRef.of (T := ⟨S32x1024, .f32⟩) main_call8_v1) (TRef.of (T := ⟨S32x1024, .f32⟩) main_call8_v10) (TRef.of (T := ⟨S32x1024, .f32⟩) main_call8_v11) addf,
    TRef.ternary (TRef.of (T := ⟨S32x1024, .i1⟩) main_call8_v4) (TRef.of (T := ⟨S32x1024, .f32⟩) main_call8_v6) (TRef.of (T := ⟨S32x1024, .f32⟩) main_call8_v11) (TRef.of (T := ⟨S32x1024, .f32⟩) main_v48) select,
    nullary main_cst_13 (constant S_ .f32 0x00000000#32),
    TRef.unary (TRef.of (T := ⟨S_, .f32⟩) main_cst_13) (TRef.of (T := ⟨S_, .f32⟩) main_call9_v0) id,
    TRef.unary (TRef.of (T := ⟨S_, .f32⟩) main_call9_v0) (TRef.of (T := ⟨S32x1024, .f32⟩) main_call9_v1) (broadcastInDim S32x1024 ![] bcast_S_S32x1024),
    TRef.ternary (TRef.of (T := ⟨S32x1024, .i1⟩) main_v47) (TRef.of (T := ⟨S32x1024, .f32⟩) main_v48) (TRef.of (T := ⟨S32x1024, .f32⟩) main_call9_v1) (TRef.of (T := ⟨S32x1024, .f32⟩) main_v49) select,
    nullary main_cst_14 (constant S_ .f32 0x00000000#32),
    binary main_v49 main_cst_14 main_v50 ((fun x v => Host.reduceAdd x v reducesTo_S32x1024_S32_d1 h_S_) : (⟨S32x1024, .f32⟩ : BufTy).Contents (Elt F) → (⟨S_, .f32⟩ : BufTy).Contents (Elt F) → (⟨S32, .f32⟩ : BufTy).Contents (Elt F)),
    nullary main_cst_15 (constant S_ .f32 0x44600000#32),
    unary main_cst_15 main_v51 (broadcastInDim S32 ![] bcast_S_S32 : (⟨S_, .f32⟩ : BufTy).Contents (Elt F) → (⟨S32, .f32⟩ : BufTy).Contents (Elt F)),
    binary main_v50 main_v51 main_v52 (Host.divf : (⟨S32, .f32⟩ : BufTy).Contents (Elt F) → (⟨S32, .f32⟩ : BufTy).Contents (Elt F) → (⟨S32, .f32⟩ : BufTy).Contents (Elt F)),
    nullary main_cst_16 (constant S_ .f32 0x00000000#32),
    binary main_v52 main_cst_16 main_v53 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Operations 242 … 268 of @main. -/
abbrev chunk8 : List (HloOp τ sig (Elt F)) :=
  [ nullary main_cst_17 (constant S_ .f32 0x40A00000#32),
    binary main_cst_17 main_v9 main_v54 (mulf : (⟨S_, .f32⟩ : BufTy).Contents (Elt F) → (⟨S_, .f32⟩ : BufTy).Contents (Elt F) → (⟨S_, .f32⟩ : BufTy).Contents (Elt F)),
    nullary main_cst_18 (constant S_ .f32 0x42000000#32),
    binary main_v54 main_cst_18 main_v55 (Host.divf : (⟨S_, .f32⟩ : BufTy).Contents (Elt F) → (⟨S_, .f32⟩ : BufTy).Contents (Elt F) → (⟨S_, .f32⟩ : BufTy).Contents (Elt F)),
    nullary main_cst_19 (constant S_ .f32 0x3F800000#32),
    binary main_cst_19 main_v21 main_v56 (mulf : (⟨S_, .f32⟩ : BufTy).Contents (Elt F) → (⟨S_, .f32⟩ : BufTy).Contents (Elt F) → (⟨S_, .f32⟩ : BufTy).Contents (Elt F)),
    nullary main_cst_20 (constant S_ .f32 0x42000000#32),
    binary main_v56 main_cst_20 main_v57 (Host.divf : (⟨S_, .f32⟩ : BufTy).Contents (Elt F) → (⟨S_, .f32⟩ : BufTy).Contents (Elt F) → (⟨S_, .f32⟩ : BufTy).Contents (Elt F)),
    nullary main_cst_21 (constant S_ .f32 0x40000000#32),
    binary main_cst_21 main_v28 main_v58 (mulf : (⟨S_, .f32⟩ : BufTy).Contents (Elt F) → (⟨S_, .f32⟩ : BufTy).Contents (Elt F) → (⟨S_, .f32⟩ : BufTy).Contents (Elt F)),
    nullary main_cst_22 (constant S_ .f32 0x42000000#32),
    binary main_v58 main_cst_22 main_v59 (Host.divf : (⟨S_, .f32⟩ : BufTy).Contents (Elt F) → (⟨S_, .f32⟩ : BufTy).Contents (Elt F) → (⟨S_, .f32⟩ : BufTy).Contents (Elt F)),
    nullary main_cst_23 (constant S_ .f32 0x3DCCCCCD#32),
    binary main_cst_23 main_v53 main_v60 (mulf : (⟨S_, .f32⟩ : BufTy).Contents (Elt F) → (⟨S_, .f32⟩ : BufTy).Contents (Elt F) → (⟨S_, .f32⟩ : BufTy).Contents (Elt F)),
    nullary main_cst_24 (constant S_ .f32 0x42000000#32),
    binary main_v60 main_cst_24 main_v61 (Host.divf : (⟨S_, .f32⟩ : BufTy).Contents (Elt F) → (⟨S_, .f32⟩ : BufTy).Contents (Elt F) → (⟨S_, .f32⟩ : BufTy).Contents (Elt F)),
    binary main_v55 main_v57 main_v62 (addf : (⟨S_, .f32⟩ : BufTy).Contents (Elt F) → (⟨S_, .f32⟩ : BufTy).Contents (Elt F) → (⟨S_, .f32⟩ : BufTy).Contents (Elt F)),
    binary main_v62 main_v59 main_v63 (addf : (⟨S_, .f32⟩ : BufTy).Contents (Elt F) → (⟨S_, .f32⟩ : BufTy).Contents (Elt F) → (⟨S_, .f32⟩ : BufTy).Contents (Elt F)),
    binary main_v63 main_v61 main_v64 (addf : (⟨S_, .f32⟩ : BufTy).Contents (Elt F) → (⟨S_, .f32⟩ : BufTy).Contents (Elt F) → (⟨S_, .f32⟩ : BufTy).Contents (Elt F)),
    nullary main_cst_25 (constant S_ .f32 0x43000000#32),
    unary main_v55 main_v65 (broadcastInDim S1 ![] bcast_S_S1 : (⟨S_, .f32⟩ : BufTy).Contents (Elt F) → (⟨S1, .f32⟩ : BufTy).Contents (Elt F)),
    unary main_v57 main_v66 (broadcastInDim S1 ![] bcast_S_S1 : (⟨S_, .f32⟩ : BufTy).Contents (Elt F) → (⟨S1, .f32⟩ : BufTy).Contents (Elt F)),
    unary main_v59 main_v67 (broadcastInDim S1 ![] bcast_S_S1 : (⟨S_, .f32⟩ : BufTy).Contents (Elt F) → (⟨S1, .f32⟩ : BufTy).Contents (Elt F)),
    unary main_v61 main_v68 (broadcastInDim S1 ![] bcast_S_S1 : (⟨S_, .f32⟩ : BufTy).Contents (Elt F) → (⟨S1, .f32⟩ : BufTy).Contents (Elt F)),
    unary main_v64 main_v69 (broadcastInDim S1 ![] bcast_S_S1 : (⟨S_, .f32⟩ : BufTy).Contents (Elt F) → (⟨S1, .f32⟩ : BufTy).Contents (Elt F)),
    unary main_cst_25 main_v70 (broadcastInDim S1 ![] bcast_S_S1 : (⟨S_, .f32⟩ : BufTy).Contents (Elt F) → (⟨S1, .f32⟩ : BufTy).Contents (Elt F)),
    nary ![main_v65, main_v66, main_v67, main_v68, main_v69, main_v70] main_v71 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

theorem chunk1_fresh : (chunk1 : List (HloOp τ sig (Elt F))).Forall fun op => op.fresh = ∅ := by
  simp only [List.Forall]; repeat' constructor

set_option maxRecDepth 8192 in
theorem chunk1_keeps : (chunk1 : List (HloOp τ sig (Elt F))).Forall fun op =>
    ∀ r ∈ argRefs, Proc.devRef .tc r ∉ op.writes := by
  simp only [chunk1, List.Forall, nullary_writes, unary_writes, binary_writes, ternary_writes, quaternary_writes, reshape_writes, nary_writes]
  repeat' apply And.intro
  all_goals exact writes_avoid (by decide)

/-- What chunk 1 does not write it leaves as it was. -/
theorem chunk1_kept (W : Valuation τ sig (Elt F)) {r : Ref sig .tc} (hr : r ∈ argRefs) :
    StableHlo.after (chunk1 (F := F)) W (r !) = W (r !) :=
  after_of_forall_not_mem _ W fun op hop => (List.forall_iff_forall_mem.mp chunk1_keeps) op hop r hr

theorem chunk2_fresh : (chunk2 : List (HloOp τ sig (Elt F))).Forall fun op => op.fresh = ∅ := by
  simp only [List.Forall]; repeat' constructor

set_option maxRecDepth 8192 in
theorem chunk2_keeps : (chunk2 : List (HloOp τ sig (Elt F))).Forall fun op =>
    ∀ r ∈ argRefs ++ [main_v9], Proc.devRef .tc r ∉ op.writes := by
  simp only [chunk2, List.Forall, nullary_writes, unary_writes, binary_writes, ternary_writes, quaternary_writes, reshape_writes, nary_writes]
  repeat' apply And.intro
  all_goals exact writes_avoid (by decide)

/-- What chunk 2 does not write it leaves as it was. -/
theorem chunk2_kept (W : Valuation τ sig (Elt F)) {r : Ref sig .tc} (hr : r ∈ argRefs ++ [main_v9]) :
    StableHlo.after (chunk2 (F := F)) W (r !) = W (r !) :=
  after_of_forall_not_mem _ W fun op hop => (List.forall_iff_forall_mem.mp chunk2_keeps) op hop r hr

theorem chunk3_fresh : (chunk3 : List (HloOp τ sig (Elt F))).Forall fun op => op.fresh = ∅ := by
  simp only [List.Forall]; repeat' constructor

set_option maxRecDepth 8192 in
theorem chunk3_keeps : (chunk3 : List (HloOp τ sig (Elt F))).Forall fun op =>
    ∀ r ∈ argRefs ++ [main_v9, main_v12], Proc.devRef .tc r ∉ op.writes := by
  simp only [chunk3, List.Forall, nullary_writes, unary_writes, binary_writes, ternary_writes, quaternary_writes, reshape_writes, nary_writes]
  repeat' apply And.intro
  all_goals exact writes_avoid (by decide)

/-- What chunk 3 does not write it leaves as it was. -/
theorem chunk3_kept (W : Valuation τ sig (Elt F)) {r : Ref sig .tc} (hr : r ∈ argRefs ++ [main_v9, main_v12]) :
    StableHlo.after (chunk3 (F := F)) W (r !) = W (r !) :=
  after_of_forall_not_mem _ W fun op hop => (List.forall_iff_forall_mem.mp chunk3_keeps) op hop r hr

theorem chunk4_fresh : (chunk4 : List (HloOp τ sig (Elt F))).Forall fun op => op.fresh = ∅ := by
  simp only [List.Forall]; repeat' constructor

set_option maxRecDepth 8192 in
theorem chunk4_keeps : (chunk4 : List (HloOp τ sig (Elt F))).Forall fun op =>
    ∀ r ∈ argRefs ++ [main_v9], Proc.devRef .tc r ∉ op.writes := by
  simp only [chunk4, List.Forall, nullary_writes, unary_writes, binary_writes, ternary_writes, quaternary_writes, reshape_writes, nary_writes]
  repeat' apply And.intro
  all_goals exact writes_avoid (by decide)

/-- What chunk 4 does not write it leaves as it was. -/
theorem chunk4_kept (W : Valuation τ sig (Elt F)) {r : Ref sig .tc} (hr : r ∈ argRefs ++ [main_v9]) :
    StableHlo.after (chunk4 (F := F)) W (r !) = W (r !) :=
  after_of_forall_not_mem _ W fun op hop => (List.forall_iff_forall_mem.mp chunk4_keeps) op hop r hr

theorem chunk5_fresh : (chunk5 : List (HloOp τ sig (Elt F))).Forall fun op => op.fresh = ∅ := by
  simp only [List.Forall]; repeat' constructor

set_option maxRecDepth 8192 in
theorem chunk5_keeps : (chunk5 : List (HloOp τ sig (Elt F))).Forall fun op =>
    ∀ r ∈ argRefs ++ [main_v9], Proc.devRef .tc r ∉ op.writes := by
  simp only [chunk5, List.Forall, nullary_writes, unary_writes, binary_writes, ternary_writes, quaternary_writes, reshape_writes, nary_writes]
  repeat' apply And.intro
  all_goals exact writes_avoid (by decide)

/-- What chunk 5 does not write it leaves as it was. -/
theorem chunk5_kept (W : Valuation τ sig (Elt F)) {r : Ref sig .tc} (hr : r ∈ argRefs ++ [main_v9]) :
    StableHlo.after (chunk5 (F := F)) W (r !) = W (r !) :=
  after_of_forall_not_mem _ W fun op hop => (List.forall_iff_forall_mem.mp chunk5_keeps) op hop r hr

theorem chunk6_fresh : (chunk6 : List (HloOp τ sig (Elt F))).Forall fun op => op.fresh = ∅ := by
  simp only [List.Forall]; repeat' constructor

set_option maxRecDepth 8192 in
theorem chunk6_keeps : (chunk6 : List (HloOp τ sig (Elt F))).Forall fun op =>
    ∀ r ∈ argRefs ++ [main_v9, main_v21], Proc.devRef .tc r ∉ op.writes := by
  simp only [chunk6, List.Forall, nullary_writes, unary_writes, binary_writes, ternary_writes, quaternary_writes, reshape_writes, nary_writes]
  repeat' apply And.intro
  all_goals exact writes_avoid (by decide)

/-- What chunk 6 does not write it leaves as it was. -/
theorem chunk6_kept (W : Valuation τ sig (Elt F)) {r : Ref sig .tc} (hr : r ∈ argRefs ++ [main_v9, main_v21]) :
    StableHlo.after (chunk6 (F := F)) W (r !) = W (r !) :=
  after_of_forall_not_mem _ W fun op hop => (List.forall_iff_forall_mem.mp chunk6_keeps) op hop r hr

theorem chunk7_fresh : (chunk7 : List (HloOp τ sig (Elt F))).Forall fun op => op.fresh = ∅ := by
  simp only [List.Forall]; repeat' constructor

set_option maxRecDepth 8192 in
theorem chunk7_keeps : (chunk7 : List (HloOp τ sig (Elt F))).Forall fun op =>
    ∀ r ∈ argRefs ++ [main_v9, main_v21, main_v28], Proc.devRef .tc r ∉ op.writes := by
  simp only [chunk7, List.Forall, nullary_writes, unary_writes, binary_writes, ternary_writes, quaternary_writes, reshape_writes, nary_writes]
  repeat' apply And.intro
  all_goals exact writes_avoid (by decide)

/-- What chunk 7 does not write it leaves as it was. -/
theorem chunk7_kept (W : Valuation τ sig (Elt F)) {r : Ref sig .tc} (hr : r ∈ argRefs ++ [main_v9, main_v21, main_v28]) :
    StableHlo.after (chunk7 (F := F)) W (r !) = W (r !) :=
  after_of_forall_not_mem _ W fun op hop => (List.forall_iff_forall_mem.mp chunk7_keeps) op hop r hr

theorem chunk8_fresh : (chunk8 : List (HloOp τ sig (Elt F))).Forall fun op => op.fresh = ∅ := by
  simp only [List.Forall]; repeat' constructor

set_option maxRecDepth 8192 in
theorem chunk8_keeps : (chunk8 : List (HloOp τ sig (Elt F))).Forall fun op =>
    ∀ r ∈ argRefs, Proc.devRef .tc r ∉ op.writes := by
  simp only [chunk8, List.Forall, nullary_writes, unary_writes, binary_writes, ternary_writes, quaternary_writes, reshape_writes, nary_writes]
  repeat' apply And.intro
  all_goals exact writes_avoid (by decide)

/-- What chunk 8 does not write it leaves as it was. -/
theorem chunk8_kept (W : Valuation τ sig (Elt F)) {r : Ref sig .tc} (hr : r ∈ argRefs) :
    StableHlo.after (chunk8 (F := F)) W (r !) = W (r !) :=
  after_of_forall_not_mem _ W fun op hop => (List.forall_iff_forall_mem.mp chunk8_keeps) op hop r hr

/-- @main's operations are the eight chunks in order. -/
theorem ops_eq : (ops : List (HloOp τ sig (Elt F)))
    = chunk1 ++ (chunk2 ++ (chunk3 ++ (chunk4 ++ (chunk5 ++ (chunk6 ++ (chunk7 ++ chunk8)))))) := rfl

/-! ## What each chunk computes -/

set_option maxRecDepth 8192 in
set_option maxHeartbeats 4000000 in
/-- Chunk 1: the position loss. -/
theorem chunk1_v9 (W : Valuation τ sig (Elt F)) :
    StableHlo.after (chunk1 (F := F)) W (main_v9 !) = val_main_v9 (F := F) (W (main_arg0 !)) (W (main_arg3 !)) (W (main_arg5 !)) (W (main_arg6 !)) := by
  simp only [chunk1]
  after_results_simp
  simp only [StableHlo.TRef.ofBuf, StableHlo.TRef.toBuf]
  repeat rw [cast_eq]
  rfl

set_option maxRecDepth 8192 in
set_option maxHeartbeats 4000000 in
/-- Chunk 2: the gathered logits. -/
theorem chunk2_v11 (W : Valuation τ sig (Elt F)) :
    StableHlo.after (chunk2 (F := F)) W (main_v11 !) = val_main_v11 (F := F) (W (main_arg1 !)) (W (main_arg5 !)) := by
  simp only [chunk2]
  after_results_simp
  simp only [StableHlo.TRef.ofBuf, StableHlo.TRef.toBuf]
  repeat rw [cast_eq]
  rfl

set_option maxRecDepth 8192 in
set_option maxHeartbeats 4000000 in
/-- Chunk 2: the gathered classes. -/
theorem chunk2_v12 (W : Valuation τ sig (Elt F)) :
    StableHlo.after (chunk2 (F := F)) W (main_v12 !) = val_main_v12 (F := F) (W (main_arg4 !)) (W (main_arg6 !)) := by
  simp only [chunk2]
  after_results_simp
  simp only [StableHlo.TRef.ofBuf, StableHlo.TRef.toBuf]
  repeat rw [cast_eq]
  rfl
set_option maxRecDepth 8192 in
set_option maxHeartbeats 4000000 in
/-- Chunk 3: the log-softmax of the gathered logits. -/
theorem chunk3_v13 (W : Valuation τ sig (Elt F)) (x1 : FVec F S32x1024x1024 .f32) (x5 : IVec S32x128 32)
    (h11 : W (main_v11 !) = val_main_v11 (F := F) x1 x5) :
    StableHlo.after (chunk3 (F := F)) W (main_v13 !) = val_main_v13 (F := F) x1 x5 := by
  simp only [chunk3]
  after_results_simp
  simp only [StableHlo.TRef.ofBuf, StableHlo.TRef.toBuf]
  repeat rw [cast_eq]
  simp only [h11]
  rfl

set_option maxRecDepth 8192 in
set_option maxHeartbeats 4000000 in
/-- Chunk 4: each position's log-probability of its class. -/
theorem chunk4_v15 (W : Valuation τ sig (Elt F)) (x1 : FVec F S32x1024x1024 .f32) (x4 x5 x6 : IVec S32x128 32)
    (h13 : W (main_v13 !) = val_main_v13 (F := F) x1 x5) (h12 : W (main_v12 !) = val_main_v12 (F := F) x4 x6) :
    StableHlo.after (chunk4 (F := F)) W (main_v15 !) = val_main_v15 (F := F) x1 x4 x5 x6 := by
  simp only [chunk4]
  after_results_simp
  simp only [StableHlo.TRef.ofBuf, StableHlo.TRef.toBuf]
  repeat rw [cast_eq]
  simp only [h13, h12]
  rfl

set_option maxRecDepth 8192 in
set_option maxHeartbeats 4000000 in
/-- Chunk 5: the class loss. -/
theorem chunk5_v21 (W : Valuation τ sig (Elt F)) (x1 : FVec F S32x1024x1024 .f32) (x4 x5 x6 : IVec S32x128 32)
    (h15 : W (main_v15 !) = val_main_v15 (F := F) x1 x4 x5 x6) :
    StableHlo.after (chunk5 (F := F)) W (main_v21 !) = val_main_v21 (F := F) x1 x4 x5 x6 := by
  simp only [chunk5]
  after_results_simp
  simp only [h15]
  rfl

set_option maxRecDepth 8192 in
set_option maxHeartbeats 4000000 in
/-- Chunk 6: the object-confidence loss. -/
theorem chunk6_v28 (W : Valuation τ sig (Elt F)) :
    StableHlo.after (chunk6 (F := F)) W (main_v28 !) = val_main_v28 (F := F) (W (main_arg2 !)) (W (main_arg5 !)) := by
  simp only [chunk6]
  after_results_simp
  simp only [StableHlo.TRef.ofBuf, StableHlo.TRef.toBuf]
  repeat rw [cast_eq]
  rfl

set_option maxRecDepth 8192 in
set_option maxHeartbeats 4000000 in
/-- Chunk 7: the no-object-confidence loss. -/
theorem chunk7_v53 (W : Valuation τ sig (Elt F)) :
    StableHlo.after (chunk7 (F := F)) W (main_v53 !) = val_main_v53 (F := F) (W (main_arg2 !)) (W (main_arg5 !)) := by
  simp only [chunk7]
  after_results_simp
  simp only [StableHlo.TRef.ofBuf, StableHlo.TRef.toBuf]
  repeat rw [cast_eq]
  rfl

set_option maxRecDepth 8192 in
set_option maxHeartbeats 4000000 in
/-- Chunk 8: the stacked result, from the four losses. -/
theorem chunk8_v71 (W : Valuation τ sig (Elt F)) (x0 : FVec F S32x1024x2 .f32) (x1 : FVec F S32x1024x1024 .f32)
    (x2 : FVec F S32x1024 .f32) (x3 : FVec F S32x128x2 .f32) (x4 x5 x6 : IVec S32x128 32)
    (h9 : W (main_v9 !) = val_main_v9 (F := F) x0 x3 x5 x6) (h21 : W (main_v21 !) = val_main_v21 (F := F) x1 x4 x5 x6)
    (h28 : W (main_v28 !) = val_main_v28 (F := F) x2 x5) (h53 : W (main_v53 !) = val_main_v53 (F := F) x2 x5) :
    StableHlo.after (chunk8 (F := F)) W (main_v71 !) = val_main_v71 (F := F) x0 x1 x2 x3 x4 x5 x6 := by
  simp only [chunk8, after_cons, after_nil]
  refine (nary6_result_of _ _ _ _
    (a0 := val_main_v65 (F := F) x0 x3 x5 x6) (a1 := val_main_v66 (F := F) x1 x4 x5 x6)
    (a2 := val_main_v67 (F := F) x2 x5) (a3 := val_main_v68 (F := F) x2 x5)
    (a4 := val_main_v69 (F := F) x0 x1 x2 x3 x4 x5 x6) (a5 := val_main_v70 (F := F))
    ?_ ?_ ?_ ?_ ?_ ?_).trans ?_
  · after_results_simp
    simp only [h9]
    rfl
  · after_results_simp
    simp only [h21]
    rfl
  · after_results_simp
    simp only [h28]
    rfl
  · after_results_simp
    simp only [h53]
    rfl
  · after_results_simp
    simp only [h9, h21, h28, h53]
    rfl
  · after_results_simp
    first | rfl | skip
  · rfl

/-! ## All of @main -/

/-- The stacked result after all the operations, over any contents: the reference's value function of the arguments. -/
theorem after_v71 (V : Valuation τ sig (Elt F)) :
    StableHlo.after (ops (F := F)) V (main_v71 !)
      = val_main_v71 (F := F) (V (main_arg0 !)) (V (main_arg1 !)) (V (main_arg2 !)) (V (main_arg3 !)) (V (main_arg4 !))
          (V (main_arg5 !)) (V (main_arg6 !)) := by
  rw [ops_eq]
  simp only [StableHlo.after_append]
  -- the contents after each chunk: the arguments as they were, and the values computed so far
  have k1 : ∀ r ∈ argRefs, StableHlo.after (chunk1 (F := F)) V (r !) = V (r !) := fun r hr => chunk1_kept V hr
  have e9 := chunk1_v9 V
  generalize StableHlo.after (chunk1 (F := F)) V = V1 at *
  have k2 : ∀ r ∈ argRefs, StableHlo.after (chunk2 (F := F)) V1 (r !) = V (r !) := fun r hr =>
    (chunk2_kept V1 (List.mem_append_left _ hr)).trans (k1 r hr)
  have e9₂ : StableHlo.after (chunk2 (F := F)) V1 (main_v9 !) = _ := (chunk2_kept V1 (by decide)).trans e9
  have e11 := chunk2_v11 V1
  have e12 := chunk2_v12 V1
  rw [k1 _ (by decide), k1 _ (by decide)] at e11 e12
  generalize StableHlo.after (chunk2 (F := F)) V1 = V2 at *
  have k3 : ∀ r ∈ argRefs, StableHlo.after (chunk3 (F := F)) V2 (r !) = V (r !) := fun r hr =>
    (chunk3_kept V2 (List.mem_append_left _ hr)).trans (k2 r hr)
  have e9₃ : StableHlo.after (chunk3 (F := F)) V2 (main_v9 !) = _ := (chunk3_kept V2 (by decide)).trans e9₂
  have e12₃ : StableHlo.after (chunk3 (F := F)) V2 (main_v12 !) = _ := (chunk3_kept V2 (by decide)).trans e12
  have e13 := chunk3_v13 V2 _ _ e11
  generalize StableHlo.after (chunk3 (F := F)) V2 = V3 at *
  have k4 : ∀ r ∈ argRefs, StableHlo.after (chunk4 (F := F)) V3 (r !) = V (r !) := fun r hr =>
    (chunk4_kept V3 (List.mem_append_left _ hr)).trans (k3 r hr)
  have e9₄ : StableHlo.after (chunk4 (F := F)) V3 (main_v9 !) = _ := (chunk4_kept V3 (by decide)).trans e9₃
  have e15 := chunk4_v15 V3 _ _ _ _ e13 e12₃
  generalize StableHlo.after (chunk4 (F := F)) V3 = V4 at *
  have k5 : ∀ r ∈ argRefs, StableHlo.after (chunk5 (F := F)) V4 (r !) = V (r !) := fun r hr =>
    (chunk5_kept V4 (List.mem_append_left _ hr)).trans (k4 r hr)
  have e9₅ : StableHlo.after (chunk5 (F := F)) V4 (main_v9 !) = _ := (chunk5_kept V4 (by decide)).trans e9₄
  have e21 := chunk5_v21 V4 _ _ _ _ e15
  generalize StableHlo.after (chunk5 (F := F)) V4 = V5 at *
  have k6 : ∀ r ∈ argRefs, StableHlo.after (chunk6 (F := F)) V5 (r !) = V (r !) := fun r hr =>
    (chunk6_kept V5 (List.mem_append_left _ hr)).trans (k5 r hr)
  have e9₆ : StableHlo.after (chunk6 (F := F)) V5 (main_v9 !) = _ := (chunk6_kept V5 (by decide)).trans e9₅
  have e21₆ : StableHlo.after (chunk6 (F := F)) V5 (main_v21 !) = _ := (chunk6_kept V5 (by decide)).trans e21
  have e28 := chunk6_v28 V5
  rw [k5 _ (by decide), k5 _ (by decide)] at e28
  generalize StableHlo.after (chunk6 (F := F)) V5 = V6 at *
  have e9₇ : StableHlo.after (chunk7 (F := F)) V6 (main_v9 !) = _ := (chunk7_kept V6 (by decide)).trans e9₆
  have e21₇ : StableHlo.after (chunk7 (F := F)) V6 (main_v21 !) = _ := (chunk7_kept V6 (by decide)).trans e21₆
  have e28₇ : StableHlo.after (chunk7 (F := F)) V6 (main_v28 !) = _ := (chunk7_kept V6 (by decide)).trans e28
  have e53 := chunk7_v53 V6
  rw [k6 _ (by decide), k6 _ (by decide)] at e53
  exact chunk8_v71 _ _ _ _ _ _ _ _ e9₇ e21₇ e28₇ e53

/-- Every argument array after all the operations: as it was. -/
theorem after_arg (V : Valuation τ sig (Elt F)) {r : Ref sig .tc} (hr : r ∈ argRefs) :
    StableHlo.after (ops (F := F)) V (r !) = V (r !) := by
  rw [ops_eq]
  simp only [StableHlo.after_append]
  rw [chunk8_kept _ hr, chunk7_kept _ (List.mem_append_left _ hr), chunk6_kept _ (List.mem_append_left _ hr),
    chunk5_kept _ (List.mem_append_left _ hr), chunk4_kept _ (List.mem_append_left _ hr),
    chunk3_kept _ (List.mem_append_left _ hr), chunk2_kept _ (List.mem_append_left _ hr), chunk1_kept _ hr]

/-- No operation of @main allocates. -/
theorem ops_fresh : ∀ op ∈ (ops : List (HloOp τ sig (Elt F))), op.fresh = ∅ := by
  rw [ops_eq]
  intro op hop
  simp only [List.mem_append] at hop
  rcases hop with h | h | h | h | h | h | h | h
  · exact (List.forall_iff_forall_mem.mp chunk1_fresh) op h
  · exact (List.forall_iff_forall_mem.mp chunk2_fresh) op h
  · exact (List.forall_iff_forall_mem.mp chunk3_fresh) op h
  · exact (List.forall_iff_forall_mem.mp chunk4_fresh) op h
  · exact (List.forall_iff_forall_mem.mp chunk5_fresh) op h
  · exact (List.forall_iff_forall_mem.mp chunk6_fresh) op h
  · exact (List.forall_iff_forall_mem.mp chunk7_fresh) op h
  · exact (List.forall_iff_forall_mem.mp chunk8_fresh) op h

/-! ## The run -/

/-- On every device, for any float values, from any memory with zero counters: every weakly fair execution of @main
    terminates with the result at the reference's value function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
        = val_main_v71 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v71).trans (after_v71 _),
       (h c main_arg0).trans (after_arg _ (by decide)), (h c main_arg1).trans (after_arg _ (by decide)),
       (h c main_arg2).trans (after_arg _ (by decide)), (h c main_arg3).trans (after_arg _ (by decide)),
       (h c main_arg4).trans (after_arg _ (by decide)), (h c main_arg5).trans (after_arg _ (by decide)),
       (h c main_arg6).trans (after_arg _ (by decide))⟩)
    (run_seq scopedRefs_eq scopedSems_eq defs main (fun _ => ops) main_eq (fun _ => ops_sub) m ρ
      (hfresh := fun _ => ops_fresh))

end Cert.RefRun

end
-- ==== Proof.lean ====
/-
  The certificate: a detection loss whose class term the kernel program computes in one pipelined region — row maximum,
  log-sum-exp, the target's logit by a one-hot sum, the mean over the matched rows folded into a product with 2⁻⁷ —
  against the reference's log-softmax, gather at the target class and mean. The three frames: the kernel program's (at
  either float instance) from the region's frame run around its host operations; the reference's from its run. The
  idealization rewrote nothing. Over the extended reals, under the precondition (finite inputs, matched indices and
  classes in range), the two programs end with equal results.
-/
import proofs.«428638_j60473139528033_2_alg».proof.Defs
import proofs.«428638_j60473139528033_2_alg».proof.Proof.Gen.Kernel
import proofs.«428638_j60473139528033_2_alg».proof.Proof.Gen.KernelIdeal
import proofs.«428638_j60473139528033_2_alg».proof.Proof.Gen.ReferenceIdeal
import proofs.«428638_j60473139528033_2_alg».proof.Proof.Gen.Pre_finite_inputs
import proofs.«428638_j60473139528033_2_alg».proof.Proof.KFrame
import proofs.«428638_j60473139528033_2_alg».proof.Proof.KIFrame
import proofs.«428638_j60473139528033_2_alg».proof.Proof.Result
import proofs.«428638_j60473139528033_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both programs run; the kernel program's result buffer ends at the host operations after the region applied to the
    region's exit contents, which under the precondition is the reference's final stage of the same arguments; the
    reference's result buffer ends at that stage of its own arguments, which agree. -/
theorem algebraic : Cert.algebraic_KernelIdeal_ReferenceIdeal := by
  intro m ρ m' ρ' hpre hagree
  refine ⟨fun c => Cert.Result.kres m c, ?_, ?_⟩
  · refine (θ_run Cert.KernelIdeal.defs _ _).mono (fun r h c => ?_) (Cert.KernelIdeal.Fr.run_main m ρ)
    have hr := (h c).2
    exact ⟨hr Cert.KernelIdeal.main_v64 (Pipeline.mem_restRefs_of Cert.KernelIdeal.main_v64 (by decide) (by decide)),
      (hr Cert.KernelIdeal.main_arg0 (Pipeline.mem_restRefs_of _ (by decide) (by decide))).trans (Cert.KernelIdeal.Fr.W_main_arg0 m _ c),
      (hr Cert.KernelIdeal.main_arg1 (Pipeline.mem_restRefs_of _ (by decide) (by decide))).trans (Cert.KernelIdeal.Fr.W_main_arg1 m _ c),
      (hr Cert.KernelIdeal.main_arg2 (Pipeline.mem_restRefs_of _ (by decide) (by decide))).trans (Cert.KernelIdeal.Fr.W_main_arg2 m _ c),
      (hr Cert.KernelIdeal.main_arg3 (Pipeline.mem_restRefs_of _ (by decide) (by decide))).trans (Cert.KernelIdeal.Fr.W_main_arg3 m _ c),
      (hr Cert.KernelIdeal.main_arg4 (Pipeline.mem_restRefs_of _ (by decide) (by decide))).trans (Cert.KernelIdeal.Fr.W_main_arg4 m _ c),
      (hr Cert.KernelIdeal.main_arg5 (Pipeline.mem_restRefs_of _ (by decide) (by decide))).trans (Cert.KernelIdeal.Fr.W_main_arg5 m _ c),
      (hr Cert.KernelIdeal.main_arg6 (Pipeline.mem_restRefs_of _ (by decide) (by decide))).trans (Cert.KernelIdeal.Fr.W_main_arg6 m _ c)⟩
  · refine (θ_run Cert.ReferenceIdeal.defs _ _).mono (fun r h c => ⟨(h c).1.trans ?_, (h c).2⟩)
      (Cert.RefRun.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.Result.kres_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
